-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S16384x2048 : Shape := ⟨2, ![16384, 2048]⟩
abbrev S2048 : Shape := ⟨1, ![2048]⟩
abbrev S2048x16384 : Shape := ⟨2, ![2048, 16384]⟩
abbrev S2048x1 : Shape := ⟨2, ![2048, 1]⟩
abbrev S16384x1 : Shape := ⟨2, ![16384, 1]⟩
abbrev S1x16384 : Shape := ⟨2, ![1, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_
  bcast_S_S2048x16384 : S_.BroadcastsInDim S2048x16384 (![] : Fin 0 → Fin S2048x16384.rank)
  reducesTo_S2048x16384_S_d0_1 : S2048x16384.ReducesTo [0, 1] S_
  bcast_S_S2048x1 : S_.BroadcastsInDim S2048x1 (![] : Fin 0 → Fin S2048x1.rank)
  reducesTo_S2048x1_S_d0_1 : S2048x1.ReducesTo [0, 1] S_
  bcast_S_S16384x1 : S_.BroadcastsInDim S16384x1 (![] : Fin 0 → Fin S16384x1.rank)
  reducesTo_S16384x1_S_d0_1 : S16384x1.ReducesTo [0, 1] S_
  bcast_S_S1x16384 : S_.BroadcastsInDim S1x16384 (![] : Fin 0 → Fin S1x16384.rank)
  reducesTo_S1x16384_S_d0_1 : S1x16384.ReducesTo [0, 1] S_
  shapeCasts_S2048x1_S2048 : S2048x1.ShapeCasts S2048

variable [Facts]

def fn_part3 {F : FTy → Type} [FloatOps F] (main_arg2 : FVec F S2048 .f32) (main_arg4 : FVec F S2048x1 .f32) (main_arg10 : IVec S2048 32) (main_v46 : IVec S_ 1) (main_v49 : IVec S_ 1) : IVec S_ 1 :=
  let main_v50 : IVec S_ 1 := andi main_v46 main_v49
  let main_c_20 : IVec S_ 32 := constantI S_ 32 16384#32
  let main_v51 : IVec S2048 32 := broadcastInDim S2048 ![] bcast_S_S2048 main_c_20
  let main_v52 : IVec S2048 1 := cmpi .slt main_arg10 main_v51
  let main_c_21 : IVec S_ 1 := constantI S_ 1 1#1
  let main_v53 : IVec S_ 1 := (fun x v => Host.reduce IntOp.andi x v reducesTo_S2048_S_d0 h_S_) main_v52 main_c_21
  let main_v54 : IVec S_ 1 := andi main_v50 main_v53
  let main_cst_22 : FVec F S_ .f32 := constant S_ .f32 0x471C4000#32
  let main_v55 : FVec F S2048 .f32 := broadcastInDim S2048 ![] bcast_S_S2048 main_cst_22
  let main_v56 : FVec F S2048 .f32 := addf main_arg2 main_v55
  let main_v57 : FVec F S2048 .f32 := shapeCast S2048 main_arg4 shapeCasts_S2048x1_S2048
  let main_v58 : FVec F S2048 .f32 := Host.tanh main_v57
  let main_cst_23 : FVec F S_ .f32 := constant S_ .f32 0x459C4000#32
  let main_v59 : FVec F S2048 .f32 := broadcastInDim S2048 ![] bcast_S_S2048 main_cst_23
  let main_v60 : FVec F S2048 .f32 := mulf main_v59 main_v58
  let main_v61 : FVec F S2048 .f32 := addf main_v56 main_v60
  let main_cst_24 : FVec F S_ .f32 := constant S_ .f32 0x00000000#32
  let main_v62 : FVec F S2048 .f32 := broadcastInDim S2048 ![] bcast_S_S2048 main_cst_24
  let main_v63 : IVec S2048 1 := cmpf .une main_v61 main_v62
  let main_c_25 : IVec S_ 1 := constantI S_ 1 1#1
  let main_v64 : IVec S_ 1 := (fun x v => Host.reduce IntOp.andi x v reducesTo_S2048_S_d0 h_S_) main_v63 main_c_25
  let main_v65 : IVec S_ 1 := andi main_v54 main_v64
  main_v65

def fn_part2 {F : FTy → Type} [FloatOps F] (main_arg2 : FVec F S2048 .f32) (main_arg4 : FVec F S2048x1 .f32) (main_arg7 : FVec F S2048x16384 .f32) (main_arg9 : IVec S2048 32) (main_arg10 : IVec S2048 32) (main_v33 : IVec S_ 1) : IVec S_ 1 :=
  let main_v34 : FVec F S2048x16384 .f32 := Host.absf main_arg7
  let main_cst_12 : FVec F S_ .f32 := constant S_ .f32 0x7F800000#32
  let main_v35 : FVec F S2048x16384 .f32 := broadcastInDim S2048x16384 ![] bcast_S_S2048x16384 main_cst_12
  let main_v36 : IVec S2048x16384 1 := cmpf .olt main_v34 main_v35
  let main_c_13 : IVec S_ 1 := constantI S_ 1 1#1
  let main_v37 : IVec S_ 1 := (fun x v => Host.reduce IntOp.andi x v reducesTo_S2048x16384_S_d0_1 h_S_) main_v36 main_c_13
  let main_v38 : IVec S_ 1 := andi main_v33 main_v37
  let main_c_14 : IVec S_ 32 := constantI S_ 32 0#32
  let main_v39 : IVec S2048 32 := broadcastInDim S2048 ![] bcast_S_S2048 main_c_14
  let main_v40 : IVec S2048 1 := cmpi .sge main_arg9 main_v39
  let main_c_15 : IVec S_ 1 := constantI S_ 1 1#1
  let main_v41 : IVec S_ 1 := (fun x v => Host.reduce IntOp.andi x v reducesTo_S2048_S_d0 h_S_) main_v40 main_c_15
  let main_v42 : IVec S_ 1 := andi main_v38 main_v41
  let main_c_16 : IVec S_ 32 := constantI S_ 32 16384#32
  let main_v43 : IVec S2048 32 := broadcastInDim S2048 ![] bcast_S_S2048 main_c_16
  let main_v44 : IVec S2048 1 := cmpi .slt main_arg9 main_v43
  let main_c_17 : IVec S_ 1 := constantI S_ 1 1#1
  let main_v45 : IVec S_ 1 := (fun x v => Host.reduce IntOp.andi x v reducesTo_S2048_S_d0 h_S_) main_v44 main_c_17
  let main_v46 : IVec S_ 1 := andi main_v42 main_v45
  let main_c_18 : IVec S_ 32 := constantI S_ 32 0#32
  let main_v47 : IVec S2048 32 := broadcastInDim S2048 ![] bcast_S_S2048 main_c_18
  let main_v48 : IVec S2048 1 := cmpi .sge main_arg10 main_v47
  let main_c_19 : IVec S_ 1 := constantI S_ 1 1#1
  let main_v49 : IVec S_ 1 := (fun x v => Host.reduce IntOp.andi x v reducesTo_S2048_S_d0 h_S_) main_v48 main_c_19
  fn_part3 (F := F) main_arg2 main_arg4 main_arg10 main_v46 main_v49

def fn_part1 {F : FTy → Type} [FloatOps F] (main_arg2 : FVec F S2048 .f32) (main_arg4 : FVec F S2048x1 .f32) (main_arg5 : FVec F S16384x1 .f32) (main_arg6 : FVec F S1x16384 .f32) (main_arg7 : FVec F S2048x16384 .f32) (main_arg9 : IVec S2048 32) (main_arg10 : IVec S2048 32) (main_v13 : IVec S_ 1) (main_v16 : IVec S2048x16384 1) : IVec S_ 1 :=
  let main_c_5 : IVec S_ 1 := constantI S_ 1 1#1
  let main_v17 : IVec S_ 1 := (fun x v => Host.reduce IntOp.andi x v reducesTo_S2048x16384_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S16384x1 .f32 := Host.absf main_arg5
  let main_cst_8 : FVec F S_ .f32 := constant S_ .f32 0x7F800000#32
  let main_v25 : FVec F S16384x1 .f32 := broadcastInDim S16384x1 ![] bcast_S_S16384x1 main_cst_8
  let main_v26 : IVec S16384x1 1 := cmpf .olt main_v24 main_v25
  let main_c_9 : IVec S_ 1 := constantI S_ 1 1#1
  let main_v27 : IVec S_ 1 := (fun x v => Host.reduce IntOp.andi x v reducesTo_S16384x1_S_d0_1 h_S_) main_v26 main_c_9
  let main_v28 : IVec S_ 1 := andi main_v23 main_v27
  let main_v29 : FVec F S1x16384 .f32 := Host.absf main_arg6
  let main_cst_10 : FVec F S_ .f32 := constant S_ .f32 0x7F800000#32
  let main_v30 : FVec F S1x16384 .f32 := broadcastInDim S1x16384 ![] bcast_S_S1x16384 main_cst_10
  let main_v31 : IVec S1x16384 1 := cmpf .olt main_v29 main_v30
  let main_c_11 : IVec S_ 1 := constantI S_ 1 1#1
  let main_v32 : IVec S_ 1 := (fun x v => Host.reduce IntOp.andi x v reducesTo_S1x16384_S_d0_1 h_S_) main_v31 main_c_11
  let main_v33 : IVec S_ 1 := andi main_v28 main_v32
  fn_part2 (F := F) main_arg2 main_arg4 main_arg7 main_arg9 main_arg10 main_v33

def fn {F : FTy → Type} [FloatOps F] (main_arg0 : FVec F S8192x16384 .f32) (main_arg1 : FVec F S16384x2048 .f32) (main_arg2 : FVec F S2048 .f32) (main_arg3 : FVec F S2048x16384 .f32) (main_arg4 : FVec F S2048x1 .f32) (main_arg5 : FVec F S16384x1 .f32) (main_arg6 : FVec F S1x16384 .f32) (main_arg7 : FVec F S2048x16384 .f32) (main_arg8 : IVec S2048 32) (main_arg9 : IVec S2048 32) (main_arg10 : IVec S2048 32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x16384 .f32 := Host.absf main_arg3
  let main_cst_4 : FVec F S_ .f32 := constant S_ .f32 0x7F800000#32
  let main_v15 : FVec F S2048x16384 .f32 := broadcastInDim S2048x16384 ![] bcast_S_S2048x16384 main_cst_4
  let main_v16 : IVec S2048x16384 1 := cmpf .olt main_v14 main_v15
  fn_part1 (F := F) main_arg2 main_arg4 main_arg5 main_arg6 main_arg7 main_arg9 main_arg10 main_v13 main_v16
-- ==== Kernel.lean ====
abbrev S8192x16384 : Shape := ⟨2, ![8192, 16384]⟩
abbrev S16384x2048 : Shape := ⟨2, ![16384, 2048]⟩
abbrev S2048 : Shape := ⟨1, ![2048]⟩
abbrev S2048x16384 : Shape := ⟨2, ![2048, 16384]⟩
abbrev S2048x1 : Shape := ⟨2, ![2048, 1]⟩
abbrev S16384x1 : Shape := ⟨2, ![16384, 1]⟩
abbrev S1x16384 : Shape := ⟨2, ![1, 16384]⟩
abbrev S_ : Shape := ⟨0, ![]⟩
abbrev S16384 : Shape := ⟨1, ![16384]⟩
abbrev S2048x2048 : Shape := ⟨2, ![2048, 2048]⟩
abbrev S1x2048 : Shape := ⟨2, ![1, 2048]⟩
abbrev S2048x2 : Shape := ⟨2, ![2048, 2]⟩
abbrev S1024x256 : Shape := ⟨2, ![1024, 256]⟩
abbrev S1x256 : Shape := ⟨2, ![1, 256]⟩
abbrev S1024x1 : Shape := ⟨2, ![1024, 1]⟩
abbrev S256x2048 : Shape := ⟨2, ![256, 2048]⟩
abbrev S1024x2048 : Shape := ⟨2, ![1024, 2048]⟩

abbrev nBuf : Space → Nat
  | .hbm => 197
  | .vmem => 12
  | .smem => 0
  | _ => 0

abbrev hbmTy0_0 (i : Nat) : BufTy := match i % 128 with
  | 0 => ⟨S8192x16384, .f32⟩
  | 1 => ⟨S16384x2048, .f32⟩
  | 2 => ⟨S2048, .f32⟩
  | 3 => ⟨S2048x16384, .f32⟩
  | 4 => ⟨S2048x1, .f32⟩
  | 5 => ⟨S16384x1, .f32⟩
  | 6 => ⟨S1x16384, .f32⟩
  | 7 => ⟨S2048x16384, .f32⟩
  | 8 => ⟨S2048, .i32⟩
  | 9 => ⟨S2048, .i32⟩
  | 10 => ⟨S2048, .i32⟩
  | 11 => ⟨S_, .f32⟩
  | 12 => ⟨S2048, .f32⟩
  | 13 => ⟨S2048, .f32⟩
  | 14 => ⟨S2048, .f32⟩
  | 15 => ⟨S2048, .f32⟩
  | 16 => ⟨S_, .f32⟩
  | 17 => ⟨S2048, .f32⟩
  | 18 => ⟨S2048, .f32⟩
  | 19 => ⟨S2048, .f32⟩
  | 20 => ⟨S2048, .f32⟩
  | 21 => ⟨S16384, .f32⟩
  | 22 => ⟨S16384, .f32⟩
  | 23 => ⟨S16384, .f32⟩
  | 24 => ⟨S_, .f32⟩
  | 25 => ⟨S16384, .f32⟩
  | 26 => ⟨S16384, .f32⟩
  | 27 => ⟨S_, .f32⟩
  | 28 => ⟨S16384, .f32⟩
  | 29 => ⟨S16384, .f32⟩
  | 30 => ⟨S16384, .f32⟩
  | 31 => ⟨S16384, .f32⟩
  | 32 => ⟨S16384, .f32⟩
  | 33 => ⟨S_, .f32⟩
  | 34 => ⟨S16384, .f32⟩
  | 35 => ⟨S16384, .f32⟩
  | 36 => ⟨S_, .f32⟩
  | 37 => ⟨S16384, .f32⟩
  | 38 => ⟨S16384, .f32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S2048x16384, .f32⟩
  | 49 => ⟨S2048x16384, .bf16⟩
  | 50 => ⟨S1x16384, .f32⟩
  | 51 => ⟨S2048x1, .i32⟩
  | 52 => ⟨S16384x2048, .bf16⟩
  | 53 => ⟨S2048x2048, .f32⟩
  | 54 => ⟨S16384x2048, .f32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S2048x2048, .f32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S2048x2048, .f32⟩
  | 73 => ⟨S1x2048, .f32⟩
  | 74 => ⟨S2048x2048, .f32⟩
  | 75 => ⟨S2048x2048, .f32⟩
  | 76 => ⟨S1x2048, .f32⟩
  | 77 => ⟨S2048x2048, .f32⟩
  | 78 => ⟨S2048x2048, .f32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S2048, .f32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S2048, .f32⟩
  | 97 => ⟨S_, .i32⟩
  | 98 => ⟨S2048, .i32⟩
  | 99 => ⟨S2048, .i1⟩
  | 100 => ⟨S_, .i32⟩
  | 101 => ⟨S2048, .i32⟩
  | 102 => ⟨S2048, .i32⟩
  | 103 => ⟨S2048, .i32⟩
  | 104 => ⟨S2048x1, .i32⟩
  | 105 => ⟨S2048, .f32⟩
  | 106 => ⟨S2048x2048, .f32⟩
  | 107 => ⟨S_, .f32⟩
  | 108 => ⟨S2048, .f32⟩
  | 109 => ⟨S2048x2048, .f32⟩
  | 110 => ⟨S_, .f32⟩
  | 111 => ⟨S2048, .f32⟩
  | 112 => ⟨S_, .i32⟩
  | 113 => ⟨S2048, .i32⟩
  | 114 => ⟨S2048, .i1⟩
  | 115 => ⟨S_, .i32⟩
  | 116 => ⟨S2048, .i32⟩
  | 117 => ⟨S2048, .i32⟩
  | 118 => ⟨S2048, .i32⟩
  | 119 => ⟨S2048x1, .i32⟩
  | 120 => ⟨S2048x2048, .f32⟩
  | 121 => ⟨S2048x2048, .f32⟩
  | 122 => ⟨S_, .f32⟩
  | 123 => ⟨S2048, .f32⟩
  | 124 => ⟨S_, .i32⟩
  | 125 => ⟨S2048, .i32⟩
  | 126 => ⟨S2048, .i1⟩
  | 127 => ⟨S_, .i32⟩
  | _ => ⟨S8192x16384, .f32⟩

abbrev hbmTy0_1 (i : Nat) : BufTy := match i % 128 with
  | 0 => ⟨S2048, .i32⟩
  | 1 => ⟨S2048, .i32⟩
  | 2 => ⟨S2048, .i32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2048x1, .i32⟩
  | 12 => ⟨S2048x2, .i32⟩
  | 13 => ⟨S2048, .f32⟩
  | 14 => ⟨S2048, .i1⟩
  | 15 => ⟨S_, .f32⟩
  | 16 => ⟨S_, .f32⟩
  | 17 => ⟨S2048, .f32⟩
  | 18 => ⟨S2048, .f32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i1⟩
  | 29 => ⟨S_, .i32⟩
  | 30 => ⟨S2048, .i32⟩
  | 31 => ⟨S2048, .i32⟩
  | 32 => ⟨S2048, .i32⟩
  | 33 => ⟨S2048x1, .i32⟩
  | 34 => ⟨S2048x1, .i32⟩
  | 35 => ⟨S2048x2, .i32⟩
  | 36 => ⟨S2048, .f32⟩
  | 37 => ⟨S2048, .f32⟩
  | 38 => ⟨S2048, .f32⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S_, .f32⟩
  | 46 => ⟨S2048, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S2048, .f32⟩
  | 54 => ⟨S2048, .i1⟩
  | 55 => ⟨S2048, .f32⟩
  | 56 => ⟨S2048, .f32⟩
  | 57 => ⟨S2048, .f32⟩
  | 58 => ⟨S2048, .f32⟩
  | 59 => ⟨S2048, .f32⟩
  | 60 => ⟨S2048, .f32⟩
  | 61 => ⟨S2048, .f32⟩
  | 62 => ⟨S2048, .f32⟩
  | 63 => ⟨S2048, .f32⟩
  | 64 => ⟨S_, .f32⟩
  | 65 => ⟨S_, .f32⟩
  | 66 => ⟨S_, .f32⟩
  | 67 => ⟨S_, .f32⟩
  | 68 => ⟨S_, .f32⟩
  | _ => ⟨S8192x16384, .f32⟩

abbrev hbmTy (i : Nat) : BufTy := match i / 128 with
  | 0 => hbmTy0_0 i
  | 1 => hbmTy0_1 i
  | _ => ⟨S8192x16384, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1x256, .f32⟩
  | .local _ .vmem, ⟨5, _⟩ => ⟨S1x256, .f32⟩
  | .local _ .vmem, ⟨6, _⟩ => ⟨S1024x1, .i32⟩
  | .local _ .vmem, ⟨7, _⟩ => ⟨S1024x1, .i32⟩
  | .local _ .vmem, ⟨8, _⟩ => ⟨S256x2048, .bf16⟩
  | .local _ .vmem, ⟨9, _⟩ => ⟨S256x2048, .bf16⟩
  | .local _ .vmem, ⟨10, _⟩ => ⟨S1024x2048, .f32⟩
  | .local _ .vmem, ⟨11, _⟩ => ⟨S1024x2048, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_cst_2 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_cst_3 : Ref sig .tc := ⟨.hbm, 33, rfl⟩
abbrev main_call0_v18 : Ref sig .tc := ⟨.hbm, 34, rfl⟩
abbrev main_call0_v19 : Ref sig .tc := ⟨.hbm, 35, rfl⟩
abbrev main_call0_cst_4 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_c : Ref sig .tc := ⟨.hbm, 40, rfl⟩
abbrev main_call0_v23 : Ref sig .tc := ⟨.hbm, 41, rfl⟩
abbrev main_call0_v24 : Ref sig .tc := ⟨.hbm, 42, rfl⟩
abbrev main_call0_c_5 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_c_6 : Ref sig .tc := ⟨.hbm, 55, rfl⟩
abbrev main_call0_v36 : Ref sig .tc := ⟨.hbm, 56, rfl⟩
abbrev main_call0_v37 : Ref sig .tc := ⟨.hbm, 57, rfl⟩
abbrev main_call0_c_7 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_v41 : Ref sig .tc := ⟨.hbm, 62, rfl⟩
abbrev main_call0_v42 : Ref sig .tc := ⟨.hbm, 63, rfl⟩
abbrev main_call0_c_8 : Ref sig .tc := ⟨.hbm, 64, rfl⟩
abbrev main_call0_v43 : Ref sig .tc := ⟨.hbm, 65, rfl⟩
abbrev main_call0_v44 : Ref sig .tc := ⟨.hbm, 66, rfl⟩
abbrev main_call0_c_9 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_call0_v52 : Ref sig .tc := ⟨.hbm, 75, rfl⟩
abbrev main_call0_v53 : Ref sig .tc := ⟨.hbm, 76, rfl⟩
abbrev main_call0_v54 : Ref sig .tc := ⟨.hbm, 77, rfl⟩
abbrev main_call0_v55 : Ref sig .tc := ⟨.hbm, 78, rfl⟩
abbrev main_call0_c_10 : Ref sig .tc := ⟨.hbm, 79, rfl⟩
abbrev main_call0_v56 : Ref sig .tc := ⟨.hbm, 80, rfl⟩
abbrev main_call0_v57 : Ref sig .tc := ⟨.hbm, 81, rfl⟩
abbrev main_call0_c_11 : Ref sig .tc := ⟨.hbm, 82, rfl⟩
abbrev main_call0_v58 : Ref sig .tc := ⟨.hbm, 83, rfl⟩
abbrev main_call0_v59 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_c_12 : Ref sig .tc := ⟨.hbm, 88, rfl⟩
abbrev main_call0_v63 : Ref sig .tc := ⟨.hbm, 89, rfl⟩
abbrev main_call0_v64 : Ref sig .tc := ⟨.hbm, 90, rfl⟩
abbrev main_call0_c_13 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_c_14 : Ref sig .tc := ⟨.hbm, 97, rfl⟩
abbrev main_call0_v70 : Ref sig .tc := ⟨.hbm, 98, rfl⟩
abbrev main_call0_v71 : Ref sig .tc := ⟨.hbm, 99, rfl⟩
abbrev main_call0_c_15 : Ref sig .tc := ⟨.hbm, 100, rfl⟩
abbrev main_call0_v72 : Ref sig .tc := ⟨.hbm, 101, rfl⟩
abbrev main_call0_v73 : Ref sig .tc := ⟨.hbm, 102, rfl⟩
abbrev main_call0_v74 : Ref sig .tc := ⟨.hbm, 103, rfl⟩
abbrev main_call0_v75 : Ref sig .tc := ⟨.hbm, 104, rfl⟩
abbrev main_call0_v76 : Ref sig .tc := ⟨.hbm, 105, rfl⟩
abbrev main_call0_v77 : Ref sig .tc := ⟨.hbm, 106, rfl⟩
abbrev main_call0_cst_16 : Ref sig .tc := ⟨.hbm, 107, rfl⟩
abbrev main_call0_v78 : Ref sig .tc := ⟨.hbm, 108, rfl⟩
abbrev main_call0_v79 : Ref sig .tc := ⟨.hbm, 109, rfl⟩
abbrev main_call0_cst_17 : Ref sig .tc := ⟨.hbm, 110, rfl⟩
abbrev main_call0_v80 : Ref sig .tc := ⟨.hbm, 111, rfl⟩
abbrev main_call0_c_18 : Ref sig .tc := ⟨.hbm, 112, rfl⟩
abbrev main_call0_v81 : Ref sig .tc := ⟨.hbm, 113, rfl⟩
abbrev main_call0_v82 : Ref sig .tc := ⟨.hbm, 114, rfl⟩
abbrev main_call0_c_19 : Ref sig .tc := ⟨.hbm, 115, rfl⟩
abbrev main_call0_v83 : Ref sig .tc := ⟨.hbm, 116, rfl⟩
abbrev main_call0_v84 : Ref sig .tc := ⟨.hbm, 117, rfl⟩
abbrev main_call0_v85 : Ref sig .tc := ⟨.hbm, 118, rfl⟩
abbrev main_call0_v86 : Ref sig .tc := ⟨.hbm, 119, rfl⟩
abbrev main_call0_v87 : Ref sig .tc := ⟨.hbm, 120, rfl⟩
abbrev main_call0_v88 : Ref sig .tc := ⟨.hbm, 121, rfl⟩
abbrev main_call0_cst_20 : Ref sig .tc := ⟨.hbm, 122, rfl⟩
abbrev main_call0_v89 : Ref sig .tc := ⟨.hbm, 123, rfl⟩
abbrev main_call0_c_21 : Ref sig .tc := ⟨.hbm, 124, rfl⟩
abbrev main_call0_v90 : Ref sig .tc := ⟨.hbm, 125, rfl⟩
abbrev main_call0_v91 : Ref sig .tc := ⟨.hbm, 126, rfl⟩
abbrev main_call0_c_22 : Ref sig .tc := ⟨.hbm, 127, rfl⟩
abbrev main_call0_v92 : Ref sig .tc := ⟨.hbm, 128, rfl⟩
abbrev main_call0_v93 : Ref sig .tc := ⟨.hbm, 129, rfl⟩
abbrev main_call0_v94 : Ref sig .tc := ⟨.hbm, 130, rfl⟩
abbrev main_call0_c_23 : Ref sig .tc := ⟨.hbm, 131, rfl⟩
abbrev main_call0_v95 : Ref sig .tc := ⟨.hbm, 132, rfl⟩
abbrev main_call0_v96 : Ref sig .tc := ⟨.hbm, 133, rfl⟩
abbrev main_call0_c_24 : Ref sig .tc := ⟨.hbm, 134, rfl⟩
abbrev main_call0_v97 : Ref sig .tc := ⟨.hbm, 135, rfl⟩
abbrev main_call0_v98 : Ref sig .tc := ⟨.hbm, 136, rfl⟩
abbrev main_call0_v99 : Ref sig .tc := ⟨.hbm, 137, rfl⟩
abbrev main_call0_v100 : Ref sig .tc := ⟨.hbm, 138, rfl⟩
abbrev main_call0_v101 : Ref sig .tc := ⟨.hbm, 139, rfl⟩
abbrev main_call0_v102 : Ref sig .tc := ⟨.hbm, 140, rfl⟩
abbrev main_call0_v103 : Ref sig .tc := ⟨.hbm, 141, rfl⟩
abbrev main_call0_v104 : Ref sig .tc := ⟨.hbm, 142, rfl⟩
abbrev main_call0_cst_25 : Ref sig .tc := ⟨.hbm, 143, rfl⟩
abbrev main_call0_call0_v0 : Ref sig .tc := ⟨.hbm, 144, rfl⟩
abbrev main_call0_call0_v1 : Ref sig .tc := ⟨.hbm, 145, rfl⟩
abbrev main_call0_v105 : Ref sig .tc := ⟨.hbm, 146, rfl⟩
abbrev main_call0_c_26 : Ref sig .tc := ⟨.hbm, 147, rfl⟩
abbrev main_call0_v106 : Ref sig .tc := ⟨.hbm, 148, rfl⟩
abbrev main_call0_v107 : Ref sig .tc := ⟨.hbm, 149, rfl⟩
abbrev main_call0_c_27 : Ref sig .tc := ⟨.hbm, 150, rfl⟩
abbrev main_call0_v108 : Ref sig .tc := ⟨.hbm, 151, rfl⟩
abbrev main_call0_v109 : Ref sig .tc := ⟨.hbm, 152, rfl⟩
abbrev main_call0_v110 : Ref sig .tc := ⟨.hbm, 153, rfl⟩
abbrev main_call0_c_28 : Ref sig .tc := ⟨.hbm, 154, rfl⟩
abbrev main_call0_v111 : Ref sig .tc := ⟨.hbm, 155, rfl⟩
abbrev main_call0_v112 : Ref sig .tc := ⟨.hbm, 156, rfl⟩
abbrev main_call0_c_29 : Ref sig .tc := ⟨.hbm, 157, rfl⟩
abbrev main_call0_v113 : Ref sig .tc := ⟨.hbm, 158, rfl⟩
abbrev main_call0_v114 : Ref sig .tc := ⟨.hbm, 159, rfl⟩
abbrev main_call0_v115 : Ref sig .tc := ⟨.hbm, 160, rfl⟩
abbrev main_call0_v116 : Ref sig .tc := ⟨.hbm, 161, rfl⟩
abbrev main_call0_v117 : Ref sig .tc := ⟨.hbm, 162, rfl⟩
abbrev main_call0_v118 : Ref sig .tc := ⟨.hbm, 163, rfl⟩
abbrev main_call0_v119 : Ref sig .tc := ⟨.hbm, 164, rfl⟩
abbrev main_call0_v120 : Ref sig .tc := ⟨.hbm, 165, rfl⟩
abbrev main_call0_v121 : Ref sig .tc := ⟨.hbm, 166, rfl⟩
abbrev main_call0_v122 : Ref sig .tc := ⟨.hbm, 167, rfl⟩
abbrev main_call0_v123 : Ref sig .tc := ⟨.hbm, 168, rfl⟩
abbrev main_call0_v124 : Ref sig .tc := ⟨.hbm, 169, rfl⟩
abbrev main_call0_v125 : Ref sig .tc := ⟨.hbm, 170, rfl⟩
abbrev main_call0_v126 : Ref sig .tc := ⟨.hbm, 171, rfl⟩
abbrev main_call0_v127 : Ref sig .tc := ⟨.hbm, 172, rfl⟩
abbrev main_call0_cst_30 : Ref sig .tc := ⟨.hbm, 173, rfl⟩
abbrev main_call0_v128 : Ref sig .tc := ⟨.hbm, 174, rfl⟩
abbrev main_call0_v129 : Ref sig .tc := ⟨.hbm, 175, rfl⟩
abbrev main_call0_call1_v0 : Ref sig .tc := ⟨.hbm, 176, rfl⟩
abbrev main_call0_call1_call0_cst : Ref sig .tc := ⟨.hbm, 177, rfl⟩
abbrev main_call0_call1_call0_v0 : Ref sig .tc := ⟨.hbm, 178, rfl⟩
abbrev main_call0_call1_call0_v1 : Ref sig .tc := ⟨.hbm, 179, rfl⟩
abbrev main_call0_call1_call0_v2 : Ref sig .tc := ⟨.hbm, 180, rfl⟩
abbrev main_call0_call1_call0_v3 : Ref sig .tc := ⟨.hbm, 181, rfl⟩
abbrev main_call0_call1_call0_v4 : Ref sig .tc := ⟨.hbm, 182, rfl⟩
abbrev main_call0_call1_call0_v5 : Ref sig .tc := ⟨.hbm, 183, rfl⟩
abbrev main_call0_call1_call0_v6 : Ref sig .tc := ⟨.hbm, 184, rfl⟩
abbrev main_call0_call1_call0_v7 : Ref sig .tc := ⟨.hbm, 185, rfl⟩
abbrev main_call0_call1_call0_v8 : Ref sig .tc := ⟨.hbm, 186, rfl⟩
abbrev main_call0_call1_call0_v9 : Ref sig .tc := ⟨.hbm, 187, rfl⟩
abbrev main_call0_call1_call0_v10 : Ref sig .tc := ⟨.hbm, 188, rfl⟩
abbrev main_call0_call1_call0_v11 : Ref sig .tc := ⟨.hbm, 189, rfl⟩
abbrev main_call0_call1_v1 : Ref sig .tc := ⟨.hbm, 190, rfl⟩
abbrev main_call0_v130 : Ref sig .tc := ⟨.hbm, 191, rfl⟩
abbrev main_call0_cst_31 : Ref sig .tc := ⟨.hbm, 192, rfl⟩
abbrev main_call0_v131 : Ref sig .tc := ⟨.hbm, 193, rfl⟩
abbrev main_call0_cst_32 : Ref sig .tc := ⟨.hbm, 194, rfl⟩
abbrev main_call0_v132 : Ref sig .tc := ⟨.hbm, 195, rfl⟩
abbrev main_v0 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S2048 : S_.BroadcastsInDim S2048 (![] : Fin 0 → Fin S2048.rank)
  shapeCasts_S2048x1_S2048 : S2048x1.ShapeCasts S2048
  shapeCasts_S16384x1_S16384 : S16384x1.ShapeCasts S16384
  bcast_S_S16384 : S_.BroadcastsInDim S16384 (![] : Fin 0 → Fin S16384.rank)
  shapeCasts_S1x16384_S16384 : S1x16384.ShapeCasts S16384
  bcast_S2048_S2048x1_0 : S2048.BroadcastsInDim S2048x1 (![0] : Fin 1 → Fin S2048x1.rank)
  bitsLt_bf16_f32 : FTy.bits .bf16 < FTy.bits .f32
  bcast_S16384_S1x16384_1 : S16384.BroadcastsInDim S1x16384 (![1] : Fin 1 → Fin S1x16384.rank)
  transposes_S2048x16384_S16384x2048_1_0 : S2048x16384.Transposes [1, 0] S16384x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  reducesTo_S2048x2048_S2048_d1 : S2048x2048.ReducesTo [1] S2048
  h_S_ : 0 < S_.numel
  concatenates_S2048x1_S2048x1_S2048x2_d1 : Shape.Concatenates [S2048x1, S2048x1] S2048x2 1
  reducesTo_S2048_S_d0 : S2048.ReducesTo [0] S_
  inb_S1024x2048_S1024x2048_0_0 : ∀ a, (![0, 0] : Fin 2 → Nat) a + S1024x2048.size a ≤ S1024x2048.size a
  h_S1024x2048 : 0 < S1024x2048.numel
  iota_S1024x256_d1_w32 : S1024x256.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  gather_S8192x16384_S2048x1_S2048x16384_1_0_n_n_0_1_116384_wf : GatherDims.WF S8192x16384 S2048x1 S2048x16384 [1] [0] [] [0] [] 1 ![1, 16384]
  gather_S16384x2048_S2048x1_S2048x2048_1_0_n_n_0_1_12048_wf : GatherDims.WF S16384x2048 S2048x1 S2048x2048 [1] [0] [] [0] [] 1 ![1, 2048]
  gather_S16384_S2048x1_S2048_n_0_n_n_0_1_1_wf : GatherDims.WF S16384 S2048x1 S2048 [] [0] [] [0] [] 1 ![1]
  gather_S2048x16384_S2048x2_S2048_n_01_n_n_01_1_11_wf : GatherDims.WF S2048x16384 S2048x2 S2048 [] [0, 1] [] [0, 1] [] 1 ![1, 1]
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x16384.size a
  hwx0_0 : ∀ i : grid0.Coords, EltTy.bits .f32 = 32 ∨ (Rect.block (s := S2048x16384) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S2048x16384.size a
  hwx0_1 : ∀ i : grid0.Coords, EltTy.bits .bf16 = 32 ∨ (Rect.block (s := S2048x16384) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .f32 = 32 ∨ (Rect.block (s := S1x16384) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .i32 = 32 ∨ (Rect.block (s := S2048x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .bf16 = 32 ∨ (Rect.block (s := S16384x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S2048x2048.size a
  hwx0_5 : ∀ i : grid0.Coords, EltTy.bits .f32 = 32 ∨ (Rect.block (s := S2048x2048) S1024x2048.size (cc0_transform_5 i) (hinb0_5 i)).WholeWords (EltTy.packing .f32)

variable [Facts₀]

def gather_S8192x16384_S2048x1_S2048x16384_1_0_n_n_0_1_116384 : GatherDims S8192x16384 S2048x1 S2048x16384 where
  offsetDims := [1]
  collapsedSliceDims := [0]
  operandBatchingDims := []
  startIndicesBatchingDims := []
  startIndexMap := [0]
  indexVectorDim := 1
  sliceSizes := ![1, 16384]
  wf := gather_S8192x16384_S2048x1_S2048x16384_1_0_n_n_0_1_116384_wf
def gather_S16384x2048_S2048x1_S2048x2048_1_0_n_n_0_1_12048 : GatherDims S16384x2048 S2048x1 S2048x2048 where
  offsetDims := [1]
  collapsedSliceDims := [0]
  operandBatchingDims := []
  startIndicesBatchingDims := []
  startIndexMap := [0]
  indexVectorDim := 1
  sliceSizes := ![1, 2048]
  wf := gather_S16384x2048_S2048x1_S2048x2048_1_0_n_n_0_1_12048_wf
def gather_S16384_S2048x1_S2048_n_0_n_n_0_1_1 : GatherDims S16384 S2048x1 S2048 where
  offsetDims := []
  collapsedSliceDims := [0]
  operandBatchingDims := []
  startIndicesBatchingDims := []
  startIndexMap := [0]
  indexVectorDim := 1
  sliceSizes := ![1]
  wf := gather_S16384_S2048x1_S2048_n_0_n_n_0_1_1_wf
def gather_S2048x16384_S2048x2_S2048_n_01_n_n_01_1_11 : GatherDims S2048x16384 S2048x2 S2048 where
  offsetDims := []
  collapsedSliceDims := [0, 1]
  operandBatchingDims := []
  startIndicesBatchingDims := []
  startIndexMap := [0, 1]
  indexVectorDim := 1
  sliceSizes := ![1, 1]
  wf := gather_S2048x16384_S2048x2_S2048_n_01_n_n_01_1_11_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_call0_v29) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v30) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v31) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v32) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v33) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v34) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S16384x2048 : Shape := ⟨2, ![16384, 2048]⟩
abbrev S2048 : Shape := ⟨1, ![2048]⟩
abbrev S2048x16384 : Shape := ⟨2, ![2048, 16384]⟩
abbrev S2048x1 : Shape := ⟨2, ![2048, 1]⟩
abbrev S16384x1 : Shape := ⟨2, ![16384, 1]⟩
abbrev S1x16384 : Shape := ⟨2, ![1, 16384]⟩
abbrev S_ : Shape := ⟨0, ![]⟩
abbrev S16384 : Shape := ⟨1, ![16384]⟩
abbrev S2048x2048 : Shape := ⟨2, ![2048, 2048]⟩
abbrev S1x2048 : Shape := ⟨2, ![1, 2048]⟩
abbrev S2048x2 : Shape := ⟨2, ![2048, 2]⟩

abbrev nBuf : Space → Nat
  | .hbm => 201
  | .vmem => 0
  | .smem => 0
  | _ => 0

abbrev hbmTy0_0 (i : Nat) : BufTy := match i % 128 with
  | 0 => ⟨S8192x16384, .f32⟩
  | 1 => ⟨S16384x2048, .f32⟩
  | 2 => ⟨S2048, .f32⟩
  | 3 => ⟨S2048x16384, .f32⟩
  | 4 => ⟨S2048x1, .f32⟩
  | 5 => ⟨S16384x1, .f32⟩
  | 6 => ⟨S1x16384, .f32⟩
  | 7 => ⟨S2048x16384, .f32⟩
  | 8 => ⟨S2048, .i32⟩
  | 9 => ⟨S2048, .i32⟩
  | 10 => ⟨S2048, .i32⟩
  | 11 => ⟨S_, .f32⟩
  | 12 => ⟨S2048, .f32⟩
  | 13 => ⟨S2048, .f32⟩
  | 14 => ⟨S2048, .f32⟩
  | 15 => ⟨S2048, .f32⟩
  | 16 => ⟨S_, .f32⟩
  | 17 => ⟨S2048, .f32⟩
  | 18 => ⟨S2048, .f32⟩
  | 19 => ⟨S2048, .f32⟩
  | 20 => ⟨S2048, .f32⟩
  | 21 => ⟨S16384, .f32⟩
  | 22 => ⟨S16384, .f32⟩
  | 23 => ⟨S16384, .f32⟩
  | 24 => ⟨S_, .f32⟩
  | 25 => ⟨S16384, .f32⟩
  | 26 => ⟨S16384, .f32⟩
  | 27 => ⟨S_, .f32⟩
  | 28 => ⟨S16384, .f32⟩
  | 29 => ⟨S16384, .f32⟩
  | 30 => ⟨S16384, .f32⟩
  | 31 => ⟨S16384, .f32⟩
  | 32 => ⟨S16384, .f32⟩
  | 33 => ⟨S_, .f32⟩
  | 34 => ⟨S16384, .f32⟩
  | 35 => ⟨S16384, .f32⟩
  | 36 => ⟨S_, .f32⟩
  | 37 => ⟨S16384, .f32⟩
  | 38 => ⟨S16384, .f32⟩
  | 39 => ⟨S2048x1, .f32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S2048x2048, .f32⟩
  | 49 => ⟨S2048x2048, .f32⟩
  | 50 => ⟨S2048x2048, .f32⟩
  | 51 => ⟨S16384x2048, .f32⟩
  | 52 => ⟨S16384x1, .f32⟩
  | 53 => ⟨S16384x2048, .f32⟩
  | 54 => ⟨S16384x2048, .f32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S2048, .f32⟩
  | 64 => ⟨S1x2048, .f32⟩
  | 65 => ⟨S16384x2048, .f32⟩
  | 66 => ⟨S16384x2048, .f32⟩
  | 67 => ⟨S2048, .i32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S_, .i32⟩
  | 76 => ⟨S2048, .i32⟩
  | 77 => ⟨S2048, .i1⟩
  | 78 => ⟨S_, .i32⟩
  | 79 => ⟨S2048, .i32⟩
  | 80 => ⟨S2048, .i32⟩
  | 81 => ⟨S2048, .i32⟩
  | 82 => ⟨S2048x1, .i32⟩
  | 83 => ⟨S2048x1, .i32⟩
  | 84 => ⟨S2048x2, .i32⟩
  | 85 => ⟨S_, .f32⟩
  | 86 => ⟨S2048, .f32⟩
  | 87 => ⟨S16384x2048, .f32⟩
  | 88 => ⟨S2048x16384, .f32⟩
  | 89 => ⟨S2048x1, .f32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S2048x2048, .f32⟩
  | 99 => ⟨S2048x2048, .f32⟩
  | 100 => ⟨S2048x2048, .f32⟩
  | 101 => ⟨S16384x2048, .f32⟩
  | 102 => ⟨S16384x1, .f32⟩
  | 103 => ⟨S16384x2048, .f32⟩
  | 104 => ⟨S16384x2048, .f32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S2048x1, .i32⟩
  | 113 => ⟨S2048, .f32⟩
  | 114 => ⟨S1x2048, .f32⟩
  | 115 => ⟨S16384x2048, .f32⟩
  | 116 => ⟨S16384x2048, .f32⟩
  | 117 => ⟨S2048, .i32⟩
  | 118 => ⟨S_, .i32⟩
  | 119 => ⟨S2048, .i32⟩
  | 120 => ⟨S2048, .i1⟩
  | 121 => ⟨S_, .i32⟩
  | 122 => ⟨S2048, .i32⟩
  | 123 => ⟨S2048, .i32⟩
  | 124 => ⟨S2048, .i32⟩
  | 125 => ⟨S_, .i32⟩
  | 126 => ⟨S2048, .i32⟩
  | 127 => ⟨S2048, .i1⟩
  | _ => ⟨S8192x16384, .f32⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048x1, .i32⟩
  | 5 => ⟨S2048x1, .i32⟩
  | 6 => ⟨S2048x2, .i32⟩
  | 7 => ⟨S_, .f32⟩
  | 8 => ⟨S2048, .f32⟩
  | 9 => ⟨S16384x2048, .f32⟩
  | 10 => ⟨S2048x16384, .f32⟩
  | 11 => ⟨S_, .i32⟩
  | 12 => ⟨S2048, .i32⟩
  | 13 => ⟨S2048, .i1⟩
  | 14 => ⟨S_, .i32⟩
  | 15 => ⟨S2048, .i32⟩
  | 16 => ⟨S2048, .i32⟩
  | 17 => ⟨S2048, .i32⟩
  | 18 => ⟨S2048x1, .i32⟩
  | 19 => ⟨S2048x16384, .f32⟩
  | 20 => ⟨S2048, .i32⟩
  | 21 => ⟨S_, .i32⟩
  | 22 => ⟨S2048, .i32⟩
  | 23 => ⟨S2048, .i1⟩
  | 24 => ⟨S_, .i32⟩
  | 25 => ⟨S2048, .i32⟩
  | 26 => ⟨S2048, .i32⟩
  | 27 => ⟨S2048, .i32⟩
  | 28 => ⟨S_, .i32⟩
  | 29 => ⟨S2048, .i32⟩
  | 30 => ⟨S2048, .i1⟩
  | 31 => ⟨S_, .i32⟩
  | 32 => ⟨S2048, .i32⟩
  | 33 => ⟨S2048, .i32⟩
  | 34 => ⟨S2048, .i32⟩
  | 35 => ⟨S2048x1, .i32⟩
  | 36 => ⟨S2048x1, .i32⟩
  | 37 => ⟨S2048x2, .i32⟩
  | 38 => ⟨S_, .f32⟩
  | 39 => ⟨S2048, .f32⟩
  | 40 => ⟨S2048x16384, .f32⟩
  | 41 => ⟨S2048x16384, .f32⟩
  | 42 => ⟨S2048x16384, .f32⟩
  | 43 => ⟨S_, .f32⟩
  | 44 => ⟨S2048, .f32⟩
  | 45 => ⟨S2048x16384, .f32⟩
  | 46 => ⟨S_, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S2048, .f32⟩
  | 58 => ⟨S2048, .i1⟩
  | 59 => ⟨S2048, .f32⟩
  | 60 => ⟨S2048, .f32⟩
  | 61 => ⟨S2048, .f32⟩
  | 62 => ⟨S2048, .f32⟩
  | 63 => ⟨S2048, .f32⟩
  | 64 => ⟨S2048, .f32⟩
  | 65 => ⟨S2048, .f32⟩
  | 66 => ⟨S2048, .f32⟩
  | 67 => ⟨S2048, .f32⟩
  | 68 => ⟨S_, .f32⟩
  | 69 => ⟨S_, .f32⟩
  | 70 => ⟨S_, .f32⟩
  | 71 => ⟨S_, .f32⟩
  | 72 => ⟨S_, .f32⟩
  | _ => ⟨S8192x16384, .f32⟩

abbrev hbmTy (i : Nat) : BufTy := match i / 128 with
  | 0 => hbmTy0_0 i
  | 1 => hbmTy0_1 i
  | _ => ⟨S8192x16384, .f32⟩

abbrev bufTy : (tb : Table) → Fin (tcTables nBuf tb) → BufTy
  | .hbm, ⟨i, _⟩ => hbmTy i
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_17 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_c_20 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_22 : Ref sig .tc := ⟨.hbm, 139, rfl⟩
abbrev main_v104 : Ref sig .tc := ⟨.hbm, 140, rfl⟩
abbrev main_v105 : Ref sig .tc := ⟨.hbm, 141, rfl⟩
abbrev main_c_23 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_24 : Ref sig .tc := ⟨.hbm, 149, rfl⟩
abbrev main_v112 : Ref sig .tc := ⟨.hbm, 150, rfl⟩
abbrev main_v113 : Ref sig .tc := ⟨.hbm, 151, rfl⟩
abbrev main_c_25 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_26 : Ref sig .tc := ⟨.hbm, 156, rfl⟩
abbrev main_v117 : Ref sig .tc := ⟨.hbm, 157, rfl⟩
abbrev main_v118 : Ref sig .tc := ⟨.hbm, 158, rfl⟩
abbrev main_c_27 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_28 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_29 : Ref sig .tc := ⟨.hbm, 171, rfl⟩
abbrev main_v129 : Ref sig .tc := ⟨.hbm, 172, rfl⟩
abbrev main_v130 : Ref sig .tc := ⟨.hbm, 173, rfl⟩
abbrev main_cst_30 : Ref sig .tc := ⟨.hbm, 174, rfl⟩
abbrev main_v131 : Ref sig .tc := ⟨.hbm, 175, rfl⟩
abbrev main_v132 : Ref sig .tc := ⟨.hbm, 176, rfl⟩
abbrev main_cst_31 : Ref sig .tc := ⟨.hbm, 177, rfl⟩
abbrev main_v133 : Ref sig .tc := ⟨.hbm, 178, rfl⟩
abbrev main_v134 : Ref sig .tc := ⟨.hbm, 179, rfl⟩
abbrev main_call0_v0 : Ref sig .tc := ⟨.hbm, 180, rfl⟩
abbrev main_call0_call0_cst : Ref sig .tc := ⟨.hbm, 181, rfl⟩
abbrev main_call0_call0_v0 : Ref sig .tc := ⟨.hbm, 182, rfl⟩
abbrev main_call0_call0_v1 : Ref sig .tc := ⟨.hbm, 183, rfl⟩
abbrev main_call0_call0_v2 : Ref sig .tc := ⟨.hbm, 184, rfl⟩
abbrev main_call0_call0_v3 : Ref sig .tc := ⟨.hbm, 185, rfl⟩
abbrev main_call0_call0_v4 : Ref sig .tc := ⟨.hbm, 186, rfl⟩
abbrev main_call0_call0_v5 : Ref sig .tc := ⟨.hbm, 187, rfl⟩
abbrev main_call0_call0_v6 : Ref sig .tc := ⟨.hbm, 188, rfl⟩
abbrev main_call0_call0_v7 : Ref sig .tc := ⟨.hbm, 189, rfl⟩
abbrev main_call0_call0_v8 : Ref sig .tc := ⟨.hbm, 190, rfl⟩
abbrev main_call0_call0_v9 : Ref sig .tc := ⟨.hbm, 191, rfl⟩
abbrev main_call0_call0_v10 : Ref sig .tc := ⟨.hbm, 192, rfl⟩
abbrev main_call0_call0_v11 : Ref sig .tc := ⟨.hbm, 193, rfl⟩
abbrev main_call0_v1 : Ref sig .tc := ⟨.hbm, 194, rfl⟩
abbrev main_v135 : Ref sig .tc := ⟨.hbm, 195, rfl⟩
abbrev main_cst_32 : Ref sig .tc := ⟨.hbm, 196, rfl⟩
abbrev main_v136 : Ref sig .tc := ⟨.hbm, 197, rfl⟩
abbrev main_cst_33 : Ref sig .tc := ⟨.hbm, 198, rfl⟩
abbrev main_v137 : Ref sig .tc := ⟨.hbm, 199, rfl⟩
abbrev main_v138 : Ref sig .tc := ⟨.hbm, 200, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  shapeCasts_S2048x1_S2048 : S2048x1.ShapeCasts S2048
  shapeCasts_S16384x1_S16384 : S16384x1.ShapeCasts S16384
  bcast_S_S16384 : S_.BroadcastsInDim S16384 (![] : Fin 0 → Fin S16384.rank)
  shapeCasts_S1x16384_S16384 : S1x16384.ShapeCasts S16384
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  concatenates_S2048x1_S2048x1_S2048x2_d1 : Shape.Concatenates [S2048x1, S2048x1] S2048x2 1
  transposes_S16384x2048_S2048x16384_1_0 : S16384x2048.Transposes [1, 0] S2048x16384
  reducesTo_S2048x16384_S2048_d1 : S2048x16384.ReducesTo [1] S2048
  h_S_ : 0 < S_.numel
  reducesTo_S2048_S_d0 : S2048.ReducesTo [0] S_
  gather_S2048x16384_S2048x1_S2048x2048_0_1_n_n_1_1_20481_wf : GatherDims.WF S2048x16384 S2048x1 S2048x2048 [0] [1] [] [1] [] 1 ![2048, 1]
  dot_S16384x2048_S2048x2048_S16384x2048_1_0_0_1_n_n_wf : DotDims.WF S16384x2048 S2048x2048 S16384x2048 [1] [0] [0] [1] [] []
  gather_S16384_S2048x1_S2048_n_0_n_n_0_1_1_wf : GatherDims.WF S16384 S2048x1 S2048 [] [0] [] [0] [] 1 ![1]
  scatter_S16384x2048_S2048x2_S2048_n_01_01_1_wf : ScatterDims.WF S16384x2048 S2048x2 S2048 [] [0, 1] [0, 1] 1
  gather_S8192x16384_S2048x1_S2048x16384_1_0_n_n_0_1_116384_wf : GatherDims.WF S8192x16384 S2048x1 S2048x16384 [1] [0] [] [0] [] 1 ![1, 16384]
  scatter_S2048x16384_S2048x2_S2048_n_01_01_1_wf : ScatterDims.WF S2048x16384 S2048x2 S2048 [] [0, 1] [0, 1] 1

variable [Facts₀]

def gather_S2048x16384_S2048x1_S2048x2048_0_1_n_n_1_1_20481 : GatherDims S2048x16384 S2048x1 S2048x2048 where
  offsetDims := [0]
  collapsedSliceDims := [1]
  operandBatchingDims := []
  startIndicesBatchingDims := []
  startIndexMap := [1]
  indexVectorDim := 1
  sliceSizes := ![2048, 1]
  wf := gather_S2048x16384_S2048x1_S2048x2048_0_1_n_n_1_1_20481_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def gather_S16384_S2048x1_S2048_n_0_n_n_0_1_1 : GatherDims S16384 S2048x1 S2048 where
  offsetDims := []
  collapsedSliceDims := [0]
  operandBatchingDims := []
  startIndicesBatchingDims := []
  startIndexMap := [0]
  indexVectorDim := 1
  sliceSizes := ![1]
  wf := gather_S16384_S2048x1_S2048_n_0_n_n_0_1_1_wf
def scatter_S16384x2048_S2048x2_S2048_n_01_01_1 : ScatterDims S16384x2048 S2048x2 S2048 where
  updateWindowDims := []
  insertedWindowDims := [0, 1]
  scatterDimsToOperandDims := [0, 1]
  indexVectorDim := 1
  wf := scatter_S16384x2048_S2048x2_S2048_n_01_01_1_wf
def gather_S8192x16384_S2048x1_S2048x16384_1_0_n_n_0_1_116384 : GatherDims S8192x16384 S2048x1 S2048x16384 where
  offsetDims := [1]
  collapsedSliceDims := [0]
  operandBatchingDims := []
  startIndicesBatchingDims := []
  startIndexMap := [0]
  indexVectorDim := 1
  sliceSizes := ![1, 16384]
  wf := gather_S8192x16384_S2048x1_S2048x16384_1_0_n_n_0_1_116384_wf
def scatter_S2048x16384_S2048x2_S2048_n_01_01_1 : ScatterDims S2048x16384 S2048x2 S2048 where
  updateWindowDims := []
  insertedWindowDims := [0, 1]
  scatterDimsToOperandDims := [0, 1]
  indexVectorDim := 1
  wf := scatter_S2048x16384_S2048x2_S2048_n_01_01_1_wf

class Facts : Prop extends Facts₀ where

variable [Facts]
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.KBody.lean ====
import proofs.«418976_j78056735637975_3_alg».proof.Proof.Gen.Kernel.Skeleton
import proofs.«418976_j78056735637975_3_alg».proof.Proof.Gen.Kernel.Launch
import proofs.«418976_j78056735637975_3_alg».proof.Proof.Gen.Kernel.Points
import proofs.«418976_j78056735637975_3_alg».proof.Proof.LibRegion
import Idealize.ShloMosaic.Lib.Pipeline.FrameBody
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] {UU : Type} [URA UU]

local notation "𝕄" => MT nD τ sig Unit (Elt F) ℕ UU ℕ

/-! # The one kernel region: proof data and body obligation

The region's grid is 2 x 64. Its output block (index `(i, 0)`) is revisited over the second coordinate `j`: the body
sets it to zero when `j = 0` and then, at every point, adds to it the product of the masked, gated row block with
the block of the factor. Between points the block stays in its staging buffer; it is written back when `j = 63`. -/

/-- The condition of the body's one branch, as the program computes it: the second grid coordinate is zero. -/
abbrev atStart (i : grid0.Coords) : Prop :=
  (Scalar.cmpi .ne (Scalar.extui (Scalar.cmpi .eq (BitVec.ofNat 32 (i 1).val) 0#32)) 0#32) = 1#1

/-- It holds at the points that begin a row of the grid. -/
theorem atStart_iff : ∀ t : Fin cfg0.N, atStart (grid0.coords t) ↔ t.val % 64 = 0 :=
  (by decide +kernel : ∀ t : Fin grid0.N, atStart (grid0.coords t) ↔ t.val % 64 = 0)

/-- The zero offsets of a whole-block rectangle. -/
theorem hz2 : (![0, 0] : Fin 2 → Nat) = fun _ => 0 := funext fun a => by fin_cases a <;> rfl

section Runs

variable (𝒱₀ : Variants)

/-- The body where a row of the grid begins, on any whole staging memrefs: the inputs' hold `x0 … x4`, the output's
    anything; the body zeroes the output block and leaves in it the step from zero; the inputs' are as they were. -/
theorem run_reset (c : Dev nD) (i : grid0.Coords)
    (arg2 : Memref sig .tc .vmem S1024x256 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x1 .i32) (harg5 : arg5.IsWhole)
    (arg6 : Memref sig .tc .vmem S256x2048 .bf16) (harg6 : arg6.IsWhole) (arg7 : Memref sig .tc .vmem S1024x2048 .f32) (harg7 : arg7.IsWhole)
    (hc : atStart i)
    (x0 : Vec F S1024x256 .f32) (x1 : Vec F S1024x256 .bf16) (x2 : Vec F S1x256 .f32) (x3 : Vec F S1024x1 .i32)
    (x4 : Vec F S256x2048 .bf16) (x5 : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (Gen.k0_pay2 i x3 x0 x1 x2 (Gen.k0_pay1 (F := F)) x4)) -∗ K ⟨⟩))
      ⊢ wp frame (wpE (defs₀ (F := F)) 𝒱₀ c none) E (cc0__matmul_kernel i arg2 harg2 arg3 harg3 arg4 harg4 arg5 harg5 arg6 harg6 arg7 harg7) K := by
  simp only [Gen.cc0__matmul_kernel_eq_skeleton]; unfold Gen.cc0__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  iexists _; isplitr
  swap; · iexact H5
  ipureintro
  -- the last store covers the block: the buffer reads as that store's payload, whose read-back of the
  -- accumulator is the zero block the first store left
  rw [View.read_writes_eq_canon _ _ _ (fun y => ⟨_, List.mem_cons_self, View.mem_set_unit_zero hz2 Gen.inb_S1024x2048_S1024x2048_0_0 y⟩)]
  sl_unfold_run_names
  rw [View.canon_cons_unit_zero (S := S1024x2048) hz2, View.readCov_unit_zero (S := S1024x2048) _ hz2]
  simp only [View.readAt_eq_ld, harg2.read_unread, harg3.read_unread, harg4.read_unread, harg5.read_unread, harg6.read_unread,
    View.ld_unit_zero (S := S1024x256) hz2, View.ld_unit_zero (S := S1x256) hz2, View.ld_unit_zero (S := S1024x1) hz2,
    View.ld_unit_zero (S := S256x2048) hz2]

/-- The body at a later point of a row, on any whole staging memrefs: the output's holds `x5`, and the body leaves
    in it the step from `x5`. -/
theorem run_acc (c : Dev nD) (i : grid0.Coords)
    (arg2 : Memref sig .tc .vmem S1024x256 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x1 .i32) (harg5 : arg5.IsWhole)
    (arg6 : Memref sig .tc .vmem S256x2048 .bf16) (harg6 : arg6.IsWhole) (arg7 : Memref sig .tc .vmem S1024x2048 .f32) (harg7 : arg7.IsWhole)
    (hc : ¬atStart i)
    (x0 : Vec F S1024x256 .f32) (x1 : Vec F S1024x256 .bf16) (x2 : Vec F S1x256 .f32) (x3 : Vec F S1024x1 .i32)
    (x4 : Vec F S256x2048 .bf16) (x5 : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (Gen.k0_pay2 i x3 x0 x1 x2 x5 x4)) -∗ K ⟨⟩))
      ⊢ wp frame (wpE (defs₀ (F := F)) 𝒱₀ c none) E (cc0__matmul_kernel i arg2 harg2 arg3 harg3 arg4 harg4 arg5 harg5 arg6 harg6 arg7 harg7) K := by
  simp only [Gen.cc0__matmul_kernel_eq_skeleton]; unfold Gen.cc0__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  iexists _; isplitr
  swap; · iexact H5
  ipureintro
  -- the one store covers the block: the buffer reads as its payload, whose loads read the whole buffers
  rw [View.read_writes_eq_canon _ _ _ (fun y => ⟨_, List.mem_cons_self, View.mem_set_unit_zero hz2 Gen.inb_S1024x2048_S1024x2048_0_0 y⟩)]
  sl_unfold_run_names
  rw [View.canon_cons_unit_zero (S := S1024x2048) hz2]
  simp only [View.readAt_eq_ld, harg2.read_unread, harg3.read_unread, harg4.read_unread, harg5.read_unread, harg6.read_unread,
    harg7.read_unread,
    View.ld_unit_zero (S := S1024x256) hz2, View.ld_unit_zero (S := S1x256) hz2, View.ld_unit_zero (S := S1024x1) hz2,
    View.ld_unit_zero (S := S256x2048) hz2, View.ld_unit_zero (S := S1024x2048) hz2]

end Runs

section Data

variable (V : (c : Dev nD) → (b : Ref sig .tc) → Buf (Elt F) ((c.tc : Thread nD τ).loc b))

/-- Window `w`'s block at point `t`, read off its array at the valuation. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's step on the accumulator: `acc` plus the product of the point's blocks. -/
def stepAt (c : Dev nD) (t : Fin cfg0.N) (acc : Vec F S1024x2048 .f32) : Vec F S1024x2048 .f32 :=
  Gen.k0_pay2 (grid0.coords t) (iblk V c 3 t) (iblk V c 0 t) (iblk V c 1 t) (iblk V c 2 t) acc (iblk V c 4 t)

/-- What the output's staging buffer holds after the body at position `n`: the step from zero where a row of the
    grid begins, else the step from what the position before left. -/
def accAt (c : Dev nD) : (n : ℕ) → n < cfg0.N → Vec F S1024x2048 .f32
  | 0, hn => stepAt V c ⟨0, hn⟩ (Gen.k0_pay1 (F := F))
  | n + 1, hn =>
    if (n + 1) % 64 = 0 then stepAt V c ⟨n + 1, hn⟩ (Gen.k0_pay1 (F := F))
    else stepAt V c ⟨n + 1, hn⟩ (accAt c n (Nat.lt_of_succ_lt hn))

/-- Where a row of the grid begins the accumulator is the step from zero. -/
theorem accAt_start (c : Dev nD) (t : Fin cfg0.N) (h : t.val % 64 = 0) :
    accAt V c t.val t.isLt = stepAt V c t (Gen.k0_pay1 (F := F)) := by
  obtain ⟨n, hn⟩ := t
  cases n with
  | zero => exact accAt.eq_1 V c hn
  | succ n => exact (accAt.eq_2 V c n hn).trans (if_pos h)

/-- Elsewhere it is the step from what the point before left. -/
theorem accAt_next (c : Dev nD) (t : Fin cfg0.N) (h : ¬t.val % 64 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => exact (accAt.eq_2 V c n hn).trans (if_neg h)

/-- The proof data of the region on core `c`: the arrays as the valuation has them; after the body each input's
    buffer at its block and the output's at `accAt`; the invariant is the class's (the scoped rest and the generator
    register); nothing owed; full shares. -/
def dats (_ : Fin 1) (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => accAt V c t.val t.isLt
  Φ _ := Pipeline.ΦA spec0 c
  q _ := fullShare
  owed _ := 0

/-- The admissible contents of the region's (empty) prefetched tables. -/
abbrev adm : (p : Fin 1) → (pcfgs (F := F) p).Adm := fun p => (cfgs p).toPCfg_adm

/-- The proof data at the type the region's segment record takes. -/
def pdats (p : Fin 1) (c : Dev nD) : Dat τ (Elt F) Unit ℕ UU ℕ (Pipeline.pin (pcfgs (F := F)) adm p) c := dats (UU := UU) V p c

theorem A_eq (c : Dev nD) (w : Fin cfg0.W) : (dats (UU := UU) V 0 c).A w = V c (Pipeline.arrRef spec0 w) := by
  dsimp only [dats]

theorem after_0 (c : Dev nD) (t : Fin cfg0.N) : (dats (UU := UU) V 0 c).after 0 t = iblk V c 0 t := by dsimp only [dats]
theorem after_1 (c : Dev nD) (t : Fin cfg0.N) : (dats (UU := UU) V 0 c).after 1 t = iblk V c 1 t := by dsimp only [dats]
theorem after_2 (c : Dev nD) (t : Fin cfg0.N) : (dats (UU := UU) V 0 c).after 2 t = iblk V c 2 t := by dsimp only [dats]
theorem after_3 (c : Dev nD) (t : Fin cfg0.N) : (dats (UU := UU) V 0 c).after 3 t = iblk V c 3 t := by dsimp only [dats]
theorem after_4 (c : Dev nD) (t : Fin cfg0.N) : (dats (UU := UU) V 0 c).after 4 t = iblk V c 4 t := by dsimp only [dats]
theorem after_5 (c : Dev nD) (t : Fin cfg0.N) : (dats (UU := UU) V 0 c).after 5 t = accAt V c t.val t.isLt := by dsimp only [dats]

/-! ## What the body finds in each staging buffer -/

/-- The block the library reads off the proof data's array is the block read off the valuation. -/
theorem blockOf_eq (c : Dev nD) (w : Fin cfg0.W) (t : Fin cfg0.N) : (dats (UU := UU) V 0 c).blockOf w t = iblk V c w t := by
  unfold Dat.blockOf iblk; rw [A_eq]

/-! An input window's current staging buffer holds its block at every point, fetched there or not: the body leaves
the block in place, the window is uncut and never idle, and where it is not fetched its block index has not moved.
One group of statements per input window: a block's shape is its window's only once the window is a literal. -/

/-- Window 0 is uncut: a fetch fills its whole buffer with the block. -/
theorem fetched_0 (c : Dev nD) (t : Fin cfg0.N) (d) : (dats (UU := UU) V 0 c).fetched 0 t d = iblk V c 0 t :=
  (show (dats (UU := UU) V 0 c).fetched 0 t d = (dats (UU := UU) V 0 c).blockOf 0 t from rfl).trans (blockOf_eq V c 0 t)
/-- The body only reads window 0: what it leaves there is the block. -/
theorem keep_0 (c : Dev nD) (t : Fin cfg0.N) :
    (cfg0.win 0).cut (cfg0.grid.coords t) ((dats (UU := UU) V 0 c).after 0 t) = (dats (UU := UU) V 0 c).blockOf 0 t := by
  rw [after_0, blockOf_eq]
/-- So window 0's current staging buffer holds its block at every point. -/
theorem before_0 (c : Dev nD) (t : Fin cfg0.N) (d) : (dats (UU := UU) V 0 c).before 0 t d = iblk V c 0 t := by
  rw [Dat.before_in_eq_fetched (dats (UU := UU) V 0 c) 0 rfl (fun _ => rfl) (fun _ _ _ => rfl) (keep_0 V c) t d, fetched_0]

/-- Window 1 is uncut: a fetch fills its whole buffer with the block. -/
theorem fetched_1 (c : Dev nD) (t : Fin cfg0.N) (d) : (dats (UU := UU) V 0 c).fetched 1 t d = iblk V c 1 t :=
  (show (dats (UU := UU) V 0 c).fetched 1 t d = (dats (UU := UU) V 0 c).blockOf 1 t from rfl).trans (blockOf_eq V c 1 t)
/-- The body only reads window 1: what it leaves there is the block. -/
theorem keep_1 (c : Dev nD) (t : Fin cfg0.N) :
    (cfg0.win 1).cut (cfg0.grid.coords t) ((dats (UU := UU) V 0 c).after 1 t) = (dats (UU := UU) V 0 c).blockOf 1 t := by
  rw [after_1, blockOf_eq]
/-- So window 1's current staging buffer holds its block at every point. -/
theorem before_1 (c : Dev nD) (t : Fin cfg0.N) (d) : (dats (UU := UU) V 0 c).before 1 t d = iblk V c 1 t := by
  rw [Dat.before_in_eq_fetched (dats (UU := UU) V 0 c) 1 rfl (fun _ => rfl) (fun _ _ _ => rfl) (keep_1 V c) t d, fetched_1]

/-- Window 2 is uncut: a fetch fills its whole buffer with the block. -/
theorem fetched_2 (c : Dev nD) (t : Fin cfg0.N) (d) : (dats (UU := UU) V 0 c).fetched 2 t d = iblk V c 2 t :=
  (show (dats (UU := UU) V 0 c).fetched 2 t d = (dats (UU := UU) V 0 c).blockOf 2 t from rfl).trans (blockOf_eq V c 2 t)
/-- The body only reads window 2: what it leaves there is the block. -/
theorem keep_2 (c : Dev nD) (t : Fin cfg0.N) :
    (cfg0.win 2).cut (cfg0.grid.coords t) ((dats (UU := UU) V 0 c).after 2 t) = (dats (UU := UU) V 0 c).blockOf 2 t := by
  rw [after_2, blockOf_eq]
/-- So window 2's current staging buffer holds its block at every point. -/
theorem before_2 (c : Dev nD) (t : Fin cfg0.N) (d) : (dats (UU := UU) V 0 c).before 2 t d = iblk V c 2 t := by
  rw [Dat.before_in_eq_fetched (dats (UU := UU) V 0 c) 2 rfl (fun _ => rfl) (fun _ _ _ => rfl) (keep_2 V c) t d, fetched_2]

/-- Window 3 is uncut: a fetch fills its whole buffer with the block. -/
theorem fetched_3 (c : Dev nD) (t : Fin cfg0.N) (d) : (dats (UU := UU) V 0 c).fetched 3 t d = iblk V c 3 t :=
  (show (dats (UU := UU) V 0 c).fetched 3 t d = (dats (UU := UU) V 0 c).blockOf 3 t from rfl).trans (blockOf_eq V c 3 t)
/-- The body only reads window 3: what it leaves there is the block. -/
theorem keep_3 (c : Dev nD) (t : Fin cfg0.N) :
    (cfg0.win 3).cut (cfg0.grid.coords t) ((dats (UU := UU) V 0 c).after 3 t) = (dats (UU := UU) V 0 c).blockOf 3 t := by
  rw [after_3, blockOf_eq]
/-- So window 3's current staging buffer holds its block at every point. -/
theorem before_3 (c : Dev nD) (t : Fin cfg0.N) (d) : (dats (UU := UU) V 0 c).before 3 t d = iblk V c 3 t := by
  rw [Dat.before_in_eq_fetched (dats (UU := UU) V 0 c) 3 rfl (fun _ => rfl) (fun _ _ _ => rfl) (keep_3 V c) t d, fetched_3]

/-- Window 4 is uncut: a fetch fills its whole buffer with the block. -/
theorem fetched_4 (c : Dev nD) (t : Fin cfg0.N) (d) : (dats (UU := UU) V 0 c).fetched 4 t d = iblk V c 4 t :=
  (show (dats (UU := UU) V 0 c).fetched 4 t d = (dats (UU := UU) V 0 c).blockOf 4 t from rfl).trans (blockOf_eq V c 4 t)
/-- The body only reads window 4: what it leaves there is the block. -/
theorem keep_4 (c : Dev nD) (t : Fin cfg0.N) :
    (cfg0.win 4).cut (cfg0.grid.coords t) ((dats (UU := UU) V 0 c).after 4 t) = (dats (UU := UU) V 0 c).blockOf 4 t := by
  rw [after_4, blockOf_eq]
/-- So window 4's current staging buffer holds its block at every point. -/
theorem before_4 (c : Dev nD) (t : Fin cfg0.N) (d) : (dats (UU := UU) V 0 c).before 4 t d = iblk V c 4 t := by
  rw [Dat.before_in_eq_fetched (dats (UU := UU) V 0 c) 4 rfl (fun _ => rfl) (fun _ _ _ => rfl) (keep_4 V c) t d, fetched_4]

/-- Where a row of the grid begins the output's staging buffer is fresh: the first point, or the point after the
    write-back that ends the row before. -/
theorem before_5_start (c : Dev nD) (t : Fin cfg0.N) (h : t.val % 64 = 0) (d) : (dats (UU := UU) V 0 c).before 5 t d = d :=
  (dats (UU := UU) V 0 c).before_out_reset 5 rfl t (by
    by_cases h0 : t.val = 0
    · exact .inl h0
    · exact .inr ⟨h0, (Gen.flush0_5 _).mpr (by dsimp only; omega)⟩) d

/-- Elsewhere it holds what the body left at the point before: nothing was written back between. -/
theorem before_5_next (c : Dev nD) (t : Fin cfg0.N) (h : ¬t.val % 64 = 0) (d) :
    (dats (UU := UU) V 0 c).before 5 t d = accAt V c (t.val - 1) (Nat.lt_of_le_of_lt (Nat.sub_le _ _) t.isLt) := by
  rw [Dat.before_out_kept _ 5 rfl t (by omega)
    (Bool.eq_false_iff.mpr fun hf => by have := (Gen.flush0_5 _).mp hf; dsimp only at this; omega)
    (fun _ => rfl) (fun _ _ => rfl), after_5]

/-! ## The body obligation, at a generic point -/

variable (𝒱₀ : Variants)

/-- What the body is called with at point `t`: the invariant, what the core owes, and each window's current
    staging buffer at what it then holds, -/
def bodyPre (c : Dev nD) (t : Fin cfg0.N) : sProp 𝕄 :=
  iprop((dats (UU := UU) V 0 c).Φ t.castSucc ∗ (dats (UU := UU) V 0 c).owesAt () t.castSucc
    ∗ (∃ d, owns (c : Thread nD τ) (win0_0.stage (cfg0.slots t 0)) fullShare ((dats (UU := UU) V 0 c).before 0 t d))
    ∗ (∃ d, owns (c : Thread nD τ) (win0_1.stage (cfg0.slots t 1)) fullShare ((dats (UU := UU) V 0 c).before 1 t d))
    ∗ (∃ d, owns (c : Thread nD τ) (win0_2.stage (cfg0.slots t 2)) fullShare ((dats (UU := UU) V 0 c).before 2 t d))
    ∗ (∃ d, owns (c : Thread nD τ) (win0_3.stage (cfg0.slots t 3)) fullShare ((dats (UU := UU) V 0 c).before 3 t d))
    ∗ (∃ d, owns (c : Thread nD τ) (win0_4.stage (cfg0.slots t 4)) fullShare ((dats (UU := UU) V 0 c).before 4 t d))
    ∗ (∃ d, owns (c : Thread nD τ) (win0_5.stage (cfg0.slots t 5)) fullShare ((dats (UU := UU) V 0 c).before 5 t d)))

/-- and what it returns. -/
def bodyPost (c : Dev nD) (t : Fin cfg0.N) : sProp 𝕄 :=
  iprop((dats (UU := UU) V 0 c).Φ t.succ ∗ (dats (UU := UU) V 0 c).owesAt () t.succ
    ∗ owns (c : Thread nD τ) (win0_0.stage (cfg0.slots t 0)) fullShare ((dats (UU := UU) V 0 c).after 0 t)
    ∗ owns (c : Thread nD τ) (win0_1.stage (cfg0.slots t 1)) fullShare ((dats (UU := UU) V 0 c).after 1 t)
    ∗ owns (c : Thread nD τ) (win0_2.stage (cfg0.slots t 2)) fullShare ((dats (UU := UU) V 0 c).after 2 t)
    ∗ owns (c : Thread nD τ) (win0_3.stage (cfg0.slots t 3)) fullShare ((dats (UU := UU) V 0 c).after 3 t)
    ∗ owns (c : Thread nD τ) (win0_4.stage (cfg0.slots t 4)) fullShare ((dats (UU := UU) V 0 c).after 4 t)
    ∗ owns (c : Thread nD τ) (win0_5.stage (cfg0.slots t 5)) fullShare ((dats (UU := UU) V 0 c).after 5 t))

set_option maxHeartbeats 1600000 in
/-- The body at any point. The inputs' buffers hold their blocks; where a row of the grid begins the output's buffer
    is fresh and the body runs its reset case, elsewhere it holds what the point before left and the body adds to it;
    the invariant passes through unread and the core owes nothing throughout. -/
theorem sound_body (c : Dev nD) (t : Fin cfg0.N) :
    bodyPre (UU := UU) V c t ⊢ wp frame (wpE (defs₀ (F := F)) 𝒱₀ c none) Set.univ (Gen.bodyAt0 t) (fun _ => bodyPost (UU := UU) V c t) := by
  unfold bodyPre bodyPost Gen.bodyAt0
  simp only [before_0, before_1, before_2, before_3, before_4]
  rw [show (dats (UU := UU) V 0 c).Φ t.succ = (dats (UU := UU) V 0 c).Φ t.castSucc from rfl,
    show (dats (UU := UU) V 0 c).owesAt () t.succ = (dats (UU := UU) V 0 c).owesAt () t.castSucc from rfl,
    after_0, after_1, after_2, after_3, after_4, after_5]
  by_cases h0 : t.val % 64 = 0
  · simp only [before_5_start V c t h0]
    rw [accAt_start V c t h0]
    unfold stepAt
    iintro ⟨HΦ, Ho, ⟨%d0, H0⟩, ⟨%d1, H1⟩, ⟨%d2, H2⟩, ⟨%d3, H3⟩, ⟨%d4, H4⟩, ⟨%d5, H5⟩⟩
    iapply (run_reset 𝒱₀ c (grid0.coords t) _ _ _ _ _ _ _ _ _ _ _ _ ((atStart_iff t).mpr h0)
      (iblk V c 0 t) (iblk V c 1 t) (iblk V c 2 t) (iblk V c 3 t) (iblk V c 4 t) d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_5_next V c t h0]
    rw [accAt_next V c t h0]
    unfold stepAt
    iintro ⟨HΦ, Ho, ⟨%d0, H0⟩, ⟨%d1, H1⟩, ⟨%d2, H2⟩, ⟨%d3, H3⟩, ⟨%d4, H4⟩, ⟨%d5, H5⟩⟩
    iapply (run_acc 𝒱₀ c (grid0.coords t) _ _ _ _ _ _ _ _ _ _ _ _ (fun hs => h0 ((atStart_iff t).mp hs))
      (iblk V c 0 t) (iblk V c 1 t) (iblk V c 2 t) (iblk V c 3 t) (iblk V c 4 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point, on every core. -/
theorem hbody (c : Dev nD) : BodyObligationLoose (dats (UU := UU) V 0 c) (defs₀ (F := F)) 𝒱₀ () Set.univ := fun t => by
  rw [Gen.bigSep_W0, Gen.bigSep_W0]
  exact sound_body V 𝒱₀ c t

/-- The same, of the proof data at the type the region's segment record takes. -/
theorem hbody' (c : Dev nD) : BodyObligationLoose (pdats (UU := UU) V 0 c) (defs₀ (F := F)) 𝒱₀ () Set.univ := hbody V 𝒱₀ c

/-! ## The small facts the segment record asks of the proof data -/

/-- The invariant at the first point is the class's. -/
theorem hΦ0 (c : Dev nD) : (pdats (UU := UU) V 0 c).Φ 0 = Pipeline.ΦA (Pipeline.pin (pcfgs (F := F)) adm 0).spec c := rfl
/-- The invariant at the last point is the class's. -/
theorem hΦN (c : Dev nD) : (pdats (UU := UU) V 0 c).Φ (Fin.last (Pipeline.pin (pcfgs (F := F)) adm 0).N) = Pipeline.ΦA (Pipeline.pin (pcfgs (F := F)) adm 0).spec c := rfl
/-- The core owes nothing between points. -/
theorem howed (c : Dev nD) (t) : (pdats (UU := UU) V 0 c).owed t = 0 := rfl
/-- The bound on the recorded pairs at the first point is everything. -/
theorem hrec (c : Dev nD) : (pdats (UU := UU) V 0 c).recorded 0 = Set.univ := rfl
/-- Every array is held at the full share. -/
theorem hshare (c : Dev nD) (w) : (pdats (UU := UU) V 0 c).share w = fullShare := (dats (UU := UU) V 0 c).share_full (fun _ => rfl) w

end Data

end Cert.Kernel.Hand

end
-- ==== Proof.KLaunch.lean ====
import proofs.«418976_j78056735637975_3_alg».proof.Proof.KBody
import proofs.«418976_j78056735637975_3_alg».proof.Proof.LibRegion
import proofs.«418976_j78056735637975_3_alg».proof.Proof.Gen.Kernel.Launch
import Idealize.ShloMosaic.Lib.Pipeline.Regions

/-!
# The run of @main: forty-two host operations, the kernel region, one hundred and forty-three host operations

@main is three items in a row. The thread state between items is "every unscoped buffer of the core held whole at a
valuation", beside the generator register and the core owing nothing: a stretch of host operations takes the
valuation `V` to `StableHlo.after ops V`; the region takes it to the valuation updated at the one array it writes, its
output, with what the pipeline's write-backs left there. The launch is the library's theorem for a @main that is a
list of segments. From the run: no item writes an argument's buffer (every host operation writes a result slot, whose
index lies past the arguments'; the region writes its output array only), so the arguments end as launched.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf arrRef)

variable {F : FTy → Type} [FloatOps F]

/-- The certificate's algebra: the pipeline library's, whole. -/
abbrev UL : Type := UR sig nD τ

local notation "𝕄" => MT nD τ sig Unit (Elt F) ℕ UL ℕ

/-- The pipeline library's algebra is the whole of the certificate's. -/
abbrev EP : Emb (UR sig nD τ) (MT nD τ sig Unit (Elt F) ℕ UL ℕ) := emb₁

/-- No kernel of this program calls another: no variant. -/
abbrev 𝒱n : Variants := Variants.none
/-- No core owes another anything: no level is assigned. -/
abbrev L : GSem nD τ sig → Finset Unit := fun _ => ∅
abbrev lv : GSem nD τ sig → Unit → ℕ := fun _ _ => 0

variable (m : (ℓ : Loc nD τ sig) → Buf (Elt F) ℓ) (ρ : Dev nD → PrngReg)

/-! ## The valuations between the items -/

/-- Core `c`'s buffers at launch, as a valuation. -/
abbrev V₀ (c : Dev nD) : Valuation τ sig (Elt F) := fun b => m ((c : Dev nD), b)

/-- The buffers when the region is entered: the first stretch of host operations has run. -/
abbrev Vin (c : Dev nD) : Valuation τ sig (Elt F) := StableHlo.after hostOps0 (V₀ m c)

/-- The same, read at the core's references: what the region's proof data is stated over. -/
abbrev VinR (c : Dev nD) (b : Ref sig .tc) : Buf (Elt F) ((c.tc : Thread nD τ).loc b) := Vin m c b

/-- The region's proof data, at the buffers it is entered from. -/
abbrev pd (p : Fin 1) (c : Dev nD) : Dat τ (Elt F) Unit ℕ UL ℕ (Pipeline.pin (pcfgs (F := F)) adm p) c :=
  pdats (UU := UL) (VinR m) p c

/-- The output window's array. -/
abbrev outRef : Ref sig .tc := main_call0_v34

/-- The buffers when the region is left: the output array at what the pipeline's write-backs left, every other buffer
    as entered. -/
def Vout (c : Dev nD) : Valuation τ sig (Elt F) :=
  Function.update (Vin m c) (Proc.devRef .tc outRef) ((pd m 0 c).arrAt 5 cfg0.N)

/-- The buffers at the end: the second stretch of host operations has run. -/
def Vfin (c : Dev nD) : Valuation τ sig (Elt F) := StableHlo.after hostOps1 (Vout m c)

theorem Vout_out (c : Dev nD) : Vout m c (Proc.devRef .tc outRef) = (pd m 0 c).arrAt 5 cfg0.N := by
  unfold Vout; exact Function.update_self ..

theorem Vout_of_ne (c : Dev nD) {b : Ref sig .tc} (h : b ≠ outRef) :
    Vout m c (Proc.devRef .tc b) = Vin m c (Proc.devRef .tc b) := by
  unfold Vout; exact Function.update_of_ne (StableHlo.devRef_ne_of_ne h) ..

/-! ## What the host stretches write: result slots only -/

/-- An operation writes only result slots: references whose index is past the eleven arguments'. -/
def WritesResults (op : HloOp τ sig (Elt F)) : Prop :=
  ∀ b ∈ op.writes, ∃ y : Ref sig .tc, b = Proc.devRef .tc y ∧ 11 ≤ y.idx.val

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps0_results : (hostOps0 : List (HloOp τ sig (Elt F))).Forall WritesResults := by
  simp only [List.Forall]
  repeat' constructor
  all_goals (intro b hb; exact ⟨_, Finset.mem_singleton.mp hb, by decide⟩)

theorem hostOps1_results : (hostOps1 : List (HloOp τ sig (Elt F))).Forall WritesResults := by
  simp only [List.Forall]
  repeat' constructor
  all_goals (intro b hb; exact ⟨_, Finset.mem_singleton.mp hb, by decide⟩)

/-- A line of operations writing result slots only leaves an argument's buffer as it found it. -/
theorem after_arg (ops : List (HloOp τ sig (Elt F))) (h : ops.Forall WritesResults) (V : Valuation τ sig (Elt F))
    (r : Ref sig .tc) (hr : r.idx.val < 11) : StableHlo.after ops V (Proc.devRef .tc r) = V (Proc.devRef .tc r) :=
  StableHlo.after_of_forall_not_mem ops V fun op hop hb => by
    obtain ⟨y, hy, h11⟩ := (List.forall_iff_forall_mem.mp h) op hop _ hb
    have : r = y := Proc.devRef_injective _ hy
    subst this; omega

/-! ## The items as segments -/

/-- What rides beside the buffers through every segment. -/
abbrev Rr (c : Dev nD) : sProp 𝕄 := Cert.LibRegion.R (τ := τ) (sig := sig) (Val := Elt F) (U := UL) c

/-- The first stretch of host operations, over the unscoped buffers. -/
def seg0 : Pipeline.HostSeg (Name := ℕ) (U := UL) (pcfgs (F := F)) defs₀ 𝒱n L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m) Rr

/-- The second stretch, from the buffers as the region left them. -/
def seg2 : Pipeline.HostSeg (Name := ℕ) (U := UL) (pcfgs (F := F)) defs₀ 𝒱n L lv :=
  Pipeline.HostSeg.ofOps _ _ _ _ _ (Pipeline.ucRefs τ sig) hostOps1
    (fun op h => Pipeline.sub_ucRefs op ((List.forall_iff_forall_mem.mp hostOps1_sub) op h))
    (List.forall_iff_forall_mem.mp hostOps1_fresh) (Vout m) Rr

/-- An input window's array is not the output's. -/
theorem arrRef_ne_out : ∀ w : Fin 6, w ≠ 5 → arrRef spec0 w ≠ outRef := by decide

/-- The output window's array is the output's. -/
theorem arrRef_out : arrRef spec0 5 = outRef := rfl

/-- The windows' arrays are six distinct buffers. -/
theorem arr_inj : Function.Injective (arrRef spec0) := winFacts0.arr_inj

/-- At entry each window's array is at the entry valuation. -/
theorem arrAt_in_eq (c : Dev nD) (w : Fin 6) : (pd m 0 c).arrAt w 0 = Vin m c (arrRef spec0 w) :=
  A_eq (UU := UL) (VinR m) c w

/-- The five input windows are inputs. -/
theorem isOut_in : ∀ w : Fin 6, w ≠ 5 → (cfg0.win w).isOut = false := by decide

/-- At exit each window's array is at the exit valuation: an input's array as entered (the pipeline never writes it),
    the output's at what the write-backs left. -/
theorem arrAt_out_eq (c : Dev nD) (w : Fin 6) : (pd m 0 c).arrAt w cfg0.N = Vout m c (arrRef spec0 w) := by
  by_cases hw : w = 5
  · subst hw; exact (Vout_out m c).symm
  · rw [Vout_of_ne m c (arrRef_ne_out w hw)]
    exact ((pd m 0 c).arrAt_in w (isOut_in w hw) _).trans (arrAt_in_eq m c w)

/-- The region: entered from the buffers at `Vin`, left at `Vout`. -/
def reg0 : Pipeline.RegionSeg (pcfgs (F := F)) adm (pd m) () defs₀ 𝒱n L lv 0 :=
  Cert.LibRegion.regionSegHeldA (pcfgs (F := F)) adm (pd m) defs₀ 𝒱n L lv 0
    launch0.win.to₀ launch0.block_pos launch0.stage_whole rfl
    (fun c => hbody' (UU := UL) (VinR m) 𝒱n c) (fun c => hΦ0 (UU := UL) (VinR m) c) (fun c => hΦN (UU := UL) (VinR m) c)
    (fun c t => howed (UU := UL) (VinR m) c t) (fun c => hrec (UU := UL) (VinR m) c)
    (Vin m) (Vout m)
    (fun c => Cert.LibRegion.arrBufs_split_distinct (Pipeline.pin (pcfgs (F := F)) adm 0) c (pd m 0 c) arr_inj launch0.arr_whole
      (fun w => hshare (UU := UL) (VinR m) c w) (fun b => Vin m c b) _ (arrAt_in_eq m c))
    (fun c => Cert.LibRegion.arrBufs_join_distinct (Pipeline.pin (pcfgs (F := F)) adm 0) c (pd m 0 c) arr_inj launch0.arr_whole
      (fun w => hshare (UU := UL) (VinR m) c w) (fun b => Vout m c b) _ (arrAt_out_eq m c))
    (fun c b hb => Vout_of_ne m c fun h => hb (h ▸ Finset.mem_image.mpr ⟨5, Finset.mem_univ _, rfl⟩))

/-- @main as the list of the three. -/
abbrev segs : List (Pipeline.Seg (pcfgs (F := F)) adm (pd m) () defs₀ 𝒱n L lv) :=
  [.host (seg0 m), .region (reg0 m), .host (seg2 m)]

/-! ## The launch -/

/-- The segments' fragments, in order, are @main's items. -/
theorem segs_prog : (segs m).map Pipeline.Seg.prog
    = [StableHlo.seq hostOps0, Prog.lift (.customCall (Pipeline.entry 0) ()), StableHlo.seq hostOps1] := rfl

/-- @main is the segments' run. -/
theorem main_run (c : Dev nD) : main (F := F) c = Pipeline.Seg.run (segs m) := by
  rw [Pipeline.Seg.run_eq_chain, segs_prog]; exact main_chain c

/-- The launch element: the pipeline library's at the staging cells. -/
def u₀ : UL := initOf (Pipeline.cells (Pipeline.pin (pcfgs (F := F)) adm) cellOf_inj) (Pipeline.launchToks (Pipeline.pin (pcfgs (F := F)) adm) cellOf_inj)

/-- What the last segment leaves, the core's debts apart: the unscoped buffers at the last valuation, the generator register. -/
abbrev Tₙ (c : Dev nD) : sProp 𝕄 :=
  iprop(StableHlo.held (c.tc : Thread nD τ) (Pipeline.ucRefs τ sig) (Vfin m c) ∗ ∃ r, prngReg c r)

-- unifying the launch theorem's conclusion with this statement unfolds plain definitions inside types
set_option backward.isDefEq.respectTransparency.types false in
/-- At the compiled mesh, for any float values, from any memory with zero counters: every weakly fair execution of
    @main on the TensorCores terminates, and every final state has every unscoped buffer of every core at the last
    valuation. -/
theorem run_main : θ_run (defs (F := F)) (onTc (τ := τ) (main (F := F))) ⟨m, fun _ => 0, ρ⟩
    (fun r => ∀ c : Dev nD, ∀ b : Ref sig .tc, (Proc.devRef .tc b : DevRef τ sig).isScoped = false →
      r.2.mem ((c.tc : Thread nD τ).loc b) = Vfin m c (Proc.devRef .tc b)) :=
  Pipeline.θ_run_regions_kit (pcfgs (F := F)) adm (pd m) () cellOf_inj EP defs₀ 𝒱n L lv m ρ main (segs m)
    (fun c Q => Entails.of_eq (by rw [main_run m c]))
    (List.nodup_singleton (0 : Fin 1)) (O₀ := 0) (hL := fun _ _ => rfl) (G := fun _ => iprop(emp)) (u₀ := u₀ (F := F))
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V₀ m c) ∗ Rr c)) (Tₙ := Tₙ m)
    (hch := ⟨fun _ => .rfl, fun _ => .rfl, fun _ => .rfl, fun c => by
      show iprop(StableHlo.held (c.tc : Thread nD τ) (Pipeline.ucRefs τ sig) (Vfin m c) ∗ Rr c) ⊢ _
      iintro ⟨Hh, Hp, HO⟩
      isplitr [HO]
      · isplitl [Hh] <;> iassumption
      · iexact HO⟩)
    (hinit := by
      refine Pipeline.initEach L lv fun c => ?_
      rw [show unscopedBufs c (fun b => m ((c.tc : Thread nD τ).loc b)) = StableHlo.held (c.tc : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c.tc : Thread nD τ).1, b) = Vfin m c b)
    (hfin := fun c s' => by
      iintro ⟨⟨Hh, -⟩, HSI⟩
      ihave Hr := (pointsTo_read_all (Pipeline.ucRefs τ sig) (fun b => ((c.tc : Thread nD τ).1, b)) (fun b => Vfin m c b) s') $$ [Hh HSI]
      · isplitl [Hh]
        · unfold StableHlo.held; iexact Hh
        · iexact HSI
      icases Hr with ⟨%h, HSI⟩
      imodintro
      isplitr; · ipureintro; exact h
      iexact HSI)
    (hQ := fun s h c b hb => h c _ (Finset.mem_filter.mpr ⟨StableHlo.devRef_mem_tcRefs b, by rw [hb]; exact Bool.false_ne_true⟩))

/-! ## The arguments end as launched -/

/-- An argument's buffer at the end is the one launched: neither stretch writes it, and it is not the region's output. -/
theorem Vfin_arg (c : Dev nD) (r : Ref sig .tc) (hr : r.idx.val < 11) (hne : r ≠ outRef) :
    Vfin m c (Proc.devRef .tc r) = m ((c.tc : Thread nD τ).loc r) := by
  unfold Vfin
  rw [after_arg hostOps1 hostOps1_results _ r hr, Vout_of_ne m c hne]
  exact after_arg hostOps0 hostOps0_results _ r hr

/-- @main runs, and its eleven argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := F)) _ _).mono (fun r h c =>
    have arg : ∀ a : Ref sig .tc, (Proc.devRef .tc a : DevRef τ sig).isScoped = false → a.idx.val < 11 → a ≠ outRef →
        r.2.mem ((c.tc : Thread nD τ).loc a) = m ((c.tc : Thread nD τ).loc a) :=
      fun a hs hr hne => (h c a hs).trans (Vfin_arg m c a hr hne)
    ⟨arg main_arg0 rfl (by decide) (by decide), arg main_arg1 rfl (by decide) (by decide), arg main_arg2 rfl (by decide) (by decide),
      arg main_arg3 rfl (by decide) (by decide), arg main_arg4 rfl (by decide) (by decide), arg main_arg5 rfl (by decide) (by decide),
      arg main_arg6 rfl (by decide) (by decide), arg main_arg7 rfl (by decide) (by decide), arg main_arg8 rfl (by decide) (by decide),
      arg main_arg9 rfl (by decide) (by decide), arg main_arg10 rfl (by decide) (by decide)⟩) (run_main m ρ)

end Cert.Kernel.Hand

end
-- ==== Proof.KerBody.lean ====
import proofs.«418976_j78056735637975_3_alg».proof.Proof.Gen.KernelIdeal.Skeleton
import proofs.«418976_j78056735637975_3_alg».proof.Proof.Gen.KernelIdeal.Launch
import proofs.«418976_j78056735637975_3_alg».proof.Proof.Gen.KernelIdeal.Points
import proofs.«418976_j78056735637975_3_alg».proof.Proof.LibRegion
import Idealize.ShloMosaic.Lib.Pipeline.FrameBody
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] {UU : Type} [URA UU]

local notation "𝕄" => MT nD τ sig Unit (Elt F) ℕ UU ℕ

/-! # The one kernel region: proof data and body obligation

The region's grid is 2 x 64. Its output block (index `(i, 0)`) is revisited over the second coordinate `j`: the body
sets it to zero when `j = 0` and then, at every point, adds to it the product of the masked, gated row block with
the block of the factor. Between points the block stays in its staging buffer; it is written back when `j = 63`. -/

/-- The condition of the body's one branch, as the program computes it: the second grid coordinate is zero. -/
abbrev atStart (i : grid0.Coords) : Prop :=
  (Scalar.cmpi .ne (Scalar.extui (Scalar.cmpi .eq (BitVec.ofNat 32 (i 1).val) 0#32)) 0#32) = 1#1

/-- It holds at the points that begin a row of the grid. -/
theorem atStart_iff : ∀ t : Fin cfg0.N, atStart (grid0.coords t) ↔ t.val % 64 = 0 :=
  (by decide +kernel : ∀ t : Fin grid0.N, atStart (grid0.coords t) ↔ t.val % 64 = 0)

/-- The zero offsets of a whole-block rectangle. -/
theorem hz2 : (![0, 0] : Fin 2 → Nat) = fun _ => 0 := funext fun a => by fin_cases a <;> rfl

section Runs

variable (𝒱₀ : Variants)

/-- The body where a row of the grid begins, on any whole staging memrefs: the inputs' hold `x0 … x4`, the output's
    anything; the body zeroes the output block and leaves in it the step from zero; the inputs' are as they were. -/
theorem run_reset (c : Dev nD) (i : grid0.Coords)
    (arg2 : Memref sig .tc .vmem S1024x256 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x1 .i32) (harg5 : arg5.IsWhole)
    (arg6 : Memref sig .tc .vmem S256x2048 .bf16) (harg6 : arg6.IsWhole) (arg7 : Memref sig .tc .vmem S1024x2048 .f32) (harg7 : arg7.IsWhole)
    (hc : atStart i)
    (x0 : Vec F S1024x256 .f32) (x1 : Vec F S1024x256 .bf16) (x2 : Vec F S1x256 .f32) (x3 : Vec F S1024x1 .i32)
    (x4 : Vec F S256x2048 .bf16) (x5 : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (Gen.k0_pay2 i x3 x0 x1 x2 (Gen.k0_pay1 (F := F)) x4)) -∗ K ⟨⟩))
      ⊢ wp frame (wpE (defs₀ (F := F)) 𝒱₀ c none) E (cc0__matmul_kernel i arg2 harg2 arg3 harg3 arg4 harg4 arg5 harg5 arg6 harg6 arg7 harg7) K := by
  simp only [Gen.cc0__matmul_kernel_eq_skeleton]; unfold Gen.cc0__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  iexists _; isplitr
  swap; · iexact H5
  ipureintro
  -- the last store covers the block: the buffer reads as that store's payload, whose read-back of the
  -- accumulator is the zero block the first store left
  rw [View.read_writes_eq_canon _ _ _ (fun y => ⟨_, List.mem_cons_self, View.mem_set_unit_zero hz2 Gen.inb_S1024x2048_S1024x2048_0_0 y⟩)]
  sl_unfold_run_names
  rw [View.canon_cons_unit_zero (S := S1024x2048) hz2, View.readCov_unit_zero (S := S1024x2048) _ hz2]
  simp only [View.readAt_eq_ld, harg2.read_unread, harg3.read_unread, harg4.read_unread, harg5.read_unread, harg6.read_unread,
    View.ld_unit_zero (S := S1024x256) hz2, View.ld_unit_zero (S := S1x256) hz2, View.ld_unit_zero (S := S1024x1) hz2,
    View.ld_unit_zero (S := S256x2048) hz2]

/-- The body at a later point of a row, on any whole staging memrefs: the output's holds `x5`, and the body leaves
    in it the step from `x5`. -/
theorem run_acc (c : Dev nD) (i : grid0.Coords)
    (arg2 : Memref sig .tc .vmem S1024x256 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x1 .i32) (harg5 : arg5.IsWhole)
    (arg6 : Memref sig .tc .vmem S256x2048 .bf16) (harg6 : arg6.IsWhole) (arg7 : Memref sig .tc .vmem S1024x2048 .f32) (harg7 : arg7.IsWhole)
    (hc : ¬atStart i)
    (x0 : Vec F S1024x256 .f32) (x1 : Vec F S1024x256 .bf16) (x2 : Vec F S1x256 .f32) (x3 : Vec F S1024x1 .i32)
    (x4 : Vec F S256x2048 .bf16) (x5 : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (Gen.k0_pay2 i x3 x0 x1 x2 x5 x4)) -∗ K ⟨⟩))
      ⊢ wp frame (wpE (defs₀ (F := F)) 𝒱₀ c none) E (cc0__matmul_kernel i arg2 harg2 arg3 harg3 arg4 harg4 arg5 harg5 arg6 harg6 arg7 harg7) K := by
  simp only [Gen.cc0__matmul_kernel_eq_skeleton]; unfold Gen.cc0__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  iexists _; isplitr
  swap; · iexact H5
  ipureintro
  -- the one store covers the block: the buffer reads as its payload, whose loads read the whole buffers
  rw [View.read_writes_eq_canon _ _ _ (fun y => ⟨_, List.mem_cons_self, View.mem_set_unit_zero hz2 Gen.inb_S1024x2048_S1024x2048_0_0 y⟩)]
  sl_unfold_run_names
  rw [View.canon_cons_unit_zero (S := S1024x2048) hz2]
  simp only [View.readAt_eq_ld, harg2.read_unread, harg3.read_unread, harg4.read_unread, harg5.read_unread, harg6.read_unread,
    harg7.read_unread,
    View.ld_unit_zero (S := S1024x256) hz2, View.ld_unit_zero (S := S1x256) hz2, View.ld_unit_zero (S := S1024x1) hz2,
    View.ld_unit_zero (S := S256x2048) hz2, View.ld_unit_zero (S := S1024x2048) hz2]

end Runs

section Data

variable (V : (c : Dev nD) → (b : Ref sig .tc) → Buf (Elt F) ((c.tc : Thread nD τ).loc b))

/-- Window `w`'s block at point `t`, read off its array at the valuation. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's step on the accumulator: `acc` plus the product of the point's blocks. -/
def stepAt (c : Dev nD) (t : Fin cfg0.N) (acc : Vec F S1024x2048 .f32) : Vec F S1024x2048 .f32 :=
  Gen.k0_pay2 (grid0.coords t) (iblk V c 3 t) (iblk V c 0 t) (iblk V c 1 t) (iblk V c 2 t) acc (iblk V c 4 t)

/-- What the output's staging buffer holds after the body at position `n`: the step from zero where a row of the
    grid begins, else the step from what the position before left. -/
def accAt (c : Dev nD) : (n : ℕ) → n < cfg0.N → Vec F S1024x2048 .f32
  | 0, hn => stepAt V c ⟨0, hn⟩ (Gen.k0_pay1 (F := F))
  | n + 1, hn =>
    if (n + 1) % 64 = 0 then stepAt V c ⟨n + 1, hn⟩ (Gen.k0_pay1 (F := F))
    else stepAt V c ⟨n + 1, hn⟩ (accAt c n (Nat.lt_of_succ_lt hn))

/-- Where a row of the grid begins the accumulator is the step from zero. -/
theorem accAt_start (c : Dev nD) (t : Fin cfg0.N) (h : t.val % 64 = 0) :
    accAt V c t.val t.isLt = stepAt V c t (Gen.k0_pay1 (F := F)) := by
  obtain ⟨n, hn⟩ := t
  cases n with
  | zero => exact accAt.eq_1 V c hn
  | succ n => exact (accAt.eq_2 V c n hn).trans (if_pos h)

/-- Elsewhere it is the step from what the point before left. -/
theorem accAt_next (c : Dev nD) (t : Fin cfg0.N) (h : ¬t.val % 64 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => exact (accAt.eq_2 V c n hn).trans (if_neg h)

/-- The proof data of the region on core `c`: the arrays as the valuation has them; after the body each input's
    buffer at its block and the output's at `accAt`; the invariant is the class's (the scoped rest and the generator
    register); nothing owed; full shares. -/
def dats (_ : Fin 1) (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => accAt V c t.val t.isLt
  Φ _ := Pipeline.ΦA spec0 c
  q _ := fullShare
  owed _ := 0

/-- The admissible contents of the region's (empty) prefetched tables. -/
abbrev adm : (p : Fin 1) → (pcfgs (F := F) p).Adm := fun p => (cfgs p).toPCfg_adm

/-- The proof data at the type the region's segment record takes. -/
def pdats (p : Fin 1) (c : Dev nD) : Dat τ (Elt F) Unit ℕ UU ℕ (Pipeline.pin (pcfgs (F := F)) adm p) c := dats (UU := UU) V p c

theorem A_eq (c : Dev nD) (w : Fin cfg0.W) : (dats (UU := UU) V 0 c).A w = V c (Pipeline.arrRef spec0 w) := by
  dsimp only [dats]

theorem after_0 (c : Dev nD) (t : Fin cfg0.N) : (dats (UU := UU) V 0 c).after 0 t = iblk V c 0 t := by dsimp only [dats]
theorem after_1 (c : Dev nD) (t : Fin cfg0.N) : (dats (UU := UU) V 0 c).after 1 t = iblk V c 1 t := by dsimp only [dats]
theorem after_2 (c : Dev nD) (t : Fin cfg0.N) : (dats (UU := UU) V 0 c).after 2 t = iblk V c 2 t := by dsimp only [dats]
theorem after_3 (c : Dev nD) (t : Fin cfg0.N) : (dats (UU := UU) V 0 c).after 3 t = iblk V c 3 t := by dsimp only [dats]
theorem after_4 (c : Dev nD) (t : Fin cfg0.N) : (dats (UU := UU) V 0 c).after 4 t = iblk V c 4 t := by dsimp only [dats]
theorem after_5 (c : Dev nD) (t : Fin cfg0.N) : (dats (UU := UU) V 0 c).after 5 t = accAt V c t.val t.isLt := by dsimp only [dats]

/-! ## What the body finds in each staging buffer -/

/-- The block the library reads off the proof data's array is the block read off the valuation. -/
theorem blockOf_eq (c : Dev nD) (w : Fin cfg0.W) (t : Fin cfg0.N) : (dats (UU := UU) V 0 c).blockOf w t = iblk V c w t := by
  unfold Dat.blockOf iblk; rw [A_eq]

/-! An input window's current staging buffer holds its block at every point, fetched there or not: the body leaves
the block in place, the window is uncut and never idle, and where it is not fetched its block index has not moved.
One group of statements per input window: a block's shape is its window's only once the window is a literal. -/

/-- Window 0 is uncut: a fetch fills its whole buffer with the block. -/
theorem fetched_0 (c : Dev nD) (t : Fin cfg0.N) (d) : (dats (UU := UU) V 0 c).fetched 0 t d = iblk V c 0 t :=
  (show (dats (UU := UU) V 0 c).fetched 0 t d = (dats (UU := UU) V 0 c).blockOf 0 t from rfl).trans (blockOf_eq V c 0 t)
/-- The body only reads window 0: what it leaves there is the block. -/
theorem keep_0 (c : Dev nD) (t : Fin cfg0.N) :
    (cfg0.win 0).cut (cfg0.grid.coords t) ((dats (UU := UU) V 0 c).after 0 t) = (dats (UU := UU) V 0 c).blockOf 0 t := by
  rw [after_0, blockOf_eq]
/-- So window 0's current staging buffer holds its block at every point. -/
theorem before_0 (c : Dev nD) (t : Fin cfg0.N) (d) : (dats (UU := UU) V 0 c).before 0 t d = iblk V c 0 t := by
  rw [Dat.before_in_eq_fetched (dats (UU := UU) V 0 c) 0 rfl (fun _ => rfl) (fun _ _ _ => rfl) (keep_0 V c) t d, fetched_0]

/-- Window 1 is uncut: a fetch fills its whole buffer with the block. -/
theorem fetched_1 (c : Dev nD) (t : Fin cfg0.N) (d) : (dats (UU := UU) V 0 c).fetched 1 t d = iblk V c 1 t :=
  (show (dats (UU := UU) V 0 c).fetched 1 t d = (dats (UU := UU) V 0 c).blockOf 1 t from rfl).trans (blockOf_eq V c 1 t)
/-- The body only reads window 1: what it leaves there is the block. -/
theorem keep_1 (c : Dev nD) (t : Fin cfg0.N) :
    (cfg0.win 1).cut (cfg0.grid.coords t) ((dats (UU := UU) V 0 c).after 1 t) = (dats (UU := UU) V 0 c).blockOf 1 t := by
  rw [after_1, blockOf_eq]
/-- So window 1's current staging buffer holds its block at every point. -/
theorem before_1 (c : Dev nD) (t : Fin cfg0.N) (d) : (dats (UU := UU) V 0 c).before 1 t d = iblk V c 1 t := by
  rw [Dat.before_in_eq_fetched (dats (UU := UU) V 0 c) 1 rfl (fun _ => rfl) (fun _ _ _ => rfl) (keep_1 V c) t d, fetched_1]

/-- Window 2 is uncut: a fetch fills its whole buffer with the block. -/
theorem fetched_2 (c : Dev nD) (t : Fin cfg0.N) (d) : (dats (UU := UU) V 0 c).fetched 2 t d = iblk V c 2 t :=
  (show (dats (UU := UU) V 0 c).fetched 2 t d = (dats (UU := UU) V 0 c).blockOf 2 t from rfl).trans (blockOf_eq V c 2 t)
/-- The body only reads window 2: what it leaves there is the block. -/
theorem keep_2 (c : Dev nD) (t : Fin cfg0.N) :
    (cfg0.win 2).cut (cfg0.grid.coords t) ((dats (UU := UU) V 0 c).after 2 t) = (dats (UU := UU) V 0 c).blockOf 2 t := by
  rw [after_2, blockOf_eq]
/-- So window 2's current staging buffer holds its block at every point. -/
theorem before_2 (c : Dev nD) (t : Fin cfg0.N) (d) : (dats (UU := UU) V 0 c).before 2 t d = iblk V c 2 t := by
  rw [Dat.before_in_eq_fetched (dats (UU := UU) V 0 c) 2 rfl (fun _ => rfl) (fun _ _ _ => rfl) (keep_2 V c) t d, fetched_2]

/-- Window 3 is uncut: a fetch fills its whole buffer with the block. -/
theorem fetched_3 (c : Dev nD) (t : Fin cfg0.N) (d) : (dats (UU := UU) V 0 c).fetched 3 t d = iblk V c 3 t :=
  (show (dats (UU := UU) V 0 c).fetched 3 t d = (dats (UU := UU) V 0 c).blockOf 3 t from rfl).trans (blockOf_eq V c 3 t)
/-- The body only reads window 3: what it leaves there is the block. -/
theorem keep_3 (c : Dev nD) (t : Fin cfg0.N) :
    (cfg0.win 3).cut (cfg0.grid.coords t) ((dats (UU := UU) V 0 c).after 3 t) = (dats (UU := UU) V 0 c).blockOf 3 t := by
  rw [after_3, blockOf_eq]
/-- So window 3's current staging buffer holds its block at every point. -/
theorem before_3 (c : Dev nD) (t : Fin cfg0.N) (d) : (dats (UU := UU) V 0 c).before 3 t d = iblk V c 3 t := by
  rw [Dat.before_in_eq_fetched (dats (UU := UU) V 0 c) 3 rfl (fun _ => rfl) (fun _ _ _ => rfl) (keep_3 V c) t d, fetched_3]

/-- Window 4 is uncut: a fetch fills its whole buffer with the block. -/
theorem fetched_4 (c : Dev nD) (t : Fin cfg0.N) (d) : (dats (UU := UU) V 0 c).fetched 4 t d = iblk V c 4 t :=
  (show (dats (UU := UU) V 0 c).fetched 4 t d = (dats (UU := UU) V 0 c).blockOf 4 t from rfl).trans (blockOf_eq V c 4 t)
/-- The body only reads window 4: what it leaves there is the block. -/
theorem keep_4 (c : Dev nD) (t : Fin cfg0.N) :
    (cfg0.win 4).cut (cfg0.grid.coords t) ((dats (UU := UU) V 0 c).after 4 t) = (dats (UU := UU) V 0 c).blockOf 4 t := by
  rw [after_4, blockOf_eq]
/-- So window 4's current staging buffer holds its block at every point. -/
theorem before_4 (c : Dev nD) (t : Fin cfg0.N) (d) : (dats (UU := UU) V 0 c).before 4 t d = iblk V c 4 t := by
  rw [Dat.before_in_eq_fetched (dats (UU := UU) V 0 c) 4 rfl (fun _ => rfl) (fun _ _ _ => rfl) (keep_4 V c) t d, fetched_4]

/-- Where a row of the grid begins the output's staging buffer is fresh: the first point, or the point after the
    write-back that ends the row before. -/
theorem before_5_start (c : Dev nD) (t : Fin cfg0.N) (h : t.val % 64 = 0) (d) : (dats (UU := UU) V 0 c).before 5 t d = d :=
  (dats (UU := UU) V 0 c).before_out_reset 5 rfl t (by
    by_cases h0 : t.val = 0
    · exact .inl h0
    · exact .inr ⟨h0, (Gen.flush0_5 _).mpr (by dsimp only; omega)⟩) d

/-- Elsewhere it holds what the body left at the point before: nothing was written back between. -/
theorem before_5_next (c : Dev nD) (t : Fin cfg0.N) (h : ¬t.val % 64 = 0) (d) :
    (dats (UU := UU) V 0 c).before 5 t d = accAt V c (t.val - 1) (Nat.lt_of_le_of_lt (Nat.sub_le _ _) t.isLt) := by
  rw [Dat.before_out_kept _ 5 rfl t (by omega)
    (Bool.eq_false_iff.mpr fun hf => by have := (Gen.flush0_5 _).mp hf; dsimp only at this; omega)
    (fun _ => rfl) (fun _ _ => rfl), after_5]

/-! ## The body obligation, at a generic point -/

variable (𝒱₀ : Variants)

/-- What the body is called with at point `t`: the invariant, what the core owes, and each window's current
    staging buffer at what it then holds, -/
def bodyPre (c : Dev nD) (t : Fin cfg0.N) : sProp 𝕄 :=
  iprop((dats (UU := UU) V 0 c).Φ t.castSucc ∗ (dats (UU := UU) V 0 c).owesAt () t.castSucc
    ∗ (∃ d, owns (c : Thread nD τ) (win0_0.stage (cfg0.slots t 0)) fullShare ((dats (UU := UU) V 0 c).before 0 t d))
    ∗ (∃ d, owns (c : Thread nD τ) (win0_1.stage (cfg0.slots t 1)) fullShare ((dats (UU := UU) V 0 c).before 1 t d))
    ∗ (∃ d, owns (c : Thread nD τ) (win0_2.stage (cfg0.slots t 2)) fullShare ((dats (UU := UU) V 0 c).before 2 t d))
    ∗ (∃ d, owns (c : Thread nD τ) (win0_3.stage (cfg0.slots t 3)) fullShare ((dats (UU := UU) V 0 c).before 3 t d))
    ∗ (∃ d, owns (c : Thread nD τ) (win0_4.stage (cfg0.slots t 4)) fullShare ((dats (UU := UU) V 0 c).before 4 t d))
    ∗ (∃ d, owns (c : Thread nD τ) (win0_5.stage (cfg0.slots t 5)) fullShare ((dats (UU := UU) V 0 c).before 5 t d)))

/-- and what it returns. -/
def bodyPost (c : Dev nD) (t : Fin cfg0.N) : sProp 𝕄 :=
  iprop((dats (UU := UU) V 0 c).Φ t.succ ∗ (dats (UU := UU) V 0 c).owesAt () t.succ
    ∗ owns (c : Thread nD τ) (win0_0.stage (cfg0.slots t 0)) fullShare ((dats (UU := UU) V 0 c).after 0 t)
    ∗ owns (c : Thread nD τ) (win0_1.stage (cfg0.slots t 1)) fullShare ((dats (UU := UU) V 0 c).after 1 t)
    ∗ owns (c : Thread nD τ) (win0_2.stage (cfg0.slots t 2)) fullShare ((dats (UU := UU) V 0 c).after 2 t)
    ∗ owns (c : Thread nD τ) (win0_3.stage (cfg0.slots t 3)) fullShare ((dats (UU := UU) V 0 c).after 3 t)
    ∗ owns (c : Thread nD τ) (win0_4.stage (cfg0.slots t 4)) fullShare ((dats (UU := UU) V 0 c).after 4 t)
    ∗ owns (c : Thread nD τ) (win0_5.stage (cfg0.slots t 5)) fullShare ((dats (UU := UU) V 0 c).after 5 t))

set_option maxHeartbeats 1600000 in
/-- The body at any point. The inputs' buffers hold their blocks; where a row of the grid begins the output's buffer
    is fresh and the body runs its reset case, elsewhere it holds what the point before left and the body adds to it;
    the invariant passes through unread and the core owes nothing throughout. -/
theorem sound_body (c : Dev nD) (t : Fin cfg0.N) :
    bodyPre (UU := UU) V c t ⊢ wp frame (wpE (defs₀ (F := F)) 𝒱₀ c none) Set.univ (Gen.bodyAt0 t) (fun _ => bodyPost (UU := UU) V c t) := by
  unfold bodyPre bodyPost Gen.bodyAt0
  simp only [before_0, before_1, before_2, before_3, before_4]
  rw [show (dats (UU := UU) V 0 c).Φ t.succ = (dats (UU := UU) V 0 c).Φ t.castSucc from rfl,
    show (dats (UU := UU) V 0 c).owesAt () t.succ = (dats (UU := UU) V 0 c).owesAt () t.castSucc from rfl,
    after_0, after_1, after_2, after_3, after_4, after_5]
  by_cases h0 : t.val % 64 = 0
  · simp only [before_5_start V c t h0]
    rw [accAt_start V c t h0]
    unfold stepAt
    iintro ⟨HΦ, Ho, ⟨%d0, H0⟩, ⟨%d1, H1⟩, ⟨%d2, H2⟩, ⟨%d3, H3⟩, ⟨%d4, H4⟩, ⟨%d5, H5⟩⟩
    iapply (run_reset 𝒱₀ c (grid0.coords t) _ _ _ _ _ _ _ _ _ _ _ _ ((atStart_iff t).mpr h0)
      (iblk V c 0 t) (iblk V c 1 t) (iblk V c 2 t) (iblk V c 3 t) (iblk V c 4 t) d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_5_next V c t h0]
    rw [accAt_next V c t h0]
    unfold stepAt
    iintro ⟨HΦ, Ho, ⟨%d0, H0⟩, ⟨%d1, H1⟩, ⟨%d2, H2⟩, ⟨%d3, H3⟩, ⟨%d4, H4⟩, ⟨%d5, H5⟩⟩
    iapply (run_acc 𝒱₀ c (grid0.coords t) _ _ _ _ _ _ _ _ _ _ _ _ (fun hs => h0 ((atStart_iff t).mp hs))
      (iblk V c 0 t) (iblk V c 1 t) (iblk V c 2 t) (iblk V c 3 t) (iblk V c 4 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point, on every core. -/
theorem hbody (c : Dev nD) : BodyObligationLoose (dats (UU := UU) V 0 c) (defs₀ (F := F)) 𝒱₀ () Set.univ := fun t => by
  rw [Gen.bigSep_W0, Gen.bigSep_W0]
  exact sound_body V 𝒱₀ c t

/-- The same, of the proof data at the type the region's segment record takes. -/
theorem hbody' (c : Dev nD) : BodyObligationLoose (pdats (UU := UU) V 0 c) (defs₀ (F := F)) 𝒱₀ () Set.univ := hbody V 𝒱₀ c

/-! ## The small facts the segment record asks of the proof data -/

/-- The invariant at the first point is the class's. -/
theorem hΦ0 (c : Dev nD) : (pdats (UU := UU) V 0 c).Φ 0 = Pipeline.ΦA (Pipeline.pin (pcfgs (F := F)) adm 0).spec c := rfl
/-- The invariant at the last point is the class's. -/
theorem hΦN (c : Dev nD) : (pdats (UU := UU) V 0 c).Φ (Fin.last (Pipeline.pin (pcfgs (F := F)) adm 0).N) = Pipeline.ΦA (Pipeline.pin (pcfgs (F := F)) adm 0).spec c := rfl
/-- The core owes nothing between points. -/
theorem howed (c : Dev nD) (t) : (pdats (UU := UU) V 0 c).owed t = 0 := rfl
/-- The bound on the recorded pairs at the first point is everything. -/
theorem hrec (c : Dev nD) : (pdats (UU := UU) V 0 c).recorded 0 = Set.univ := rfl
/-- Every array is held at the full share. -/
theorem hshare (c : Dev nD) (w) : (pdats (UU := UU) V 0 c).share w = fullShare := (dats (UU := UU) V 0 c).share_full (fun _ => rfl) w

end Data

end Cert.KernelIdeal.Hand

end
-- ==== Proof.KerLaunch.lean ====
import proofs.«418976_j78056735637975_3_alg».proof.Proof.KerBody
import proofs.«418976_j78056735637975_3_alg».proof.Proof.LibRegion
import proofs.«418976_j78056735637975_3_alg».proof.Proof.Gen.KernelIdeal.Launch
import Idealize.ShloMosaic.Lib.Pipeline.Regions

/-!
# The run of @main: forty-two host operations, the kernel region, one hundred and forty-three host operations

@main is three items in a row. The thread state between items is "every unscoped buffer of the core held whole at a
valuation", beside the generator register and the core owing nothing: a stretch of host operations takes the
valuation `V` to `StableHlo.after ops V`; the region takes it to the valuation updated at the one array it writes, its
output, with what the pipeline's write-backs left there. The launch is the library's theorem for a @main that is a
list of segments. From the run: no item writes an argument's buffer (every host operation writes a result slot, whose
index lies past the arguments'; the region writes its output array only), so the arguments end as launched.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf arrRef)

variable {F : FTy → Type} [FloatOps F]

/-- The certificate's algebra: the pipeline library's, whole. -/
abbrev UL : Type := UR sig nD τ

local notation "𝕄" => MT nD τ sig Unit (Elt F) ℕ UL ℕ

/-- The pipeline library's algebra is the whole of the certificate's. -/
abbrev EP : Emb (UR sig nD τ) (MT nD τ sig Unit (Elt F) ℕ UL ℕ) := emb₁

/-- No kernel of this program calls another: no variant. -/
abbrev 𝒱n : Variants := Variants.none
/-- No core owes another anything: no level is assigned. -/
abbrev L : GSem nD τ sig → Finset Unit := fun _ => ∅
abbrev lv : GSem nD τ sig → Unit → ℕ := fun _ _ => 0

variable (m : (ℓ : Loc nD τ sig) → Buf (Elt F) ℓ) (ρ : Dev nD → PrngReg)

/-! ## The valuations between the items -/

/-- Core `c`'s buffers at launch, as a valuation. -/
abbrev V₀ (c : Dev nD) : Valuation τ sig (Elt F) := fun b => m ((c : Dev nD), b)

/-- The buffers when the region is entered: the first stretch of host operations has run. -/
abbrev Vin (c : Dev nD) : Valuation τ sig (Elt F) := StableHlo.after hostOps0 (V₀ m c)

/-- The same, read at the core's references: what the region's proof data is stated over. -/
abbrev VinR (c : Dev nD) (b : Ref sig .tc) : Buf (Elt F) ((c.tc : Thread nD τ).loc b) := Vin m c b

/-- The region's proof data, at the buffers it is entered from. -/
abbrev pd (p : Fin 1) (c : Dev nD) : Dat τ (Elt F) Unit ℕ UL ℕ (Pipeline.pin (pcfgs (F := F)) adm p) c :=
  pdats (UU := UL) (VinR m) p c

/-- The output window's array. -/
abbrev outRef : Ref sig .tc := main_call0_v34

/-- The buffers when the region is left: the output array at what the pipeline's write-backs left, every other buffer
    as entered. -/
def Vout (c : Dev nD) : Valuation τ sig (Elt F) :=
  Function.update (Vin m c) (Proc.devRef .tc outRef) ((pd m 0 c).arrAt 5 cfg0.N)

/-- The buffers at the end: the second stretch of host operations has run. -/
def Vfin (c : Dev nD) : Valuation τ sig (Elt F) := StableHlo.after hostOps1 (Vout m c)

theorem Vout_out (c : Dev nD) : Vout m c (Proc.devRef .tc outRef) = (pd m 0 c).arrAt 5 cfg0.N := by
  unfold Vout; exact Function.update_self ..

theorem Vout_of_ne (c : Dev nD) {b : Ref sig .tc} (h : b ≠ outRef) :
    Vout m c (Proc.devRef .tc b) = Vin m c (Proc.devRef .tc b) := by
  unfold Vout; exact Function.update_of_ne (StableHlo.devRef_ne_of_ne h) ..

/-! ## What the host stretches write: result slots only -/

/-- An operation writes only result slots: references whose index is past the eleven arguments'. -/
def WritesResults (op : HloOp τ sig (Elt F)) : Prop :=
  ∀ b ∈ op.writes, ∃ y : Ref sig .tc, b = Proc.devRef .tc y ∧ 11 ≤ y.idx.val

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps0_results : (hostOps0 : List (HloOp τ sig (Elt F))).Forall WritesResults := by
  simp only [List.Forall]
  repeat' constructor
  all_goals (intro b hb; exact ⟨_, Finset.mem_singleton.mp hb, by decide⟩)

theorem hostOps1_results : (hostOps1 : List (HloOp τ sig (Elt F))).Forall WritesResults := by
  simp only [List.Forall]
  repeat' constructor
  all_goals (intro b hb; exact ⟨_, Finset.mem_singleton.mp hb, by decide⟩)

/-- A line of operations writing result slots only leaves an argument's buffer as it found it. -/
theorem after_arg (ops : List (HloOp τ sig (Elt F))) (h : ops.Forall WritesResults) (V : Valuation τ sig (Elt F))
    (r : Ref sig .tc) (hr : r.idx.val < 11) : StableHlo.after ops V (Proc.devRef .tc r) = V (Proc.devRef .tc r) :=
  StableHlo.after_of_forall_not_mem ops V fun op hop hb => by
    obtain ⟨y, hy, h11⟩ := (List.forall_iff_forall_mem.mp h) op hop _ hb
    have : r = y := Proc.devRef_injective _ hy
    subst this; omega

/-! ## The items as segments -/

/-- What rides beside the buffers through every segment. -/
abbrev Rr (c : Dev nD) : sProp 𝕄 := Cert.LibRegion.R (τ := τ) (sig := sig) (Val := Elt F) (U := UL) c

/-- The first stretch of host operations, over the unscoped buffers. -/
def seg0 : Pipeline.HostSeg (Name := ℕ) (U := UL) (pcfgs (F := F)) defs₀ 𝒱n L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m) Rr

/-- The second stretch, from the buffers as the region left them. -/
def seg2 : Pipeline.HostSeg (Name := ℕ) (U := UL) (pcfgs (F := F)) defs₀ 𝒱n L lv :=
  Pipeline.HostSeg.ofOps _ _ _ _ _ (Pipeline.ucRefs τ sig) hostOps1
    (fun op h => Pipeline.sub_ucRefs op ((List.forall_iff_forall_mem.mp hostOps1_sub) op h))
    (List.forall_iff_forall_mem.mp hostOps1_fresh) (Vout m) Rr

/-- An input window's array is not the output's. -/
theorem arrRef_ne_out : ∀ w : Fin 6, w ≠ 5 → arrRef spec0 w ≠ outRef := by decide

/-- The output window's array is the output's. -/
theorem arrRef_out : arrRef spec0 5 = outRef := rfl

/-- The windows' arrays are six distinct buffers. -/
theorem arr_inj : Function.Injective (arrRef spec0) := winFacts0.arr_inj

/-- At entry each window's array is at the entry valuation. -/
theorem arrAt_in_eq (c : Dev nD) (w : Fin 6) : (pd m 0 c).arrAt w 0 = Vin m c (arrRef spec0 w) :=
  A_eq (UU := UL) (VinR m) c w

/-- The five input windows are inputs. -/
theorem isOut_in : ∀ w : Fin 6, w ≠ 5 → (cfg0.win w).isOut = false := by decide

/-- At exit each window's array is at the exit valuation: an input's array as entered (the pipeline never writes it),
    the output's at what the write-backs left. -/
theorem arrAt_out_eq (c : Dev nD) (w : Fin 6) : (pd m 0 c).arrAt w cfg0.N = Vout m c (arrRef spec0 w) := by
  by_cases hw : w = 5
  · subst hw; exact (Vout_out m c).symm
  · rw [Vout_of_ne m c (arrRef_ne_out w hw)]
    exact ((pd m 0 c).arrAt_in w (isOut_in w hw) _).trans (arrAt_in_eq m c w)

/-- The region: entered from the buffers at `Vin`, left at `Vout`. -/
def reg0 : Pipeline.RegionSeg (pcfgs (F := F)) adm (pd m) () defs₀ 𝒱n L lv 0 :=
  Cert.LibRegion.regionSegHeldA (pcfgs (F := F)) adm (pd m) defs₀ 𝒱n L lv 0
    launch0.win.to₀ launch0.block_pos launch0.stage_whole rfl
    (fun c => hbody' (UU := UL) (VinR m) 𝒱n c) (fun c => hΦ0 (UU := UL) (VinR m) c) (fun c => hΦN (UU := UL) (VinR m) c)
    (fun c t => howed (UU := UL) (VinR m) c t) (fun c => hrec (UU := UL) (VinR m) c)
    (Vin m) (Vout m)
    (fun c => Cert.LibRegion.arrBufs_split_distinct (Pipeline.pin (pcfgs (F := F)) adm 0) c (pd m 0 c) arr_inj launch0.arr_whole
      (fun w => hshare (UU := UL) (VinR m) c w) (fun b => Vin m c b) _ (arrAt_in_eq m c))
    (fun c => Cert.LibRegion.arrBufs_join_distinct (Pipeline.pin (pcfgs (F := F)) adm 0) c (pd m 0 c) arr_inj launch0.arr_whole
      (fun w => hshare (UU := UL) (VinR m) c w) (fun b => Vout m c b) _ (arrAt_out_eq m c))
    (fun c b hb => Vout_of_ne m c fun h => hb (h ▸ Finset.mem_image.mpr ⟨5, Finset.mem_univ _, rfl⟩))

/-- @main as the list of the three. -/
abbrev segs : List (Pipeline.Seg (pcfgs (F := F)) adm (pd m) () defs₀ 𝒱n L lv) :=
  [.host (seg0 m), .region (reg0 m), .host (seg2 m)]

/-! ## The launch -/

/-- The segments' fragments, in order, are @main's items. -/
theorem segs_prog : (segs m).map Pipeline.Seg.prog
    = [StableHlo.seq hostOps0, Prog.lift (.customCall (Pipeline.entry 0) ()), StableHlo.seq hostOps1] := rfl

/-- @main is the segments' run. -/
theorem main_run (c : Dev nD) : main (F := F) c = Pipeline.Seg.run (segs m) := by
  rw [Pipeline.Seg.run_eq_chain, segs_prog]; exact main_chain c

/-- The launch element: the pipeline library's at the staging cells. -/
def u₀ : UL := initOf (Pipeline.cells (Pipeline.pin (pcfgs (F := F)) adm) cellOf_inj) (Pipeline.launchToks (Pipeline.pin (pcfgs (F := F)) adm) cellOf_inj)

/-- What the last segment leaves, the core's debts apart: the unscoped buffers at the last valuation, the generator register. -/
abbrev Tₙ (c : Dev nD) : sProp 𝕄 :=
  iprop(StableHlo.held (c.tc : Thread nD τ) (Pipeline.ucRefs τ sig) (Vfin m c) ∗ ∃ r, prngReg c r)

-- unifying the launch theorem's conclusion with this statement unfolds plain definitions inside types
set_option backward.isDefEq.respectTransparency.types false in
/-- At the compiled mesh, for any float values, from any memory with zero counters: every weakly fair execution of
    @main on the TensorCores terminates, and every final state has every unscoped buffer of every core at the last
    valuation. -/
theorem run_main : θ_run (defs (F := F)) (onTc (τ := τ) (main (F := F))) ⟨m, fun _ => 0, ρ⟩
    (fun r => ∀ c : Dev nD, ∀ b : Ref sig .tc, (Proc.devRef .tc b : DevRef τ sig).isScoped = false →
      r.2.mem ((c.tc : Thread nD τ).loc b) = Vfin m c (Proc.devRef .tc b)) :=
  Pipeline.θ_run_regions_kit (pcfgs (F := F)) adm (pd m) () cellOf_inj EP defs₀ 𝒱n L lv m ρ main (segs m)
    (fun c Q => Entails.of_eq (by rw [main_run m c]))
    (List.nodup_singleton (0 : Fin 1)) (O₀ := 0) (hL := fun _ _ => rfl) (G := fun _ => iprop(emp)) (u₀ := u₀ (F := F))
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V₀ m c) ∗ Rr c)) (Tₙ := Tₙ m)
    (hch := ⟨fun _ => .rfl, fun _ => .rfl, fun _ => .rfl, fun c => by
      show iprop(StableHlo.held (c.tc : Thread nD τ) (Pipeline.ucRefs τ sig) (Vfin m c) ∗ Rr c) ⊢ _
      iintro ⟨Hh, Hp, HO⟩
      isplitr [HO]
      · isplitl [Hh] <;> iassumption
      · iexact HO⟩)
    (hinit := by
      refine Pipeline.initEach L lv fun c => ?_
      rw [show unscopedBufs c (fun b => m ((c.tc : Thread nD τ).loc b)) = StableHlo.held (c.tc : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c.tc : Thread nD τ).1, b) = Vfin m c b)
    (hfin := fun c s' => by
      iintro ⟨⟨Hh, -⟩, HSI⟩
      ihave Hr := (pointsTo_read_all (Pipeline.ucRefs τ sig) (fun b => ((c.tc : Thread nD τ).1, b)) (fun b => Vfin m c b) s') $$ [Hh HSI]
      · isplitl [Hh]
        · unfold StableHlo.held; iexact Hh
        · iexact HSI
      icases Hr with ⟨%h, HSI⟩
      imodintro
      isplitr; · ipureintro; exact h
      iexact HSI)
    (hQ := fun s h c b hb => h c _ (Finset.mem_filter.mpr ⟨StableHlo.devRef_mem_tcRefs b, by rw [hb]; exact Bool.false_ne_true⟩))

/-! ## The arguments end as launched -/

/-- An argument's buffer at the end is the one launched: neither stretch writes it, and it is not the region's output. -/
theorem Vfin_arg (c : Dev nD) (r : Ref sig .tc) (hr : r.idx.val < 11) (hne : r ≠ outRef) :
    Vfin m c (Proc.devRef .tc r) = m ((c.tc : Thread nD τ).loc r) := by
  unfold Vfin
  rw [after_arg hostOps1 hostOps1_results _ r hr, Vout_of_ne m c hne]
  exact after_arg hostOps0 hostOps0_results _ r hr

/-- @main runs, and its eleven argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := F)) _ _).mono (fun r h c =>
    have arg : ∀ a : Ref sig .tc, (Proc.devRef .tc a : DevRef τ sig).isScoped = false → a.idx.val < 11 → a ≠ outRef →
        r.2.mem ((c.tc : Thread nD τ).loc a) = m ((c.tc : Thread nD τ).loc a) :=
      fun a hs hr hne => (h c a hs).trans (Vfin_arg m c a hr hne)
    ⟨arg main_arg0 rfl (by decide) (by decide), arg main_arg1 rfl (by decide) (by decide), arg main_arg2 rfl (by decide) (by decide),
      arg main_arg3 rfl (by decide) (by decide), arg main_arg4 rfl (by decide) (by decide), arg main_arg5 rfl (by decide) (by decide),
      arg main_arg6 rfl (by decide) (by decide), arg main_arg7 rfl (by decide) (by decide), arg main_arg8 rfl (by decide) (by decide),
      arg main_arg9 rfl (by decide) (by decide), arg main_arg10 rfl (by decide) (by decide)⟩) (run_main m ρ)

end Cert.KernelIdeal.Hand

end
-- ==== Proof.Spec.lean ====
/-
  The mathematics of the loss before its last stretch, as plain functions over the extended reals.

  Notation: `b` a batch row, `n` an item, `k` a latent coordinate.  `A b n` is the interaction row of the
  row's user, `d` the dropout scale, `g` the row gate, `h` the column gate, `U` and `V` the two factor matrices,
  `σ` the shrunk singular values, `p b` / `q b` the row's positive and negative item.

  The reference builds, for an item list `it`, the gated low-rank columns with their diagonal entry zeroed
  (`colsT`), zeroes the positive item's entry of the interaction row, applies the dropout scale, and contracts over
  the items (`refRow`); its quantity is the positive score minus the negative score (`refPN`).

  The kernel contracts the gated, dropped-out row with `U` ONCE (`G`), and obtains both scores as contractions of `G`
  over the latent coordinate; the negative score over-counts the single item `q b` (which `G` does not zero), and a
  correction term removes it (`kerPos`, `kerNeg`, `kerPN`).

  Each definition follows the order of the program's own operations, so that a stage read at an index is the
  definition's right-hand side up to `zero_add`.
-/
import Idealize.ShloMosaic.PureOps.Ideal
import Idealize.ShloMosaic.Lib.ValueIdx

noncomputable section

open scoped BigOperators

namespace Cert.Bpr

open Idealize.ShloMosaic Idealize.ShloMosaic.ValueIdx

/-- Number of items, of latent coordinates, of batch rows, of users. -/
abbrev NI : Nat := 16384
abbrev NK : Nat := 2048
abbrev NB : Nat := 2048
abbrev NU : Nat := 8192

/-- An array of rank 2 / rank 1 as a function of its coordinates. -/
abbrev fn2 {α : Type} {n0 n1 : Nat} (x : (⟨2, ![n0, n1]⟩ : Shape).Idx → α) (a : Fin n0) (b : Fin n1) : α := x (ix2 a b)
abbrev fn1 {α : Type} {n : Nat} (x : (⟨1, ![n]⟩ : Shape).Idx → α) (a : Fin n) : α := x (ix1 a)

/-- The item a 32-bit index word names (total: a word outside `[0, 16384)` is reduced; inside it is the word). -/
def itemOf (w : BitVec 32) : Fin NI := ⟨w.toNat % NI, Nat.mod_lt _ (by decide)⟩

/-- A row's item, off an index vector of length 2048. -/
def itemAt (idx : (⟨1, ![NB]⟩ : Shape).Idx → BitVec 32) (b : Fin NB) : Fin NI := itemOf (idx (ix1 b))

/-- A word is an item index: as a signed integer it lies in `[0, 16384)`. -/
def InRange (w : BitVec 32) : Prop := 0 ≤ w.toInt ∧ w.toInt < (NI : Int)

theorem itemOf_val {w : BitVec 32} (h : InRange w) : (itemOf w).val = w.toNat := by
  obtain ⟨h0, h1⟩ := h
  have : w.toNat < NI := by
    have := BitVec.toInt_eq_toNat_of_msb (x := w) (by
      by_contra hm
      have hm' : w.msb = true := by simpa using hm
      have := BitVec.toInt_neg_of_msb_true hm'
      omega)
    omega
  simp [itemOf, Nat.mod_eq_of_lt this]

section Spec

variable (A d : Fin NB → Fin NI → EReal) (g h : Fin NI → EReal) (U : Fin NI → Fin NK → EReal)
  (σ : Fin NK → EReal) (V : Fin NK → Fin NI → EReal) (p q it : Fin NB → Fin NI)

/-- The gated low-rank column of item `it b`, at row item `n`, its diagonal entry zeroed. -/
def colsT (b : Fin NB) (n : Fin NI) : EReal :=
  if n = it b then 0 else (g n * ∑ k, U n k * (σ k * V k (it b))) * h (it b)

/-- The interaction row with the positive item's entry zeroed. -/
def rowZ (b : Fin NB) (n : Fin NI) : EReal := if n = p b then 0 else A b n

/-- The reference's score of a row against a column table `W`. -/
def refRow (W : Fin NB → Fin NI → EReal) (b : Fin NB) : EReal := ∑ n, (rowZ A p b n * d b n) * W b n

/-- The reference's positive score minus its negative score. -/
def refPN (b : Fin NB) : EReal :=
  refRow A d p (colsT g h U σ V p) b - refRow A d p (colsT g h U σ V q) b

/-- The kernel's one contraction: the dropped-out, gated row (positive item zeroed) against `U`. -/
def G (b : Fin NB) (k : Fin NK) : EReal := ∑ n, (if n = p b then 0 else (A b n * d b n) * g n) * U n k

/-- The kernel's positive score, over a contraction table `Gf`. -/
def kerPosG (Gf : Fin NB → Fin NK → EReal) (b : Fin NB) : EReal := h (p b) * ∑ k, (V k (p b) * σ k) * Gf b k

/-- The kernel's negative score over `Gf`: the contraction, less the one over-counted item. -/
def kerNegG (Gf : Fin NB → Fin NK → EReal) (b : Fin NB) : EReal :=
  h (q b) * (∑ k, (V k (q b) * σ k) * Gf b k)
    - ((((if q b = p b then 0 else A b (q b)) * d b (q b)) * g (q b)) * h (q b)) * ∑ k, U (q b) k * (V k (q b) * σ k)

/-- The kernel's positive score minus its negative score, over `Gf`. -/
def kerPNG (Gf : Fin NB → Fin NK → EReal) (b : Fin NB) : EReal :=
  kerPosG h σ V p Gf b - kerNegG A d g h U σ V p q Gf b

/-- The kernel's quantity: `kerPNG` at its own contraction `G`. -/
def kerPN (b : Fin NB) : EReal := kerPNG A d g h U σ V p q (G A d g U p) b

end Spec

end Cert.Bpr

end
-- ==== Proof.LibGather.lean ====
/-
  The two rank-2 forms of StableHLO's gather that indexing a matrix by a vector of positions produces, each read at
  one result index.

  A ROW gather takes an operand [N, D] and a column [B, 1] of start indices to the result [B, D] whose row b is the
  operand's row named by the b-th start index. A COLUMN gather takes an operand [N, M] and a column [B, 1] of start
  indices to the result [N, B] whose column b is the operand's column named by the b-th start index. StableHLO reads a
  start index as a signed word and clamps it so that the slice fits inside the operand. For a 32-bit word whose
  unsigned value is below the extent of the indexed axis, and an extent of at most 2^31, the signed reading is the
  unsigned value and the clamp does nothing: the result element is the operand's element at that row (column).

  Both theorems are stated for any record of dimension numbers whose fields are the lists of these two
  forms; the record's well-formedness proof is left abstract.
-/
import Idealize.ShloMosaic.PureOps.Dims
import Idealize.ShloMosaic.PureOps.ShapeOps
import Idealize.ShloMosaic.Lib.ValueIdx

namespace Cert.LibGather

open Idealize.ShloMosaic Idealize.ShloMosaic.ValueIdx

/-- A 32-bit start index whose unsigned value is below an extent n ≤ 2^31, read signed and clamped into [0, n − 1],
    is its unsigned value: the sign bit is clear, and the value is already at most n − 1. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem one_not_mem : (1 : Fin 2) ∉ ([0] : List (Fin 2)) := by decide
private theorem zero_not_mem : (0 : Fin 2) ∉ ([1] : List (Fin 2)) := by decide

/-! ## The row gather -/

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_apply {N D B : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather (rowsDims N D B wf) x idx (ix2 b c) = x (ix2 ⟨(idx (ix2 b 0)).toNat, hlt⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the clamped start index, no offset
    show (rowsDims N D B wf).start (ix2 b c) idx (0 : Fin 2) + (rowsDims N D B wf).offCoord (ix2 b c) (0 : Fin 2)
      = (idx (ix2 b 0)).toNat
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    exact clamp_eq _ N hN hlt
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c): row (idx b) of the operand at
    column c, when the word idx b names a row. -/
theorem gather_rows_apply {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather d x idx (ix2 b c) = x (ix2 ⟨(idx (ix2 b 0)).toNat, hlt⟩ c) := by
  obtain ⟨od, cd, ob, sb, sm, iv, ss, wf⟩ := d
  dsimp only at h1 h2 h3 h4 h5 h6 h7
  subst h1 h2 h3 h4 h5 h6 h7
  exact rows_apply wf x idx b c hN hlt

/-! ## The column gather -/

/-- The dimension numbers of a column gather (operand [N, M], start indices [B, 1], result [N, B]), over an abstract
    proof of their conditions. -/
private abbrev colsDims (N M B : Nat)
    (wf : GatherDims.WF ⟨2, ![N, M]⟩ ⟨2, ![B, 1]⟩ ⟨2, ![N, B]⟩ [0] [1] [] [1] [] 1 ![N, 1]) :
    GatherDims ⟨2, ![N, M]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

private theorem cols_apply {N M B : Nat} {α : Type}
    (wf : GatherDims.WF ⟨2, ![N, M]⟩ ⟨2, ![B, 1]⟩ ⟨2, ![N, B]⟩ [0] [1] [] [1] [] 1 ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather (colsDims N M B wf) x idx (ix2 n b) = x (ix2 n ⟨(idx (ix2 b 0)).toNat, hlt⟩) := by
  unfold Host.gather
  refine congrArg x ?_
  funext a
  refine Fin.ext ?_
  show (colsDims N M B wf).start (ix2 n b) idx a + (colsDims N M B wf).batchCoord (ix2 n b) a
      + (colsDims N M B wf).offCoord (ix2 n b) a = _
  rw [GatherDims.batchCoord_eq_zero _ _ _ List.not_mem_nil, Nat.add_zero]
  match a with
  | ⟨0, _⟩ =>
    -- axis 0 is the offset axis, not start-indexed: start 0, the result's row coordinate
    show (colsDims N M B wf).start (ix2 n b) idx (0 : Fin 2) + (colsDims N M B wf).offCoord (ix2 n b) (0 : Fin 2)
      = n.val
    have hs : (colsDims N M B wf).start (ix2 n b) idx (0 : Fin 2) = 0 := by
      unfold GatherDims.start
      rw [dif_neg (show (0 : Fin 2) ∉ (colsDims N M B wf).startIndexMap from zero_not_mem)]
    rw [hs, Nat.zero_add]
    rfl
  | ⟨1, _⟩ =>
    -- axis 1 is collapsed and start-indexed: the clamped start index, no offset
    show (colsDims N M B wf).start (ix2 n b) idx (1 : Fin 2) + (colsDims N M B wf).offCoord (ix2 n b) (1 : Fin 2)
      = (idx (ix2 b 0)).toNat
    rw [GatherDims.offCoord_eq_zero _ _ _ (fun h => ((GatherDims.mem_sKept _ _).mp h).1 one_mem), Nat.add_zero]
    unfold GatherDims.start
    rw [dif_pos (show (1 : Fin 2) ∈ (colsDims N M B wf).startIndexMap from one_mem)]
    have hsi : (colsDims N M B wf).siIdx (ix2 n b) ⟨List.idxOf (1 : Fin 2) (colsDims N M B wf).startIndexMap,
        List.idxOf_lt_length_iff.2 one_mem⟩ = ix2 b 0 := by
      funext k; refine Fin.ext ?_
      match k with
      | ⟨0, _⟩ => rfl
      | ⟨1, _⟩ => rfl
    rw [hsi]
    exact clamp_eq _ M hM hlt

/-- A column gather (operand [N, M], start indices [B, 1], result [N, B]; offset_dims = [0], collapsed_slice_dims = [1],
    start_index_map = [1], index_vector_dim = 1, slice sizes [N, 1]) read at (n, b): column (idx b) of the operand at
    row n, when the word idx b names a column. -/
theorem gather_cols_apply {N M B : Nat} {α : Type} (d : GatherDims ⟨2, ![N, M]⟩ ⟨2, ![B, 1]⟩ ⟨2, ![N, B]⟩)
    (h1 : d.offsetDims = [0]) (h2 : d.collapsedSliceDims = [1]) (h3 : d.operandBatchingDims = [])
    (h4 : d.startIndicesBatchingDims = [])
    (h5 : d.startIndexMap = [1]) (h6 : d.indexVectorDim = 1) (h7 : d.sliceSizes = ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather d x idx (ix2 n b) = x (ix2 n ⟨(idx (ix2 b 0)).toNat, hlt⟩) := by
  obtain ⟨od, cd, ob, sb, sm, iv, ss, wf⟩ := d
  dsimp only at h1 h2 h3 h4 h5 h6 h7
  subst h1 h2 h3 h4 h5 h6 h7
  exact cols_apply wf x idx n b hM hlt

end Cert.LibGather
-- ==== Proof.LibGatherPoint.lean ====
/-
  Two forms of StableHLO's gather that read ONE element per result position, each read at one result index.

  A POINT gather takes a matrix [n0, n1] and a table [B, 2] of start indices to the vector [B] whose entry r is the
  matrix's element at the (row, column) pair that row r of the table names: what indexing x[rows, cols] with two index
  vectors produces. A VECTOR take takes a vector [N] and a column [B, 1] of start indices to the vector [B] whose entry
  r is the operand's element at the position row r names. StableHLO reads a start index as a signed word and clamps it
  into the operand; for a word whose signed value is a position of the operand the clamp does nothing.

  The theorems are stated for any record of dimension numbers whose fields are the lists of these forms; the record's
  well-formedness proof is left abstract.
-/
import Idealize.ShloMosaic.PureOps.Dims
import Idealize.ShloMosaic.PureOps.ShapeOps
import Idealize.ShloMosaic.Lib.ValueIdx

namespace Cert.LibGatherPoint

open Idealize.ShloMosaic Idealize.ShloMosaic.ValueIdx

/-- A 32-bit start index whose signed value is a position i of an axis of extent n, read signed and clamped into
    [0, n − 1], is i. -/
private theorem clamp_eq (v : BitVec 32) (n : Nat) (i : Fin n) (e : v.toInt = (i.val : Int)) :
    min v.toInt.toNat (n - 1) = i.val := by
  rw [e, Int.toNat_natCast]
  exact Nat.min_eq_left (by have := i.isLt; omega)

/-- A 32-bit word that is non-negative as a signed integer is its unsigned value. -/
private theorem toInt_eq_toNat_of_nonneg (v : BitVec 32) (h : 0 ≤ v.toInt) : v.toInt = (v.toNat : Int) := by
  have hlt := v.isLt
  rw [BitVec.toInt_eq_toNat_cond] at h ⊢
  split at h
  · rename_i h2; rw [if_pos h2]
  · omega

private theorem zero_mem : (0 : Fin 2) ∈ ([0, 1] : List (Fin 2)) := by decide
private theorem one_mem : (1 : Fin 2) ∈ ([0, 1] : List (Fin 2)) := by decide

/-! ## The point gather -/

/-- The dimension numbers of a point gather (operand [n0, n1], start indices [B, 2], result [B]), over an abstract
    proof of their conditions. -/
private abbrev ptDims (n0 n1 B : Nat)
    (wf : GatherDims.WF ⟨2, ![n0, n1]⟩ ⟨2, ![B, 2]⟩ ⟨1, ![B]⟩ [] [0, 1] [] [0, 1] [] 1 ![1, 1]) :
    GatherDims ⟨2, ![n0, n1]⟩ ⟨2, ![B, 2]⟩ ⟨1, ![B]⟩ where
  offsetDims := []
  collapsedSliceDims := [0, 1]
  operandBatchingDims := []
  startIndicesBatchingDims := []
  startIndexMap := [0, 1]
  indexVectorDim := 1
  sliceSizes := ![1, 1]
  wf := wf

private theorem pt_apply {n0 n1 B : Nat} {α : Type}
    (wf : GatherDims.WF ⟨2, ![n0, n1]⟩ ⟨2, ![B, 2]⟩ ⟨1, ![B]⟩ [] [0, 1] [] [0, 1] [] 1 ![1, 1])
    (x : (⟨2, ![n0, n1]⟩ : Shape).Idx → α) (idx : IVec ⟨2, ![B, 2]⟩ 32) (r : Fin B) (i0 : Fin n0) (i1 : Fin n1)
    (e0 : (idx (ix2 r 0)).toInt = (i0.val : Int)) (e1 : (idx (ix2 r 1)).toInt = (i1.val : Int)) :
    Host.gather (ptDims n0 n1 B wf) x idx (ix1 r) = x (ix2 i0 i1) := by
  unfold Host.gather
  refine congrArg x ?_
  funext a
  refine Fin.ext ?_
  show (ptDims n0 n1 B wf).start (ix1 r) idx a + (ptDims n0 n1 B wf).batchCoord (ix1 r) a
      + (ptDims n0 n1 B wf).offCoord (ix1 r) a = _
  rw [GatherDims.batchCoord_eq_zero _ _ _ List.not_mem_nil, Nat.add_zero]
  match a with
  | ⟨0, _⟩ =>
    -- axis 0 is collapsed and start-indexed by the first word: the clamped start index, no offset
    show (ptDims n0 n1 B wf).start (ix1 r) idx (0 : Fin 2) + (ptDims n0 n1 B wf).offCoord (ix1 r) (0 : Fin 2) = i0.val
    rw [GatherDims.offCoord_eq_zero _ _ _ (fun h => ((GatherDims.mem_sKept _ _).mp h).1 zero_mem), Nat.add_zero]
    unfold GatherDims.start
    rw [dif_pos (show (0 : Fin 2) ∈ (ptDims n0 n1 B wf).startIndexMap from zero_mem)]
    have hsi : (ptDims n0 n1 B wf).siIdx (ix1 r) ⟨List.idxOf (0 : Fin 2) (ptDims n0 n1 B wf).startIndexMap,
        List.idxOf_lt_length_iff.2 zero_mem⟩ = ix2 r 0 := by
      funext k; refine Fin.ext ?_
      match k with
      | ⟨0, _⟩ => rfl
      | ⟨1, _⟩ => rfl
    rw [hsi]
    exact clamp_eq _ n0 i0 e0
  | ⟨1, _⟩ =>
    -- axis 1 is collapsed and start-indexed by the second word
    show (ptDims n0 n1 B wf).start (ix1 r) idx (1 : Fin 2) + (ptDims n0 n1 B wf).offCoord (ix1 r) (1 : Fin 2) = i1.val
    rw [GatherDims.offCoord_eq_zero _ _ _ (fun h => ((GatherDims.mem_sKept _ _).mp h).1 one_mem), Nat.add_zero]
    unfold GatherDims.start
    rw [dif_pos (show (1 : Fin 2) ∈ (ptDims n0 n1 B wf).startIndexMap from one_mem)]
    have hsi : (ptDims n0 n1 B wf).siIdx (ix1 r) ⟨List.idxOf (1 : Fin 2) (ptDims n0 n1 B wf).startIndexMap,
        List.idxOf_lt_length_iff.2 one_mem⟩ = ix2 r 1 := by
      funext k; refine Fin.ext ?_
      match k with
      | ⟨0, _⟩ => rfl
      | ⟨1, _⟩ => rfl
    rw [hsi]
    exact clamp_eq _ n1 i1 e1

/-- A point gather (operand [n0, n1], start indices [B, 2], result [B]; offset_dims = [], collapsed_slice_dims = [0, 1],
    start_index_map = [0, 1], index_vector_dim = 1, slice sizes [1, 1], no batching axes) read at r: the operand's
    element at (i0, i1), when the two words of index row r, read signed, are i0 and i1. -/
theorem gather_point_apply {n0 n1 B : Nat} {α : Type} (d : GatherDims ⟨2, ![n0, n1]⟩ ⟨2, ![B, 2]⟩ ⟨1, ![B]⟩)
    (h1 : d.offsetDims = []) (h2 : d.collapsedSliceDims = [0, 1]) (h3 : d.operandBatchingDims = [])
    (h4 : d.startIndicesBatchingDims = [])
    (h5 : d.startIndexMap = [0, 1]) (h6 : d.indexVectorDim = 1) (h7 : d.sliceSizes = ![1, 1])
    (x : (⟨2, ![n0, n1]⟩ : Shape).Idx → α) (idx : IVec ⟨2, ![B, 2]⟩ 32) (r : Fin B) (i0 : Fin n0) (i1 : Fin n1)
    (e0 : (idx (ix2 r 0)).toInt = (i0.val : Int)) (e1 : (idx (ix2 r 1)).toInt = (i1.val : Int)) :
    Host.gather d x idx (ix1 r) = x (ix2 i0 i1) := by
  obtain ⟨od, cd, ob, sb, sm, iv, ss, wf⟩ := d
  dsimp only at h1 h2 h3 h4 h5 h6 h7
  subst h1 h2 h3 h4 h5 h6 h7
  exact pt_apply wf x idx r i0 i1 e0 e1

/-- The point gather with the positions written off the words' unsigned values: when both words of index row r are in
    range as signed integers, the result at r is the operand's element at their unsigned values. -/
theorem gather_point_apply_toNat {n0 n1 B : Nat} {α : Type} (d : GatherDims ⟨2, ![n0, n1]⟩ ⟨2, ![B, 2]⟩ ⟨1, ![B]⟩)
    (h1 : d.offsetDims = []) (h2 : d.collapsedSliceDims = [0, 1]) (h3 : d.operandBatchingDims = [])
    (h4 : d.startIndicesBatchingDims = [])
    (h5 : d.startIndexMap = [0, 1]) (h6 : d.indexVectorDim = 1) (h7 : d.sliceSizes = ![1, 1])
    (x : (⟨2, ![n0, n1]⟩ : Shape).Idx → α) (idx : IVec ⟨2, ![B, 2]⟩ 32) (r : Fin B)
    (hin0 : 0 ≤ (idx (ix2 r 0)).toInt ∧ (idx (ix2 r 0)).toInt < (n0 : Int))
    (hin1 : 0 ≤ (idx (ix2 r 1)).toInt ∧ (idx (ix2 r 1)).toInt < (n1 : Int))
    (hlt0 : (idx (ix2 r 0)).toNat < n0) (hlt1 : (idx (ix2 r 1)).toNat < n1) :
    Host.gather d x idx (ix1 r)
      = x (ix2 ⟨(idx (ix2 r 0)).toNat, hlt0⟩ ⟨(idx (ix2 r 1)).toNat, hlt1⟩) :=
  gather_point_apply d h1 h2 h3 h4 h5 h6 h7 x idx r ⟨_, hlt0⟩ ⟨_, hlt1⟩
    (toInt_eq_toNat_of_nonneg _ hin0.1) (toInt_eq_toNat_of_nonneg _ hin1.1)

/-! ## The vector take -/

/-- The dimension numbers of a vector take (operand [N], start indices [B, 1], result [B]), over an abstract proof of
    their conditions. -/
private abbrev vecDims (N B : Nat)
    (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

private theorem zero_mem1 : (0 : Fin 1) ∈ ([0] : List (Fin 1)) := by decide

private theorem vec_apply {N B : Nat} {α : Type}
    (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ 32) (r : Fin B) (i : Fin N)
    (e : (idx (ix2 r 0)).toInt = (i.val : Int)) :
    Host.gather (vecDims N B wf) x idx (ix1 r) = x (ix1 i) := by
  unfold Host.gather
  refine congrArg x ?_
  funext a
  refine Fin.ext ?_
  show (vecDims N B wf).start (ix1 r) idx a + (vecDims N B wf).batchCoord (ix1 r) a
      + (vecDims N B wf).offCoord (ix1 r) a = _
  rw [GatherDims.batchCoord_eq_zero _ _ _ List.not_mem_nil, Nat.add_zero]
  match a with
  | ⟨0, _⟩ =>
    -- the one axis is collapsed and start-indexed: the clamped start index, no offset
    show (vecDims N B wf).start (ix1 r) idx (0 : Fin 1) + (vecDims N B wf).offCoord (ix1 r) (0 : Fin 1) = i.val
    rw [GatherDims.offCoord_eq_zero _ _ _ (fun h => ((GatherDims.mem_sKept _ _).mp h).1 zero_mem1), Nat.add_zero]
    unfold GatherDims.start
    rw [dif_pos (show (0 : Fin 1) ∈ (vecDims N B wf).startIndexMap from zero_mem1)]
    have hsi : (vecDims N B wf).siIdx (ix1 r) ⟨List.idxOf (0 : Fin 1) (vecDims N B wf).startIndexMap,
        List.idxOf_lt_length_iff.2 zero_mem1⟩ = ix2 r 0 := by
      funext k; refine Fin.ext ?_
      match k with
      | ⟨0, _⟩ => rfl
      | ⟨1, _⟩ => rfl
    rw [hsi]
    exact clamp_eq _ N i e

/-- A vector take (operand [N], start indices [B, 1], result [B]; offset_dims = [], collapsed_slice_dims = [0],
    start_index_map = [0], index_vector_dim = 1, slice sizes [1], no batching axes) read at r: the operand's element at
    i, when the word of index row r, read signed, is i. -/
theorem gather_vec_apply {N B : Nat} {α : Type} (d : GatherDims ⟨1, ![N]⟩ ⟨2, ![B, 1]⟩ ⟨1, ![B]⟩)
    (h1 : d.offsetDims = []) (h2 : d.collapsedSliceDims = [0]) (h3 : d.operandBatchingDims = [])
    (h4 : d.startIndicesBatchingDims = [])
    (h5 : d.startIndexMap = [0]) (h6 : d.indexVectorDim = 1) (h7 : d.sliceSizes = ![1])
    (x : (⟨1, ![N]⟩ : Shape).Idx → α) (idx : IVec ⟨2, ![B, 1]⟩ 32) (r : Fin B) (i : Fin N)
    (e : (idx (ix2 r 0)).toInt = (i.val : Int)) :
    Host.gather d x idx (ix1 r) = x (ix1 i) := by
  obtain ⟨od, cd, ob, sb, sm, iv, ss, wf⟩ := d
  dsimp only at h1 h2 h3 h4 h5 h6 h7
  subst h1 h2 h3 h4 h5 h6 h7
  exact vec_apply wf x idx r i e

end Cert.LibGatherPoint
-- ==== Proof.KerHost.lean ====
/-
  The host arithmetic of the kernel program, as pure functions of the arrays it reads.

  Before the matrix-product region the program prepares, from its inputs, the five arrays the region reads (the
  gathered interaction rows, the dropout mask in the short format, the row gate as a row, the positive items as a
  column, the factor matrix in the short format) and three vectors the later arithmetic reads again (the shrunk
  singular values and the two gates).  After the region it forms, from the region's output and those arrays, the
  positive score minus the negative score of every batch row, and from that vector the loss.

  Each stage below is the composition of the program's operations in program order, one binding per operation; the
  pieces the program repeats (the wrap of a negative index, the three kinds of gather, the row sum) are named once.
  The theorems state that running the two stretches of host operations leaves exactly these stages in the
  buffers, and then read the score difference at one batch row as the closed form of the specification.
-/
import proofs.«418976_j78056735637975_3_alg».proof.Proof.Gen.KernelIdeal.Launch
import proofs.«418976_j78056735637975_3_alg».proof.Proof.Spec
import proofs.«418976_j78056735637975_3_alg».proof.Proof.LibGather
import proofs.«418976_j78056735637975_3_alg».proof.Proof.LibGatherPoint
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

section Stages

variable {F : FTy → Type} [FloatOps F]

/-- The shrunk singular values: `s / (s + 40000 + 5000 * tanh lamd)`. -/
def ssS (s : FVec F S2048 .f32) (lamd : FVec F S2048x1 .f32) : FVec F S2048 .f32 :=
  let cst : FVec F S_ .f32 := constant S_ .f32 0x471C4000#32
  let v0 := broadcastInDim S2048 ![] bcast_S_S2048 cst
  let v1 := addf s v0
  let v2 := shapeCast S2048 lamd shapeCasts_S2048x1_S2048
  let v3 := Host.tanh v2
  let cst_0 : FVec F S_ .f32 := constant S_ .f32 0x459C4000#32
  let v4 := broadcastInDim S2048 ![] bcast_S_S2048 cst_0
  let v5 := mulf v4 v3
  let v6 := addf v1 v5
  Host.divf s v6

/-- The row gate: the logistic function `1 / (1 + exp (-x))` of the gate weights, a column read as a vector. -/
def dgS (dw : FVec F S16384x1 .f32) : FVec F S16384 .f32 :=
  let v8 := shapeCast S16384 dw shapeCasts_S16384x1_S16384
  let v9 := Host.negf v8
  let v10 := Host.exp v9
  let c1 : FVec F S_ .f32 := constant S_ .f32 0x3F800000#32
  let v11 := broadcastInDim S16384 ![] bcast_S_S16384 c1
  let v12 := addf v11 v10
  let c2 : FVec F S_ .f32 := constant S_ .f32 0x3F800000#32
  let v13 := broadcastInDim S16384 ![] bcast_S_S16384 c2
  let v14 := Host.divf v13 v12
  v14

/-- The column gate: the same logistic function of the other gate weights, a row read as a vector. -/
def dbgS (dbw : FVec F S1x16384 .f32) : FVec F S16384 .f32 :=
  let v8 := shapeCast S16384 dbw shapeCasts_S1x16384_S16384
  let v9 := Host.negf v8
  let v10 := Host.exp v9
  let c1 : FVec F S_ .f32 := constant S_ .f32 0x3F800000#32
  let v11 := broadcastInDim S16384 ![] bcast_S_S16384 c1
  let v12 := addf v11 v10
  let c2 : FVec F S_ .f32 := constant S_ .f32 0x3F800000#32
  let v13 := broadcastInDim S16384 ![] bcast_S_S16384 c2
  let v21 := Host.divf v13 v12
  v21

/-- The batch positions `0, 1, …, 2047`. -/
def iotaS : IVec S2048 32 := iotaInDim S2048 32 0

/-- The interaction rows of the batch's users: row `b` is row `user b` of the interaction matrix (a negative
    user index first has the number of users added). -/
def winA (ui : FVec F S8192x16384 .f32) (user : IVec S2048 32) : FVec F S2048x16384 .f32 :=
  let c0 : IVec S_ 32 := constantI S_ 32 0#32
  let z0 := broadcastInDim S2048 ![] bcast_S_S2048 c0
  let lt0 := cmpi .slt user z0
  let k0 : IVec S_ 32 := constantI S_ 32 8192#32
  let n0 := broadcastInDim S2048 ![] bcast_S_S2048 k0
  let a0 := addi user n0
  let v27 := select lt0 a0 user
  let v28 := broadcastInDim S2048x1 ![0] bcast_S2048_S2048x1_0 v27
  Host.gather gather_S8192x16384_S2048x1_S2048x16384_1_0_n_n_0_1_116384 ui v28

/-- The dropout mask in the short format. -/
def winDrop (drop : FVec F S2048x16384 .f32) : FVec F S2048x16384 .bf16 :=
  truncf .bf16 drop bitsLt_bf16_f32

/-- The row gate as a one-row matrix. -/
def winDg (dw : FVec F S16384x1 .f32) : FVec F S1x16384 .f32 :=
  broadcastInDim S1x16384 ![1] bcast_S16384_S1x16384_1 (dgS dw)

/-- The positive items as a one-column matrix. -/
def winPos (pos : IVec S2048 32) : IVec S2048x1 32 :=
  broadcastInDim S2048x1 ![0] bcast_S2048_S2048x1_0 pos

/-- The factor matrix in the short format. -/
def winU (u : FVec F S16384x2048 .f32) : FVec F S16384x2048 .bf16 :=
  truncf .bf16 u bitsLt_bf16_f32

/-- An item index vector with its negative entries wrapped: `idx + 16384` where `idx < 0`, else `idx`. -/
def wrapI (idx : IVec S2048 32) : IVec S2048 32 :=
  let c : IVec S_ 32 := constantI S_ 32 0#32
  let z := broadcastInDim S2048 ![] bcast_S_S2048 c
  let lt := cmpi .slt idx z
  let k : IVec S_ 32 := constantI S_ 32 16384#32
  let n := broadcastInDim S2048 ![] bcast_S_S2048 k
  let a := addi idx n
  let w := select lt a idx
  w

/-- A batch position vector with its negative entries wrapped: `i + 2048` where `i < 0`, else `i`. -/
def wrapB (io : IVec S2048 32) : IVec S2048 32 :=
  let c : IVec S_ 32 := constantI S_ 32 0#32
  let z := broadcastInDim S2048 ![] bcast_S_S2048 c
  let lt := cmpi .slt io z
  let k : IVec S_ 32 := constantI S_ 32 2048#32
  let n := broadcastInDim S2048 ![] bcast_S_S2048 k
  let a := addi io n
  let w := select lt a io
  w

/-- The entry `(b, idx b)` of a `[2048, 16384]` array, for every batch row `b`: the point gather by the pairs
    `(b, idx b)`. -/
def pointAt (x : FVec F S2048x16384 .f32) (io idx : IVec S2048 32) : FVec F S2048 .f32 :=
  let v94 := wrapB io
  let v99 := wrapI idx
  let v100 := broadcastInDim S2048x1 ![0] bcast_S2048_S2048x1_0 v94
  let v101 := broadcastInDim S2048x1 ![0] bcast_S2048_S2048x1_0 v99
  let v102 := concatenate S2048x2 1 [⟨S2048x1, v100⟩, ⟨S2048x1, v101⟩] concatenates_S2048x1_S2048x1_S2048x2_d1
  Host.gather gather_S2048x16384_S2048x2_S2048_n_01_n_n_01_1_11 x v102

/-- Rows `idx b` of a `[16384, 2048]` array. -/
def rowsAt (x : FVec F S16384x2048 .f32) (idx : IVec S2048 32) : FVec F S2048x2048 .f32 :=
  let v40 := wrapI idx
  let v41 := broadcastInDim S2048x1 ![0] bcast_S2048_S2048x1_0 v40
  Host.gather gather_S16384x2048_S2048x1_S2048x2048_1_0_n_n_0_1_12048 x v41

/-- Entries `idx b` of a vector of length 16384. -/
def vecAt (x : FVec F S16384 .f32) (idx : IVec S2048 32) : FVec F S2048 .f32 :=
  let v60 := wrapI idx
  let v61 := broadcastInDim S2048x1 ![0] bcast_S2048_S2048x1_0 v60
  Host.gather gather_S16384_S2048x1_S2048_n_0_n_n_0_1_1 x v61

/-- A vector of length 2048 repeated as every row of a square matrix. -/
def rowsOf (ss : FVec F S2048 .f32) : FVec F S2048x2048 .f32 :=
  let v50 := broadcastInDim S1x2048 ![1] bcast_S2048_S1x2048_1 ss
  broadcastInDim S2048x2048 ![0, 1] bcast_S1x2048_S2048x2048_0_1 v50

/-- The sum of every row of a square matrix, from zero. -/
def rowSum (x : FVec F S2048x2048 .f32) : FVec F S2048 .f32 :=
  let cst_16 : FVec F S_ .f32 := constant S_ .f32 0x00000000#32
  Host.reduceAdd x cst_16 reducesTo_S2048x2048_S2048_d1 h_S_

/-- The positive score minus the negative score of every batch row, from the region's output `Gv`. -/
def pn (Gv : FVec F S2048x2048 .f32) (A : FVec F S2048x16384 .f32) (ss : FVec F S2048 .f32)
    (dg dbg : FVec F S16384 .f32) (u : FVec F S16384x2048 .f32) (vh : FVec F S2048x16384 .f32)
    (drop : FVec F S2048x16384 .f32) (io pos neg : IVec S2048 32) : FVec F S2048 .f32 :=
  let v35 := transpose S16384x2048 [1, 0] vh transposes_S2048x16384_S16384x2048_1_0
  let v42 := rowsAt v35 pos
  let v49 := rowsAt v35 neg
  let v52 := mulf v42 (rowsOf ss)
  let v55 := mulf v49 (rowsOf ss)
  let v62 := vecAt dbg pos
  let v69 := vecAt dbg neg
  let v76 := vecAt dg neg
  let v77 := mulf v52 Gv
  let v78 := rowSum v77
  let v79 := mulf v55 Gv
  let v80 := rowSum v79
  let v87 := rowsAt u neg
  let v88 := mulf v87 v55
  let v89 := rowSum v88
  let v103 := pointAt A io neg
  let v104 := cmpi .eq neg pos
  let cst_25 : FVec F S_ .f32 := constant S_ .f32 0x00000000#32
  let w0 : FVec F S_ .f32 := id cst_25
  let w1 := broadcastInDim S2048 ![] bcast_S_S2048 w0
  let v105 := select v104 w1 v103
  let v119 := pointAt drop io neg
  let v120 := mulf v105 v119
  let v121 := mulf v120 v76
  let v122 := mulf v121 v69
  let v123 := mulf v122 v89
  let v124 := mulf v62 v78
  let v125 := mulf v69 v80
  let v126 := subf v125 v123
  subf v124 v126

/-- The loss from the vector of score differences: minus the mean over the batch of
    `log_sigmoid (100 * x)`, the latter as `-(max (-y) 0 + log1p (exp (-|y|)))` at `y = 100 * x`. -/
def tail (x : FVec F S2048 .f32) : FVec F S_ .f32 :=
  let cst_30 : FVec F S_ .f32 := constant S_ .f32 0x42C80000#32
  let v128 := broadcastInDim S2048 ![] bcast_S_S2048 cst_30
  let v129 := mulf v128 x
  let l0 := Host.negf v129
  let sc : FVec F S_ .f32 := constant S_ .f32 0x00000000#32
  let s0 := broadcastInDim S2048 ![] bcast_S_S2048 sc
  let s1 := maximumf l0 s0
  let s2 := broadcastInDim S2048 ![] bcast_S_S2048 sc
  let s3 := subf l0 s2
  let s4 := cmpf .une s3 s3
  let s5 := broadcastInDim S2048 ![] bcast_S_S2048 sc
  let s6 := addf l0 s5
  let s7 := Host.absf s3
  let s8 := Host.negf s7
  let s9 := Host.exp s8
  let s10 := Host.log1p s9
  let s11 := addf s1 s10
  let l1 := select s4 s6 s11
  let v130 := Host.negf l1
  let cst_31 : FVec F S_ .f32 := constant S_ .f32 0x00000000#32
  let v131 := Host.reduceAdd v130 cst_31 reducesTo_S2048_S_d0 h_S_
  let cst_32 : FVec F S_ .f32 := constant S_ .f32 0x45000000#32
  let v132 := Host.divf v131 cst_32
  Host.negf v132

end Stages

section Runs

variable {F : FTy → Type} [FloatOps F]

/-- Two-piece concatenations of equal pieces are equal (the shape condition does not mention the pieces' contents). -/
theorem concatenate_pair_congr {α : Type} {t s₁ s₂ : Shape} (ax : Fin t.rank) (a a' : s₁.Idx → α) (b b' : s₂.Idx → α)
    (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

/-- After the first stretch of host operations: the shrunk singular values. -/
theorem after0_v7 (V : Valuation τ sig (Elt F)) :
    StableHlo.after Gen.hostOps0 V main_call0_v7 = ssS (V main_arg2) (V main_arg4) := by
  after_results; rfl

/-- After the first stretch: the row gate. -/
theorem after0_v14 (V : Valuation τ sig (Elt F)) :
    StableHlo.after Gen.hostOps0 V main_call0_v14 = dgS (V main_arg5) := by
  after_results; rfl

/-- After the first stretch: the column gate. -/
theorem after0_v21 (V : Valuation τ sig (Elt F)) :
    StableHlo.after Gen.hostOps0 V main_call0_v21 = dbgS (V main_arg6) := by
  after_results; rfl

/-- After the first stretch: the batch positions. -/
theorem after0_v22 (V : Valuation τ sig (Elt F)) :
    StableHlo.after Gen.hostOps0 V main_call0_v22 = iotaS := by
  after_results; rfl

set_option maxHeartbeats 4000000 in
/-- After the first stretch: the gathered interaction rows, the region's first operand. -/
theorem after0_v29 (V : Valuation τ sig (Elt F)) :
    StableHlo.after Gen.hostOps0 V main_call0_v29 = winA (V main_arg0) (V main_arg8) := by
  after_results_simp; rfl

/-- After the first stretch: the dropout mask in the short format, the region's second operand. -/
theorem after0_v30 (V : Valuation τ sig (Elt F)) :
    StableHlo.after Gen.hostOps0 V main_call0_v30 = winDrop (V main_arg7) := by
  after_results; rfl

/-- After the first stretch: the row gate as a one-row matrix, the region's third operand. -/
theorem after0_v31 (V : Valuation τ sig (Elt F)) :
    StableHlo.after Gen.hostOps0 V main_call0_v31 = winDg (V main_arg5) := by
  after_results; rfl

/-- After the first stretch: the positive items as a one-column matrix, the region's fourth operand. -/
theorem after0_v32 (V : Valuation τ sig (Elt F)) :
    StableHlo.after Gen.hostOps0 V main_call0_v32 = winPos (V main_arg9) := by
  after_results; rfl

/-- After the first stretch: the factor matrix in the short format, the region's fifth operand. -/
theorem after0_v33 (V : Valuation τ sig (Elt F)) :
    StableHlo.after Gen.hostOps0 V main_call0_v33 = winU (V main_arg1) := by
  after_results; rfl

attribute [local congr] concatenate_pair_congr in
set_option maxHeartbeats 40000000 in
/-- After the second stretch of host operations, whatever the region left in its output buffer: the loss of
    the score differences formed from that output. -/
theorem after1_v0 (V : Valuation τ sig (Elt F)) :
    StableHlo.after Gen.hostOps1 V main_v0
      = tail (pn (V main_call0_v34) (V main_call0_v29) (V main_call0_v7) (V main_call0_v14) (V main_call0_v21)
          (V main_arg1) (V main_arg3) (V main_arg7) (V main_call0_v22) (V main_arg9) (V main_arg10)) := by
  after_results_simp; rfl

end Runs

section Read

open Cert.Bpr

/-! ### Index words -/

/-- A word that is an item index, read signed, is the item it names. -/
theorem toInt_of_inRange {w : BitVec 32} (h : InRange w) : w.toInt = ((itemOf w).val : Int) := by
  rw [itemOf_val h]
  have hm : w.msb = false := by
    by_contra hm
    have hm' : w.msb = true := by simpa using hm
    have := BitVec.toInt_neg_of_msb_true hm'
    have := h.1
    omega
  exact BitVec.toInt_eq_toNat_of_msb hm

/-- A word that is an item index has an unsigned value below the number of items. -/
theorem toNat_lt_of_inRange {w : BitVec 32} (h : InRange w) : w.toNat < 16384 := by
  have h1 := itemOf_val h
  have h2 : (itemOf w).val < 16384 := (itemOf w).isLt
  omega

/-- The word of a small natural number, read signed, is that number. -/
theorem toInt_ofNat_small (k : Nat) (h : k < 2 ^ 31) : (BitVec.ofNat 32 k).toInt = (k : Int) := by
  have e : (BitVec.ofNat 32 k).toNat = k := by
    rw [BitVec.toNat_ofNat]; exact Nat.mod_eq_of_lt (by omega)
  rw [BitVec.toInt_eq_toNat_of_lt (by omega), e]

/-- A word that is not negative is not below zero in the signed order. -/
theorem cmpi_slt_zero {w : BitVec 32} (h : 0 ≤ w.toInt) : IntOp.cmpi .slt w 0#32 = 0#1 := by
  have hs : w.slt 0#32 = false := by
    unfold BitVec.slt
    exact decide_eq_false (by simpa using h)
  unfold IntOp.cmpi
  simp only [hs]
  rfl

/-- Wrapping leaves an item index as it is. -/
theorem wrapI_apply (idx : IVec S2048 32) (i : S2048.Idx) (h : InRange (idx i)) : wrapI idx i = idx i := by
  show Scalar.select (IntOp.cmpi .slt (idx i) 0#32) (IntOp.addi (idx i) 16384#32) (idx i) = idx i
  rw [cmpi_slt_zero h.1, select_zero]

/-- Wrapping leaves a batch position as it is. -/
theorem wrapB_iota_apply (r : Fin 2048) : wrapB iotaS (ix1 r) = BitVec.ofNat 32 r.val := by
  show Scalar.select (IntOp.cmpi .slt (BitVec.ofNat 32 r.val) 0#32)
      (IntOp.addi (BitVec.ofNat 32 r.val) 2048#32) (BitVec.ofNat 32 r.val) = BitVec.ofNat 32 r.val
  rw [cmpi_slt_zero (by rw [toInt_ofNat_small _ (by have := r.isLt; omega)]; exact Int.natCast_nonneg _), select_zero]

/-- A vector as a one-column matrix, read at a row. -/
theorem col_apply (v : IVec S2048 32) (b : Fin 2048) :
    broadcastInDim S2048x1 ![0] bcast_S2048_S2048x1_0 v (ix2 b 0) = v (ix1 b) :=
  broadcastInDim_apply _ _ v _ _ fun a => match a with | ⟨0, _⟩ => rfl

/-! ### The gathers, read at one index -/

section Gathers

variable {F : FTy → Type} [FloatOps F]

/-- Rows of a matrix named by item indices: row `b` of the result is row `idx b` of the matrix. -/
theorem rowsAt_apply (x : FVec F S16384x2048 .f32) (idx : IVec S2048 32) (b k : Fin 2048)
    (h : InRange (idx (ix1 b))) : rowsAt x idx (ix2 b k) = x (ix2 (itemAt idx b) k) := by
  have e : broadcastInDim S2048x1 ![0] bcast_S2048_S2048x1_0 (wrapI idx) (ix2 b 0) = idx (ix1 b) := by
    rw [col_apply, wrapI_apply idx _ h]
  have hlt : (broadcastInDim S2048x1 ![0] bcast_S2048_S2048x1_0 (wrapI idx) (ix2 b 0)).toNat < 16384 := by
    rw [e]; exact toNat_lt_of_inRange h
  show Host.gather gather_S16384x2048_S2048x1_S2048x2048_1_0_n_n_0_1_12048 x
    (broadcastInDim S2048x1 ![0] bcast_S2048_S2048x1_0 (wrapI idx)) (ix2 b k) = _
  rw [Cert.LibGather.gather_rows_apply _ rfl rfl rfl rfl rfl rfl rfl x _ b k (by decide) hlt]
  refine congrArg (fun i => x (ix2 i k)) (Fin.ext ?_)
  show (broadcastInDim S2048x1 ![0] bcast_S2048_S2048x1_0 (wrapI idx) (ix2 b 0)).toNat = (itemOf (idx (ix1 b))).val
  rw [e, itemOf_val h]

/-- Entries of a vector named by item indices. -/
theorem vecAt_apply (x : FVec F S16384 .f32) (idx : IVec S2048 32) (b : Fin 2048)
    (h : InRange (idx (ix1 b))) : vecAt x idx (ix1 b) = x (ix1 (itemAt idx b)) := by
  show Host.gather gather_S16384_S2048x1_S2048_n_0_n_n_0_1_1 x
    (broadcastInDim S2048x1 ![0] bcast_S2048_S2048x1_0 (wrapI idx)) (ix1 b) = _
  refine Cert.LibGatherPoint.gather_vec_apply _ rfl rfl rfl rfl rfl rfl rfl x _ b (itemAt idx b) ?_
  rw [col_apply, wrapI_apply idx _ h]
  exact toInt_of_inRange h

/-- The entry `(b, idx b)` of a matrix with one row per batch position. -/
theorem pointAt_apply (x : FVec F S2048x16384 .f32) (idx : IVec S2048 32) (b : Fin 2048)
    (h : InRange (idx (ix1 b))) : pointAt x iotaS idx (ix1 b) = x (ix2 b (itemAt idx b)) := by
  show Host.gather gather_S2048x16384_S2048x2_S2048_n_01_n_n_01_1_11 x
    (concatenate S2048x2 1 [⟨S2048x1, broadcastInDim S2048x1 ![0] bcast_S2048_S2048x1_0 (wrapB iotaS)⟩,
      ⟨S2048x1, broadcastInDim S2048x1 ![0] bcast_S2048_S2048x1_0 (wrapI idx)⟩]
      concatenates_S2048x1_S2048x1_S2048x2_d1) (ix1 b) = _
  refine Cert.LibGatherPoint.gather_point_apply _ rfl rfl rfl rfl rfl rfl rfl x _ b b (itemAt idx b) ?_ ?_
  · rw [concatenate_pair_apply_left (t := S2048x2) (s₁ := S2048x1) (s₂ := S2048x1) (1 : Fin 2)
        (broadcastInDim S2048x1 ![0] bcast_S2048_S2048x1_0 (wrapB iotaS))
        (broadcastInDim S2048x1 ![0] bcast_S2048_S2048x1_0 (wrapI idx))
        concatenates_S2048x1_S2048x1_S2048x2_d1 (ix2 b 0) rfl (ix2 b 0)
        (fun c => match c with | ⟨0, _⟩ => rfl | ⟨1, _⟩ => rfl), col_apply, wrapB_iota_apply]
    exact toInt_ofNat_small _ (by have := b.isLt; omega)
  · rw [concatenate_pair_apply_right (t := S2048x2) (s₁ := S2048x1) (s₂ := S2048x1) (1 : Fin 2)
        (broadcastInDim S2048x1 ![0] bcast_S2048_S2048x1_0 (wrapB iotaS))
        (broadcastInDim S2048x1 ![0] bcast_S2048_S2048x1_0 (wrapI idx))
        concatenates_S2048x1_S2048x1_S2048x2_d1 (ix2 b 1) rfl rfl (ix2 b 0)
        (fun c hc => match c, hc with | ⟨0, _⟩, _ => rfl | ⟨1, _⟩, hc => absurd rfl hc) rfl,
      col_apply, wrapI_apply idx _ h]
    exact toInt_of_inRange h

/-- A vector repeated as every row of a matrix, read at an entry. -/
theorem rowsOf_apply (ss : FVec F S2048 .f32) (b k : Fin 2048) : rowsOf ss (ix2 b k) = ss (ix1 k) := by
  show broadcastInDim S2048x2048 ![0, 1] bcast_S1x2048_S2048x2048_0_1
    (broadcastInDim S1x2048 ![1] bcast_S2048_S1x2048_1 ss) (ix2 b k) = _
  rw [broadcastInDim_apply _ _ _ (ix2 b k) (ix2 0 k) (fun a => match a with | ⟨0, _⟩ => rfl | ⟨1, _⟩ => rfl),
    broadcastInDim_apply _ _ ss (ix2 0 k) (ix1 k) (fun a => match a with | ⟨0, _⟩ => rfl)]

end Gathers

/-- The row sums of a square matrix of extended reals. -/
theorem rowSum_apply (x : FVec Ideal S2048x2048 .f32) (b : Fin 2048) :
    rowSum x (ix1 b) = ∑ k : Fin 2048, x (ix2 b k) := by
  have hr : S2048x2048.Reduces [1] S2048 := by decide
  show Ideal.hostReduceAdd reducesTo_S2048x2048_S2048_d1 x (Ideal.ofBits .f32 0x00000000#32) (ix1 b) = _
  rw [Ideal.hostReduceAdd_single _ hr, Ideal.ofBits_zero_f32, zero_add]
  refine Finset.sum_congr rfl fun k _ => congrArg x (funext fun a => Fin.ext ?_)
  match a with
  | ⟨0, _⟩ => rfl
  | ⟨1, _⟩ => rfl

/-! ### The score difference of one batch row -/

/-- Two item-index words are equal exactly when the items they name are. -/
theorem itemOf_eq_iff {v w : BitVec 32} (hv : InRange v) (hw : InRange w) : itemOf v = itemOf w ↔ v = w := by
  constructor
  · intro e
    have e' := congrArg Fin.val e
    rw [itemOf_val hv, itemOf_val hw] at e'
    exact BitVec.eq_of_toNat_eq e'
  · intro e; rw [e]

/-- The equality test of two index words selects between two values as the equality of their items does. -/
theorem select_eq_items {α : Type} {v w : BitVec 32} (hv : InRange v) (hw : InRange w) (x y : α) :
    Scalar.select (IntOp.cmpi .eq v w) x y = if itemOf v = itemOf w then x else y := by
  by_cases e : v = w
  · subst e
    have h1 : IntOp.cmpi .eq v v = 1#1 := by unfold IntOp.cmpi; simp
    rw [h1, select_one, if_pos rfl]
  · have hb : (v == w) = false := beq_eq_false_iff_ne.mpr e
    have h0 : IntOp.cmpi .eq v w = 0#1 := by unfold IntOp.cmpi; simp only [hb]; rfl
    rw [h0, select_zero, if_neg (fun h => e ((itemOf_eq_iff hv hw).mp h))]

/-- An integer comparison of two arrays, read at an index. -/
theorem cmpi_apply' {s : Shape} {w : Nat} (p : CmpIPredicate) (x y : IVec s w) (i : s.Idx) :
    cmpi p x y i = IntOp.cmpi p (x i) (y i) := rfl

/-- The score difference of batch row `b`, when every positive and negative index names an item: the positive
    score minus the negative score of the specification, over the region's output read as a table. -/
theorem pn_apply (Gv : FVec Ideal S2048x2048 .f32) (A : FVec Ideal S2048x16384 .f32) (ss : FVec Ideal S2048 .f32)
    (dg dbg : FVec Ideal S16384 .f32) (u : FVec Ideal S16384x2048 .f32) (vh : FVec Ideal S2048x16384 .f32)
    (drop : FVec Ideal S2048x16384 .f32) (pos neg : IVec S2048 32)
    (hp : ∀ i, InRange (pos i)) (hq : ∀ i, InRange (neg i)) (b : Fin 2048) :
    pn Gv A ss dg dbg u vh drop iotaS pos neg (ix1 b)
      = kerPNG (fn2 A) (fn2 drop) (fn1 dg) (fn1 dbg) (fn2 u) (fn1 ss) (fn2 vh) (itemAt pos) (itemAt neg) (fn2 Gv) b := by
  have hpb := hp (ix1 b)
  have hqb := hq (ix1 b)
  have hz : broadcastInDim S2048 ![] bcast_S_S2048 (id (constant (F := Ideal) S_ .f32 0x00000000#32)) (ix1 b)
      = (0 : EReal) := by
    rw [broadcastInDim_scalar_apply]; exact Ideal.ofBits_zero_f32
  have tp : ∀ (i : Fin 16384) (k : Fin 2048),
      transpose S16384x2048 [1, 0] vh transposes_S2048x16384_S16384x2048_1_0 (ix2 i k) = vh (ix2 k i) :=
    fun i k => transpose_ix2_apply vh _ i k
  have rp := fun (x : FVec Ideal S16384x2048 .f32) k => rowsAt_apply x pos b k hpb
  have rq := fun (x : FVec Ideal S16384x2048 .f32) k => rowsAt_apply x neg b k hqb
  have vp := fun (x : FVec Ideal S16384 .f32) => vecAt_apply x pos b hpb
  have vq := fun (x : FVec Ideal S16384 .f32) => vecAt_apply x neg b hqb
  have pq := fun (x : FVec Ideal S2048x16384 .f32) => pointAt_apply x neg b hqb
  unfold pn
  simp only [subf_apply, mulf_apply, select_apply, cmpi_apply', rowSum_apply, rp, rq, vp, vq, pq, rowsOf_apply,
    tp, hz, select_eq_items hqb hpb]
  rfl

end Read

end Cert.KernelIdeal.Hand

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.KerRegionValue.lean ====
import proofs.«418976_j78056735637975_3_alg».proof.Proof.KerBody
import proofs.«418976_j78056735637975_3_alg».proof.Proof.Spec
import proofs.«418976_j78056735637975_3_alg».proof.Proof.LibSumSplit
import Idealize.ShloMosaic.Lib.Pipeline.Value
import Idealize.ShloMosaic.Lib.ValueIdx
import Idealize.ShloMosaic.PureOps.Ideal.Laws

/-!
# The region's output array is the contraction

The one kernel region runs on the grid 2 x 64. At the first point of a row of the grid it sets its output block
(1024 rows, all 2048 columns) to zero; at every point `(i, j)` it adds to the block the product of the 1024 x 256
block of the masked, gated interaction rows (columns `256 j ...`) with the 256 x 2048 block of the right factor. After
the 64 points of row block `i` the block therefore holds, at `(p, k)`, the sum over all 16384 items of the addends:
the sum over the item runs is the sum over the items. The block is written back at the row's last point, and the two
row blocks tile the output array.
-/

set_option maxRecDepth 16384

noncomputable section

open scoped BigOperators

namespace Cert.KernelIdeal.Hand

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen

/-! ## The two payloads at an index -/
/-- The reset's payload is the zero block. -/
theorem pay1_apply (p : Fin 1024) (q : Fin 2048) : k0_pay1 (F := Ideal) (ix2 p q) = 0 := by
  unfold k0_pay1
  show Ideal.ofBits .f32 0x00000000#32 = 0
  exact Ideal.ofBits_zero_f32

/-- The block product at an index: the sum over the 256 contracted lanes. -/
theorem matmul_at (L : FVec Ideal S1024x256 .bf16) (R : FVec Ideal S256x2048 .bf16) (p : Fin 1024) (q : Fin 2048) :
    matmul dot_S1024x256_S256x2048_S1024x2048_1_0_0_1_n_n none L R (constant S1024x2048 .f32 0x00000000#32) (ix2 p q)
      = ∑ l : Fin 256, L (ix2 p l) * R (ix2 l q) := by
  show FloatOps.matmul _ none L R _ (ix2 p q) = _
  rw [Ideal.matmul_constant_zero_apply,
    ← Equiv.sum_comp (contrEquiv1 dot_S1024x256_S256x2048_S1024x2048_1_0_0_1_n_n 256 rfl rfl).symm]
  refine Finset.sum_congr rfl fun l _ => ?_
  have c2 := contrEquiv1_symm_val dot_S1024x256_S256x2048_S1024x2048_1_0_0_1_n_n 256 rfl rfl l
  have l2 : dot_S1024x256_S256x2048_S1024x2048_1_0_0_1_n_n.lhsIdx (ix2 p q) ((contrEquiv1 _ 256 rfl rfl).symm l) = ix2 p l := by
    funext ax; apply Fin.ext
    match ax with
    | ⟨0, _⟩ => simp [DotDims.lhsIdx, dot_S1024x256_S256x2048_S1024x2048_1_0_0_1_n_n]; rfl
    | ⟨1, _⟩ => simp [DotDims.lhsIdx, dot_S1024x256_S256x2048_S1024x2048_1_0_0_1_n_n]; exact c2
  have r2 : dot_S1024x256_S256x2048_S1024x2048_1_0_0_1_n_n.rhsIdx (ix2 p q) ((contrEquiv1 _ 256 rfl rfl).symm l) = ix2 l q := by
    funext ax; apply Fin.ext
    match ax with
    | ⟨0, _⟩ => simp [DotDims.rhsIdx, dot_S1024x256_S256x2048_S1024x2048_1_0_0_1_n_n]; exact c2
    | ⟨1, _⟩ => simp [DotDims.rhsIdx, dot_S1024x256_S256x2048_S1024x2048_1_0_0_1_n_n]; rfl
  rw [l2, r2]

/-- A select on an equality test of two words is the `if` on their equality. -/
theorem select_cmpi_eq {α : Type} {w : Nat} (x y : BitVec w) (a b : α) :
    Scalar.select (IntOp.cmpi .eq x y) a b = if x = y then a else b := by
  unfold Scalar.select IntOp.cmpi
  by_cases h : x = y
  · subst h; simp
  · have hb : (x == y) = false := by simpa using h
    simp [hb, h]

/-- A column `[1024, 1]` broadcast along the lanes reads its row's entry. -/
theorem bcast_col {α : Type} (v : S1024x1.Idx → α) (p : Fin 1024) (l : Fin 256) :
    broadcastTo S1024x256 v broadcasts_S1024x1_S1024x256 (ix2 p l) = v (ix2 p 0) :=
  broadcastTo_apply v _ (ix2 p l) (ix2 p 0) fun a => match a with
    | ⟨0, _⟩ => rfl
    | ⟨1, _⟩ => rfl

/-- A row `[1, 256]` broadcast along the rows reads its lane's entry. -/
theorem bcast_row {α : Type} (v : S1x256.Idx → α) (p : Fin 1024) (l : Fin 256) :
    broadcastTo S1024x256 v broadcasts_S1x256_S1024x256 (ix2 p l) = v (ix2 0 l) :=
  broadcastTo_apply v _ (ix2 p l) (ix2 0 l) fun a => match a with
    | ⟨0, _⟩ => rfl
    | ⟨1, _⟩ => rfl

/-- The accumulating payload at an index: what the block held, plus the masked and gated row block against the block
    of the right factor. The mask compares the lane's column number, as a word, with the row's index word. -/
theorem pay2_apply (i : grid0.Coords) (v7 : Vec Ideal S1024x1 .i32) (v11 : Vec Ideal S1024x256 .f32)
    (v13 : Vec Ideal S1024x256 .bf16) (v17 : Vec Ideal S1x256 .f32) (v24 : Vec Ideal S1024x2048 .f32)
    (v26 : Vec Ideal S256x2048 .bf16) (p : Fin 1024) (q : Fin 2048) :
    k0_pay2 (F := Ideal) i v7 v11 v13 v17 v24 v26 (ix2 p q)
      = (v24 (ix2 p q) : EReal) + ∑ l : Fin 256,
          (if BitVec.ofNat 32 (i 1).val * 256#32 + BitVec.ofNat 32 l.val = v7 (ix2 p 0) then (0 : EReal)
            else ((v11 (ix2 p l) : EReal) * (v13 (ix2 p l) : EReal)) * (v17 (ix2 0 l) : EReal)) * (v26 (ix2 l q) : EReal) := by
  unfold k0_pay2
  simp only [shapeCast_self]
  show (v24 (ix2 p q) : EReal) + (matmul (F := Ideal) dot_S1024x256_S256x2048_S1024x2048_1_0_0_1_n_n none _ v26
      (constant S1024x2048 .f32 0x00000000#32) (ix2 p q) : EReal) = _
  refine congrArg ((v24 (ix2 p q) : EReal) + ·) ?_
  refine (matmul_at _ v26 p q).trans ?_
  refine Finset.sum_congr rfl fun l _ => ?_
  refine congrArg (· * (v26 (ix2 l q) : EReal)) ?_
  show Scalar.select (IntOp.cmpi .eq (IntOp.addi (Scalar.muli (BitVec.ofNat 32 (i 1).val) 256#32)
        (iota .tc S1024x256 32 [1] iota_S1024x256_d1_w32 (ix2 p l)))
      (broadcastTo S1024x256 v7 broadcasts_S1024x1_S1024x256 (ix2 p l)))
      (Ideal.ofBits .f32 0x00000000#32)
      (((v11 (ix2 p l) : EReal) * (v13 (ix2 p l) : EReal))
        * broadcastTo S1024x256 v17 broadcasts_S1x256_S1024x256 (ix2 p l)) = _
  rw [select_cmpi_eq, bcast_col, bcast_row, iota_single_apply, Ideal.ofBits_zero_f32]
  rfl

/-! ## The contraction as 64 runs of 256 items -/

section Algebra

open Cert.Bpr

variable (Aw dw : S2048x16384.Idx → EReal) (gw : S1x16384.Idx → EReal) (pw : S2048x1.Idx → BitVec 32)
  (uw : S16384x2048.Idx → EReal)

/-- Item `n`'s addend to entry `(b, k)` of the contraction. -/
def term (b k : Fin 2048) (n : Fin 16384) : EReal :=
  (if n = itemOf (pw (ix2 b 0)) then 0 else (Aw (ix2 b n) * dw (ix2 b n)) * gw (ix2 0 n)) * uw (ix2 n k)

/-- The same over every natural: nothing past the last item. -/
def termN (b k : Fin 2048) (n : ℕ) : EReal := if h : n < 16384 then term Aw dw gw pw uw b k ⟨n, h⟩ else 0

/-- The partial sum over the first `j` runs of 256 consecutive items. -/
def part (b k : Fin 2048) (j : ℕ) : EReal :=
  ∑ t ∈ Finset.range j, ∑ l : Fin 256, termN Aw dw gw pw uw b k (256 * t + l.val)

theorem part_zero (b k : Fin 2048) : part Aw dw gw pw uw b k 0 = 0 := Finset.sum_range_zero _

theorem part_succ (b k : Fin 2048) (j : ℕ) :
    part Aw dw gw pw uw b k (j + 1)
      = part Aw dw gw pw uw b k j + ∑ l : Fin 256, termN Aw dw gw pw uw b k (256 * j + l.val) :=
  Finset.sum_range_succ _ _

/-- All 64 runs: the whole contraction. -/
theorem part_full (b k : Fin 2048) :
    part Aw dw gw pw uw b k 64
      = G (fn2 Aw) (fn2 dw) (fun n => gw (ix2 0 n)) (fn2 uw) (fun b => itemOf (pw (ix2 b 0))) b k := by
  unfold part G
  rw [Cert.SumSplit.sum_split 64 256 16384 rfl, Finset.sum_range]
  refine Finset.sum_congr rfl fun t _ => Finset.sum_congr rfl fun l _ => ?_
  unfold termN
  rw [dif_pos (Cert.SumSplit.lt_of_run rfl t l)]
  rfl

/-- The mask's test. The column number `256 j + l`, computed in 32-bit words, is the row's index word exactly when it
    is the item that word names — for a word in range. -/
theorem mask_iff (j l : ℕ) (hj : j < 64) (hl : l < 256) (w : BitVec 32) (hw : InRange w) (h : 256 * j + l < 16384) :
    BitVec.ofNat 32 j * 256#32 + BitVec.ofNat 32 l = w ↔ (⟨256 * j + l, h⟩ : Fin 16384) = itemOf w := by
  have e : (BitVec.ofNat 32 j * 256#32 + BitVec.ofNat 32 l).toNat = 256 * j + l := by
    simp only [BitVec.toNat_add, BitVec.toNat_mul, BitVec.toNat_ofNat]
    omega
  rw [Fin.ext_iff, itemOf_val hw, ← BitVec.toNat_inj, e]

/-- ONE POINT'S ADDEND. The masked, gated row block against the block of the right factor, the blocks read off the
    arrays at row block `i` and item run `j`, is run `j`'s part of the contraction. -/
theorem step_sum (j : ℕ) (hj : j < 64) (p : Fin 1024) (q : Fin 2048)
    (v7 : S1024x1.Idx → BitVec 32) (v11 v13 : S1024x256.Idx → EReal) (v17 : S1x256.Idx → EReal)
    (v26 : S256x2048.Idx → EReal) (b : Fin 2048) (hw : InRange (pw (ix2 b 0)))
    (h7 : v7 (ix2 p 0) = pw (ix2 b 0))
    (h11 : ∀ (l : Fin 256) (n : Fin 16384), n.val = 256 * j + l.val → v11 (ix2 p l) = Aw (ix2 b n))
    (h13 : ∀ (l : Fin 256) (n : Fin 16384), n.val = 256 * j + l.val → v13 (ix2 p l) = dw (ix2 b n))
    (h17 : ∀ (l : Fin 256) (n : Fin 16384), n.val = 256 * j + l.val → v17 (ix2 0 l) = gw (ix2 0 n))
    (h26 : ∀ (l : Fin 256) (n : Fin 16384), n.val = 256 * j + l.val → v26 (ix2 l q) = uw (ix2 n q)) :
    (∑ l : Fin 256, (if BitVec.ofNat 32 j * 256#32 + BitVec.ofNat 32 l.val = v7 (ix2 p 0) then (0 : EReal)
        else (v11 (ix2 p l) * v13 (ix2 p l)) * v17 (ix2 0 l)) * v26 (ix2 l q))
      = ∑ l : Fin 256, termN Aw dw gw pw uw b q (256 * j + l.val) := by
  refine Finset.sum_congr rfl fun l _ => ?_
  have hlt : 256 * j + l.val < 16384 := by have := l.isLt; omega
  unfold termN
  rw [dif_pos hlt]
  unfold term
  rw [h7, h11 l ⟨_, hlt⟩ rfl, h13 l ⟨_, hlt⟩ rfl, h17 l ⟨_, hlt⟩ rfl, h26 l ⟨_, hlt⟩ rfl]
  exact congrArg (· * uw (ix2 (⟨256 * j + l.val, hlt⟩ : Fin 16384) q))
    (if_congr (mask_iff j l.val hj l.isLt _ hw hlt) rfl rfl)

end Algebra

/-! ## The blocks the body reads, off the arrays -/

section Region

open Cert.Bpr

variable {UU : Type} [URA UU]
variable (V : (c : Dev nD) → (b : Ref sig .tc) → Buf (Elt Ideal) ((c.tc : Thread nD τ).loc b))

/-- The region's five input arrays and its output array's index type, each at its literal type: the interaction rows,
    the dropout mask, the gate, the positive items' index words, the right factor. -/
abbrev arrA (c : Dev nD) : S2048x16384.Idx → EReal := V c (Pipeline.arrRef spec0 0)
abbrev arrD (c : Dev nD) : S2048x16384.Idx → EReal := V c (Pipeline.arrRef spec0 1)
abbrev arrG (c : Dev nD) : S1x16384.Idx → EReal := V c (Pipeline.arrRef spec0 2)
abbrev arrP (c : Dev nD) : S2048x1.Idx → BitVec 32 := V c (Pipeline.arrRef spec0 3)
abbrev arrU (c : Dev nD) : S16384x2048.Idx → EReal := V c (Pipeline.arrRef spec0 4)

/-- Where the grid's point `t` sits: its second coordinate, and each window's block index there. -/
theorem coord1 : ∀ t : Fin cfg0.N, (grid0.coords t 1).val = t.val % 64 :=
  (by decide +kernel : ∀ t : Fin grid0.N, (grid0.coords t 1).val = t.val % 64)
theorem index0 : ∀ t : Fin cfg0.N, win0_0.index t 0 = t.val / 64 ∧ win0_0.index t 1 = t.val % 64 :=
  (by decide +kernel : ∀ t : Fin grid0.N, win0_0.index t 0 = t.val / 64 ∧ win0_0.index t 1 = t.val % 64)
theorem index1 : ∀ t : Fin cfg0.N, win0_1.index t 0 = t.val / 64 ∧ win0_1.index t 1 = t.val % 64 :=
  (by decide +kernel : ∀ t : Fin grid0.N, win0_1.index t 0 = t.val / 64 ∧ win0_1.index t 1 = t.val % 64)
theorem index2 : ∀ t : Fin cfg0.N, win0_2.index t 0 = 0 ∧ win0_2.index t 1 = t.val % 64 :=
  (by decide +kernel : ∀ t : Fin grid0.N, win0_2.index t 0 = 0 ∧ win0_2.index t 1 = t.val % 64)
theorem index3 : ∀ t : Fin cfg0.N, win0_3.index t 0 = t.val / 64 ∧ win0_3.index t 1 = 0 :=
  (by decide +kernel : ∀ t : Fin grid0.N, win0_3.index t 0 = t.val / 64 ∧ win0_3.index t 1 = 0)
theorem index4 : ∀ t : Fin cfg0.N, win0_4.index t 0 = t.val % 64 ∧ win0_4.index t 1 = 0 :=
  (by decide +kernel : ∀ t : Fin grid0.N, win0_4.index t 0 = t.val % 64 ∧ win0_4.index t 1 = 0)
theorem index5 : ∀ t : Fin cfg0.N, win0_5.index t 0 = t.val / 64 ∧ win0_5.index t 1 = 0 :=
  (by decide +kernel : ∀ t : Fin grid0.N, win0_5.index t 0 = t.val / 64 ∧ win0_5.index t 1 = 0)

/-- The interaction rows' block at point `t`: rows `1024 (t / 64) ...`, columns `256 (t % 64) ...`. -/
theorem iblk0_apply (c : Dev nD) (t : Fin cfg0.N) (p : Fin 1024) (l : Fin 256) (b : Fin 2048) (n : Fin 16384)
    (hb : b.val = 1024 * (t.val / 64) + p.val) (hn : n.val = 256 * (t.val % 64) + l.val) :
    (iblk V c 0 t : S1024x256.Idx → EReal) (ix2 p l) = arrA V c (ix2 b n) := by
  unfold iblk
  rw [View.read_apply]
  show arrA V c _ = arrA V c _
  congr 1
  funext a; apply Fin.ext
  match a with
  | ⟨0, _⟩ => show win0_0.index t 0 * 1024 + 1 * p.val = b.val; rw [(index0 t).1, hb]; omega
  | ⟨1, _⟩ => show win0_0.index t 1 * 256 + 1 * l.val = n.val; rw [(index0 t).2, hn]; omega

/-- The dropout mask's block: the same rows and columns. -/
theorem iblk1_apply (c : Dev nD) (t : Fin cfg0.N) (p : Fin 1024) (l : Fin 256) (b : Fin 2048) (n : Fin 16384)
    (hb : b.val = 1024 * (t.val / 64) + p.val) (hn : n.val = 256 * (t.val % 64) + l.val) :
    (iblk V c 1 t : S1024x256.Idx → EReal) (ix2 p l) = arrD V c (ix2 b n) := by
  unfold iblk
  rw [View.read_apply]
  show arrD V c _ = arrD V c _
  congr 1
  funext a; apply Fin.ext
  match a with
  | ⟨0, _⟩ => show win0_1.index t 0 * 1024 + 1 * p.val = b.val; rw [(index1 t).1, hb]; omega
  | ⟨1, _⟩ => show win0_1.index t 1 * 256 + 1 * l.val = n.val; rw [(index1 t).2, hn]; omega

/-- The gate's block: its one row, columns `256 (t % 64) ...`. -/
theorem iblk2_apply (c : Dev nD) (t : Fin cfg0.N) (l : Fin 256) (n : Fin 16384)
    (hn : n.val = 256 * (t.val % 64) + l.val) :
    (iblk V c 2 t : S1x256.Idx → EReal) (ix2 0 l) = arrG V c (ix2 0 n) := by
  unfold iblk
  rw [View.read_apply]
  show arrG V c _ = arrG V c _
  congr 1
  funext a; apply Fin.ext
  match a with
  | ⟨0, _⟩ => show win0_2.index t 0 * 1 + 1 * 0 = 0; rw [(index2 t).1]
  | ⟨1, _⟩ => show win0_2.index t 1 * 256 + 1 * l.val = n.val; rw [(index2 t).2, hn]; omega

/-- The index words' block: rows `1024 (t / 64) ...` of the one column. -/
theorem iblk3_apply (c : Dev nD) (t : Fin cfg0.N) (p : Fin 1024) (b : Fin 2048)
    (hb : b.val = 1024 * (t.val / 64) + p.val) :
    (iblk V c 3 t : S1024x1.Idx → BitVec 32) (ix2 p 0) = arrP V c (ix2 b 0) := by
  unfold iblk
  rw [View.read_apply]
  show arrP V c _ = arrP V c _
  congr 1
  funext a; apply Fin.ext
  match a with
  | ⟨0, _⟩ => show win0_3.index t 0 * 1024 + 1 * p.val = b.val; rw [(index3 t).1, hb]; omega
  | ⟨1, _⟩ => show win0_3.index t 1 * 1 + 1 * 0 = 0; rw [(index3 t).2]

/-- The right factor's block: rows `256 (t % 64) ...`, every column. -/
theorem iblk4_apply (c : Dev nD) (t : Fin cfg0.N) (l : Fin 256) (q : Fin 2048) (n : Fin 16384)
    (hn : n.val = 256 * (t.val % 64) + l.val) :
    (iblk V c 4 t : S256x2048.Idx → EReal) (ix2 l q) = arrU V c (ix2 n q) := by
  unfold iblk
  rw [View.read_apply]
  show arrU V c _ = arrU V c _
  congr 1
  funext a; apply Fin.ext
  match a with
  | ⟨0, _⟩ => show win0_4.index t 0 * 256 + 1 * l.val = n.val; rw [(index4 t).1, hn]; omega
  | ⟨1, _⟩ => show win0_4.index t 1 * 2048 + 1 * q.val = q.val; rw [(index4 t).2]; omega

/-! ## The carried block is the partial sum -/

/-- ONE POINT'S STEP at an index: the carried entry plus run `t % 64`'s part of row `1024 (t / 64) + p`'s contraction. -/
theorem stepAt_apply (c : Dev nD) (hpos : ∀ b : Fin 2048, InRange (arrP V c (ix2 b 0))) (t : Fin cfg0.N)
    (acc : Vec Ideal S1024x2048 .f32) (p : Fin 1024) (q : Fin 2048) (b : Fin 2048)
    (hb : b.val = 1024 * (t.val / 64) + p.val) :
    (stepAt V c t acc (ix2 p q) : EReal)
      = (acc (ix2 p q) : EReal)
        + ∑ l : Fin 256, termN (arrA V c) (arrD V c) (arrG V c) (arrP V c) (arrU V c) b q (256 * (t.val % 64) + l.val) := by
  unfold stepAt
  refine (pay2_apply _ _ _ _ _ _ _ p q).trans ?_
  refine congrArg ((acc (ix2 p q) : EReal) + ·) ?_
  have hlt : t.val % 64 < 64 := Nat.mod_lt _ (by decide)
  have key := step_sum (arrA V c) (arrD V c) (arrG V c) (arrP V c) (arrU V c) (t.val % 64) hlt p q
    (iblk V c 3 t) (iblk V c 0 t) (iblk V c 1 t) (iblk V c 2 t) (iblk V c 4 t) b (hpos b)
    (iblk3_apply V c t p b hb)
    (fun l n hn => iblk0_apply V c t p l b n hb hn)
    (fun l n hn => iblk1_apply V c t p l b n hb hn)
    (fun l n hn => iblk2_apply V c t l n hn)
    (fun l n hn => iblk4_apply V c t l q n hn)
  rw [coord1 t]
  exact key

/-- THE INVARIANT. After the body at position `n` the output's staging block holds, at `(p, q)`, the partial sum over the
    first `n % 64 + 1` item runs of row `1024 (n / 64) + p`'s contraction: by induction on the position. -/
theorem accAt_eq (c : Dev nD) (hpos : ∀ b : Fin 2048, InRange (arrP V c (ix2 b 0))) :
    ∀ (n : ℕ) (hn : n < cfg0.N) (p : Fin 1024) (q : Fin 2048) (b : Fin 2048), b.val = 1024 * (n / 64) + p.val →
      (accAt V c n hn (ix2 p q) : EReal)
        = part (arrA V c) (arrD V c) (arrG V c) (arrP V c) (arrU V c) b q (n % 64 + 1)
  | 0, hn, p, q, b, hb => by
    have e1 : accAt V c 0 hn = stepAt V c ⟨0, hn⟩ (k0_pay1 (F := Ideal)) := rfl
    rw [e1, stepAt_apply V c hpos ⟨0, hn⟩ _ p q b hb, pay1_apply, zero_add, part_succ, part_zero, zero_add]
  | n + 1, hn, p, q, b, hb => by
    by_cases h0 : (n + 1) % 64 = 0
    · have e1 : accAt V c (n + 1) hn = stepAt V c ⟨n + 1, hn⟩ (k0_pay1 (F := Ideal)) :=
        accAt_start V c ⟨n + 1, hn⟩ h0
      rw [e1, stepAt_apply V c hpos ⟨n + 1, hn⟩ _ p q b hb, pay1_apply, zero_add]
      show _ = part _ _ _ _ _ b q ((n + 1) % 64 + 1)
      rw [h0, part_succ, part_zero, zero_add]
    · have e1 : accAt V c (n + 1) hn = stepAt V c ⟨n + 1, hn⟩ (accAt V c n (Nat.lt_of_succ_lt hn)) :=
        accAt_next V c ⟨n + 1, hn⟩ h0
      have hq : (n + 1) / 64 = n / 64 := by omega
      have hm : (n + 1) % 64 = n % 64 + 1 := by omega
      rw [e1, stepAt_apply V c hpos ⟨n + 1, hn⟩ _ p q b hb,
        accAt_eq c hpos n (Nat.lt_of_succ_lt hn) p q b (by rw [← hq]; exact hb)]
      show _ = part _ _ _ _ _ b q ((n + 1) % 64 + 1)
      rw [hm, part_succ _ _ _ _ _ b q (n % 64 + 1)]

/-! ## The write-backs and the array -/

/-- The output array's final contents: the contraction. -/
abbrev result (c : Dev nD) : S2048x2048.Idx → EReal := fun y =>
  G (fn2 (arrA V c)) (fn2 (arrD V c)) (fun n => arrG V c (ix2 0 n)) (fn2 (arrU V c))
    (fun b => itemOf (arrP V c (ix2 b 0))) (y 0) (y 1)

theorem result_apply (c : Dev nD) (b k : Fin 2048) :
    result V c (ix2 b k)
      = G (fn2 (arrA V c)) (fn2 (arrD V c)) (fun n => arrG V c (ix2 0 n)) (fn2 (arrU V c))
          (fun b => itemOf (arrP V c (ix2 b 0))) b k := rfl

/-- An array of the output's shape read through the output window's block at point `t`: rows `1024 (t / 64) ...`. -/
theorem blk5_read (t : Fin cfg0.N) (X : S2048x2048.Idx → EReal) (p : Fin 1024) (q : Fin 2048) (b : Fin 2048)
    (hb : b.val = 1024 * (t.val / 64) + p.val) :
    (((cfg0.win 5).blk t).view.read (Elt Ideal) X : S1024x2048.Idx → EReal) (ix2 p q) = X (ix2 b q) := by
  rw [View.read_apply]
  show X _ = X _
  congr 1
  funext a; apply Fin.ext
  match a with
  | ⟨0, _⟩ => show win0_5.index t 0 * 1024 + 1 * p.val = b.val; rw [(index5 t).1, hb]; omega
  | ⟨1, _⟩ => show win0_5.index t 1 * 2048 + 1 * q.val = q.val; rw [(index5 t).2]; omega

/-- What a row's last point writes back is its block of the contraction: all 64 runs are in. -/
theorem flushed_eq (c : Dev nD) (hpos : ∀ b : Fin 2048, InRange (arrP V c (ix2 b 0))) (t : Fin cfg0.N)
    (hf : (cfg0.win 5).flush t = true) :
    (dats (UU := UU) V 0 c).flushed 5 t = ((cfg0.win 5).blk t).view.read (Elt Ideal) (result V c) := by
  have h63 : t.val % 64 = 63 := (flush0_5 t).mp hf
  have hN : t.val < 128 := lt_of_lt_of_eq t.isLt N_0
  refine funext fun (y : S1024x2048.Idx) => ?_
  obtain ⟨p, q, rfl⟩ : ∃ (p : Fin 1024) (q : Fin 2048), y = ix2 p q := ⟨y 0, y 1, eq_ix2 y⟩
  have hbl : 1024 * (t.val / 64) + p.val < 2048 := by have := p.isLt; omega
  show ((dats (UU := UU) V 0 c).after 5 t (ix2 p q) : EReal)
    = (((cfg0.win 5).blk t).view.read (Elt Ideal) (result V c) : S1024x2048.Idx → EReal) (ix2 p q)
  rw [after_5, blk5_read t (result V c) p q ⟨_, hbl⟩ rfl, result_apply,
    accAt_eq V c hpos t.val t.isLt p q ⟨_, hbl⟩ rfl, h63]
  exact part_full _ _ _ _ _ _ q

/-- The two rows' last points cover the output array. -/
theorem cover (i : S2048x2048.Idx) :
    ∃ t : Fin cfg0.N, (cfg0.win 5).flush t = true ∧ i ∈ ((cfg0.win 5).blk t).view.set := by
  have h0 : (i 0 : Nat) < 2048 := (i 0).isLt
  have h1 : (i 1 : Nat) < 2048 := (i 1).isLt
  have ht : 64 * ((i 0).val / 1024) + 63 < cfg0.N := by rw [show cfg0.N = 128 from N_0]; omega
  refine ⟨⟨64 * ((i 0).val / 1024) + 63, ht⟩, (flush0_5 _).mpr (by show (64 * ((i 0).val / 1024) + 63) % 64 = 63; omega), ?_⟩
  show i ∈ ((View.whole main_call0_v34).slice (win0_5.rect ⟨64 * ((i 0).val / 1024) + 63, ht⟩)).set
  rw [View.set_slice_whole, Rect.mem_set_unit]
  intro a
  match a with
  | ⟨0, _⟩ =>
    show win0_5.index ⟨64 * ((i 0).val / 1024) + 63, ht⟩ 0 * 1024 ≤ (i 0 : Nat)
      ∧ (i 0 : Nat) < win0_5.index ⟨64 * ((i 0).val / 1024) + 63, ht⟩ 0 * 1024 + 1024
    rw [(index5 ⟨64 * ((i 0).val / 1024) + 63, ht⟩).1]
    show (64 * ((i 0).val / 1024) + 63) / 64 * 1024 ≤ (i 0 : Nat) ∧ (i 0 : Nat) < (64 * ((i 0).val / 1024) + 63) / 64 * 1024 + 1024
    omega
  | ⟨1, _⟩ =>
    show win0_5.index ⟨64 * ((i 0).val / 1024) + 63, ht⟩ 1 * 2048 ≤ (i 1 : Nat)
      ∧ (i 1 : Nat) < win0_5.index ⟨64 * ((i 0).val / 1024) + 63, ht⟩ 1 * 2048 + 2048
    rw [(index5 ⟨64 * ((i 0).val / 1024) + 63, ht⟩).2]
    omega

/-- THE REGION'S VALUE. After the run the output array holds the contraction: entry `(b, k)` is the sum over all items
    of the dropped-out, gated row `b` (the positive item's entry zeroed) against column `k` of the right factor. -/
theorem region_value (c : Dev nD) (hpos : ∀ b : Fin 2048, InRange (arrP V c (ix2 b 0))) (b k : Fin 2048) :
    ((dats (UU := UU) V 0 c).arrAt 5 cfg0.N : S2048x2048.Idx → EReal) (ix2 b k)
      = G (fn2 (arrA V c)) (fn2 (arrD V c)) (fun n => arrG V c (ix2 0 n)) (fn2 (arrU V c))
          (fun b => itemOf (arrP V c (ix2 b 0))) b k :=
  (congrFun ((dats (UU := UU) V 0 c).arrAt_eq_of_cover 5 (result V c) (flushed_eq V c hpos) cover) (ix2 b k)).trans
    (result_apply V c b k)

end Region

end Cert.KernelIdeal.Hand

end
-- ==== Proof.LibScatterSet.lean ====
/-
  StableHLO's scatter in the form that the indexed assignment x[rows, cols] := c produces on a matrix, read at one
  index.

  The operand is a matrix [n0, n1]; the scatter indices are a table [B, 2] of 32-bit words whose row r is the pair
  (row, column) that update r is written at; the updates are a vector [B]; there are no window axes (both operand axes
  are inserted window axes) and the update computation returns the update. StableHLO reads an index word as a signed
  integer and does NOT clamp it: an index pair that falls outside the operand is dropped. When every update is the
  same value z, the order in which the updates are applied does not matter: the result at (i, j) is z when some index
  row names (i, j), and the operand's element otherwise.

  The theorems are stated for any record of dimension numbers whose fields are the lists of this form; the record's
  well-formedness proof is left abstract.
-/
import Idealize.ShloMosaic.PureOps.Dims
import Idealize.ShloMosaic.PureOps.ShapeOps
import Idealize.ShloMosaic.Lib.ValueIdx

namespace Cert.LibScatterSet

open Idealize.ShloMosaic Idealize.ShloMosaic.ValueIdx

/-! ## A left fold of overwrites by one value -/

section Fold
variable {ι κ α : Type} (g : ι → Option κ) (z : α) (step : (κ → α) → ι → κ → α)

/-- A fold of steps each of which writes z at the position its item names (if it names one) and leaves every other
    position alone: a position that already holds z, or that some listed item names, holds z at the end. -/
private theorem foldl_hit (hit : ∀ r n i', g n = some i' → step r n i' = z)
    (miss : ∀ r n i', g n ≠ some i' → step r n i' = r i') (i' : κ) :
    ∀ (L : List ι) (x : κ → α), (x i' = z ∨ ∃ n ∈ L, g n = some i') → L.foldl step x i' = z := by
  intro L
  induction L with
  | nil =>
    intro x h
    rcases h with h | ⟨n, hn, _⟩
    · exact h
    · exact absurd hn List.not_mem_nil
  | cons n L ih =>
    intro x h
    rw [List.foldl_cons]
    apply ih
    by_cases hn : g n = some i'
    · exact Or.inl (hit x n i' hn)
    · rcases h with h | ⟨m, hm, hgm⟩
      · exact Or.inl ((miss x n i' hn).trans h)
      · rcases List.mem_cons.1 hm with rfl | hm'
        · exact absurd hgm hn
        · exact Or.inr ⟨m, hm', hgm⟩

/-- The same fold at a position no listed item names: the position keeps what it held at the start. -/
private theorem foldl_miss (miss : ∀ r n i', g n ≠ some i' → step r n i' = r i') (i' : κ) :
    ∀ (L : List ι) (x : κ → α), (∀ n ∈ L, g n ≠ some i') → L.foldl step x i' = x i' := by
  intro L
  induction L with
  | nil => intro x _; rfl
  | cons n L ih =>
    intro x h
    rw [List.foldl_cons, ih _ (fun m hm => h m (List.mem_cons_of_mem _ hm))]
    exact miss x n i' (h n List.mem_cons_self)

end Fold

/-! ## The dimension numbers of a point scatter -/

/-- The dimension numbers of a point scatter (operand [n0, n1], scatter indices [B, 2], updates [B]), over an abstract
    proof of their conditions. -/
private abbrev ptDims (n0 n1 B : Nat) (wf : ScatterDims.WF ⟨2, ![n0, n1]⟩ ⟨2, ![B, 2]⟩ ⟨1, ![B]⟩ [] [0, 1] [0, 1] 1) :
    ScatterDims ⟨2, ![n0, n1]⟩ ⟨2, ![B, 2]⟩ ⟨1, ![B]⟩ where
  updateWindowDims := []
  insertedWindowDims := [0, 1]
  scatterDimsToOperandDims := [0, 1]
  indexVectorDim := 1
  wf := wf

private theorem zero_mem : (0 : Fin 2) ∈ ([0, 1] : List (Fin 2)) := by decide
private theorem one_mem : (1 : Fin 2) ∈ ([0, 1] : List (Fin 2)) := by decide

section Pt
variable {n0 n1 B : Nat} (wf : ScatterDims.WF ⟨2, ![n0, n1]⟩ ⟨2, ![B, 2]⟩ ⟨1, ![B]⟩ [] [0, 1] [0, 1] 1)
  (idx : IVec ⟨2, ![B, 2]⟩ 32) (r : Fin B)

/-- Update r starts on axis 0 at the first word of index row r, read signed. -/
private theorem start0 : (ptDims n0 n1 B wf).start (ix1 r) idx (0 : Fin 2) = (idx (ix2 r 0)).toInt := by
  unfold ScatterDims.start
  rw [dif_pos (show (0 : Fin 2) ∈ (ptDims n0 n1 B wf).scatterDimsToOperandDims from zero_mem)]
  have hsi : (ptDims n0 n1 B wf).siIdx (ix1 r) ⟨List.idxOf (0 : Fin 2) (ptDims n0 n1 B wf).scatterDimsToOperandDims,
      List.idxOf_lt_length_iff.2 zero_mem⟩ = ix2 r 0 := by
    funext k; refine Fin.ext ?_
    match k with
    | ⟨0, _⟩ => rfl
    | ⟨1, _⟩ => rfl
  rw [hsi]

/-- Update r starts on axis 1 at the second word of index row r, read signed. -/
private theorem start1 : (ptDims n0 n1 B wf).start (ix1 r) idx (1 : Fin 2) = (idx (ix2 r 1)).toInt := by
  unfold ScatterDims.start
  rw [dif_pos (show (1 : Fin 2) ∈ (ptDims n0 n1 B wf).scatterDimsToOperandDims from one_mem)]
  have hsi : (ptDims n0 n1 B wf).siIdx (ix1 r) ⟨List.idxOf (1 : Fin 2) (ptDims n0 n1 B wf).scatterDimsToOperandDims,
      List.idxOf_lt_length_iff.2 one_mem⟩ = ix2 r 1 := by
    funext k; refine Fin.ext ?_
    match k with
    | ⟨0, _⟩ => rfl
    | ⟨1, _⟩ => rfl
  rw [hsi]

/-- Both operand axes are inserted: no window coordinate on either. -/
private theorem window_zero (a : Fin 2) : (ptDims n0 n1 B wf).window (ix1 r) a = 0 := by
  unfold ScatterDims.window
  rw [dif_neg]
  intro h
  have : a ∉ ([0, 1] : List (Fin 2)) := by
    have h' : a ∈ (⟨2, ![n0, n1]⟩ : Shape).kept ([0, 1] : List (Fin 2)) := h
    simpa [Shape.kept, List.mem_filter, List.mem_finRange] using h'
  match a with
  | ⟨0, _⟩ => exact this zero_mem
  | ⟨1, _⟩ => exact this one_mem

/-- Update r lands on (i, j) exactly when index row r, read as a pair of signed integers, is (i, j). -/
private theorem resultIdx_eq_some_iff (i : Fin n0) (j : Fin n1) :
    (ptDims n0 n1 B wf).resultIdx? (ix1 r) idx = some (ix2 i j)
      ↔ (idx (ix2 r 0)).toInt = (i.val : Int) ∧ (idx (ix2 r 1)).toInt = (j.val : Int) := by
  unfold ScatterDims.resultIdx?
  constructor
  · intro h
    split at h
    · rename_i hh
      have h' := Option.some.inj h
      have e0 : ((ptDims n0 n1 B wf).start (ix1 r) idx (0 : Fin 2)
          + ((ptDims n0 n1 B wf).window (ix1 r) (0 : Fin 2) : Int)).toNat = i.val :=
        congrArg (fun f : (⟨2, ![n0, n1]⟩ : Shape).Idx => (f (0 : Fin 2)).val) h'
      have e1 : ((ptDims n0 n1 B wf).start (ix1 r) idx (1 : Fin 2)
          + ((ptDims n0 n1 B wf).window (ix1 r) (1 : Fin 2) : Int)).toNat = j.val :=
        congrArg (fun f : (⟨2, ![n0, n1]⟩ : Shape).Idx => (f (1 : Fin 2)).val) h'
      have p0 := (hh (0 : Fin 2)).1
      have p1 := (hh (1 : Fin 2)).1
      rw [start0, window_zero] at e0 p0
      rw [start1, window_zero] at e1 p1
      constructor <;> omega
    · exact absurd h (by simp)
  · rintro ⟨e0, e1⟩
    have hh : ∀ a : Fin 2, 0 ≤ (ptDims n0 n1 B wf).start (ix1 r) idx a + ((ptDims n0 n1 B wf).window (ix1 r) a : Int)
        ∧ (ptDims n0 n1 B wf).start (ix1 r) idx a + ((ptDims n0 n1 B wf).window (ix1 r) a : Int)
          < ((⟨2, ![n0, n1]⟩ : Shape).size a : Int) := by
      intro a
      match a with
      | ⟨0, _⟩ =>
        show 0 ≤ (ptDims n0 n1 B wf).start (ix1 r) idx (0 : Fin 2) + ((ptDims n0 n1 B wf).window (ix1 r) (0 : Fin 2) : Int)
          ∧ (ptDims n0 n1 B wf).start (ix1 r) idx (0 : Fin 2) + ((ptDims n0 n1 B wf).window (ix1 r) (0 : Fin 2) : Int) < (n0 : Int)
        rw [start0, window_zero, e0]
        have := i.isLt
        constructor <;> omega
      | ⟨1, _⟩ =>
        show 0 ≤ (ptDims n0 n1 B wf).start (ix1 r) idx (1 : Fin 2) + ((ptDims n0 n1 B wf).window (ix1 r) (1 : Fin 2) : Int)
          ∧ (ptDims n0 n1 B wf).start (ix1 r) idx (1 : Fin 2) + ((ptDims n0 n1 B wf).window (ix1 r) (1 : Fin 2) : Int) < (n1 : Int)
        rw [start1, window_zero, e1]
        have := j.isLt
        constructor <;> omega
    rw [dif_pos hh]
    refine congrArg some ?_
    funext a; refine Fin.ext ?_
    match a with
    | ⟨0, _⟩ =>
      show ((ptDims n0 n1 B wf).start (ix1 r) idx (0 : Fin 2)
        + ((ptDims n0 n1 B wf).window (ix1 r) (0 : Fin 2) : Int)).toNat = i.val
      rw [start0, window_zero, e0]; omega
    | ⟨1, _⟩ =>
      show ((ptDims n0 n1 B wf).start (ix1 r) idx (1 : Fin 2)
        + ((ptDims n0 n1 B wf).window (ix1 r) (1 : Fin 2) : Int)).toNat = j.val
      rw [start1, window_zero, e1]; omega

end Pt

/-! ## The scatter read at an index -/

section Apply
variable {n0 n1 B : Nat} {α : Type} (wf : ScatterDims.WF ⟨2, ![n0, n1]⟩ ⟨2, ![B, 2]⟩ ⟨1, ![B]⟩ [] [0, 1] [0, 1] 1)
  (x : (⟨2, ![n0, n1]⟩ : Shape).Idx → α) (idx : IVec ⟨2, ![B, 2]⟩ 32) (z : α)

private theorem pt_hit (i : Fin n0) (j : Fin n1) (r : Fin B)
    (e0 : (idx (ix2 r 0)).toInt = (i.val : Int)) (e1 : (idx (ix2 r 1)).toInt = (j.val : Int)) :
    Host.scatter (ptDims n0 n1 B wf) (fun _ b => b) x idx (fun _ => z) (ix2 i j) = z := by
  unfold Host.scatter
  refine foldl_hit (fun n => (ptDims n0 n1 B wf).resultIdx? ((⟨1, ![B]⟩ : Shape).rowMajor.symm n) idx) z _
    ?_ ?_ (ix2 i j) _ x
    (Or.inr ⟨(⟨1, ![B]⟩ : Shape).rowMajor (ix1 r), List.mem_finRange _, ?_⟩)
  · -- a step whose update lands on i' writes z there
    intro r n i' h
    beta_reduce at h ⊢
    rw [h]
    exact if_pos rfl
  · -- a step whose update does not land on i' leaves i' alone
    intro r n i' h
    beta_reduce at h ⊢
    generalize (ptDims n0 n1 B wf).resultIdx? ((⟨1, ![B]⟩ : Shape).rowMajor.symm n) idx = o at h ⊢
    cases o with
    | none => rfl
    | some i => exact if_neg (fun e => h (by rw [e]))
  · show (ptDims n0 n1 B wf).resultIdx? ((⟨1, ![B]⟩ : Shape).rowMajor.symm ((⟨1, ![B]⟩ : Shape).rowMajor (ix1 r))) idx = _
    rw [Equiv.symm_apply_apply]
    exact (resultIdx_eq_some_iff wf idx r i j).2 ⟨e0, e1⟩

private theorem pt_miss (i : Fin n0) (j : Fin n1)
    (hno : ∀ r : Fin B, ¬ ((idx (ix2 r 0)).toInt = (i.val : Int) ∧ (idx (ix2 r 1)).toInt = (j.val : Int))) :
    Host.scatter (ptDims n0 n1 B wf) (fun _ b => b) x idx (fun _ => z) (ix2 i j) = x (ix2 i j) := by
  unfold Host.scatter
  refine foldl_miss (fun n => (ptDims n0 n1 B wf).resultIdx? ((⟨1, ![B]⟩ : Shape).rowMajor.symm n) idx) _
    ?_ (ix2 i j) _ x ?_
  · -- a step whose update does not land on i' leaves i' alone
    intro r n i' h
    beta_reduce at h ⊢
    generalize (ptDims n0 n1 B wf).resultIdx? ((⟨1, ![B]⟩ : Shape).rowMajor.symm n) idx = o at h ⊢
    cases o with
    | none => rfl
    | some i => exact if_neg (fun e => h (by rw [e]))
  · intro n _ h
    have h' : (ptDims n0 n1 B wf).resultIdx? ((⟨1, ![B]⟩ : Shape).rowMajor.symm n) idx = some (ix2 i j) := h
    rw [eq_ix1 ((⟨1, ![B]⟩ : Shape).rowMajor.symm n)] at h'
    exact hno _ ((resultIdx_eq_some_iff wf idx _ i j).1 h')

end Apply

/-- The same scatter at an index (i, j) that some index row r names: the constant. -/
theorem scatter_set_const_hit {n0 n1 B : Nat} {α : Type} (d : ScatterDims ⟨2, ![n0, n1]⟩ ⟨2, ![B, 2]⟩ ⟨1, ![B]⟩)
    (h1 : d.updateWindowDims = []) (h2 : d.insertedWindowDims = [0, 1])
    (h3 : d.scatterDimsToOperandDims = [0, 1]) (h4 : d.indexVectorDim = 1)
    (x : (⟨2, ![n0, n1]⟩ : Shape).Idx → α) (idx : IVec ⟨2, ![B, 2]⟩ 32) (z : α) (i : Fin n0) (j : Fin n1) (r : Fin B)
    (e0 : (idx (ix2 r 0)).toInt = (i.val : Int)) (e1 : (idx (ix2 r 1)).toInt = (j.val : Int)) :
    Host.scatter d (fun _ b => b) x idx (fun _ => z) (ix2 i j) = z := by
  obtain ⟨uw, iw, sd, iv, wf⟩ := d
  dsimp only at h1 h2 h3 h4
  subst h1 h2 h3 h4
  exact pt_hit wf x idx z i j r e0 e1

/-- The same scatter at an index (i, j) that no index row names: the operand's element. -/
theorem scatter_set_const_miss {n0 n1 B : Nat} {α : Type} (d : ScatterDims ⟨2, ![n0, n1]⟩ ⟨2, ![B, 2]⟩ ⟨1, ![B]⟩)
    (h1 : d.updateWindowDims = []) (h2 : d.insertedWindowDims = [0, 1])
    (h3 : d.scatterDimsToOperandDims = [0, 1]) (h4 : d.indexVectorDim = 1)
    (x : (⟨2, ![n0, n1]⟩ : Shape).Idx → α) (idx : IVec ⟨2, ![B, 2]⟩ 32) (z : α) (i : Fin n0) (j : Fin n1)
    (hno : ∀ r : Fin B, ¬ ((idx (ix2 r 0)).toInt = (i.val : Int) ∧ (idx (ix2 r 1)).toInt = (j.val : Int))) :
    Host.scatter d (fun _ b => b) x idx (fun _ => z) (ix2 i j) = x (ix2 i j) := by
  obtain ⟨uw, iw, sd, iv, wf⟩ := d
  dsimp only at h1 h2 h3 h4
  subst h1 h2 h3 h4
  exact pt_miss wf x idx z i j hno

/-- A point scatter of a constant (operand [n0, n1], scatter indices [B, 2], updates [B]; update_window_dims = [],
    inserted_window_dims = [0, 1], scatter_dims_to_operand_dims = [0, 1], index_vector_dim = 1; the update computation
    returns the update; every update is z) read at (i, j): z when some index row, read as a pair of signed integers, is
    (i, j), and the operand's element otherwise. An index row outside the operand equals no (i, j) and is dropped. -/
theorem scatter_set_const_apply {n0 n1 B : Nat} {α : Type} (d : ScatterDims ⟨2, ![n0, n1]⟩ ⟨2, ![B, 2]⟩ ⟨1, ![B]⟩)
    (h1 : d.updateWindowDims = []) (h2 : d.insertedWindowDims = [0, 1])
    (h3 : d.scatterDimsToOperandDims = [0, 1]) (h4 : d.indexVectorDim = 1)
    (x : (⟨2, ![n0, n1]⟩ : Shape).Idx → α) (idx : IVec ⟨2, ![B, 2]⟩ 32) (z : α) (i : Fin n0) (j : Fin n1)
    [Decidable (∃ r : Fin B, (idx (ix2 r 0)).toInt = (i.val : Int) ∧ (idx (ix2 r 1)).toInt = (j.val : Int))] :
    Host.scatter d (fun _ b => b) x idx (fun _ => z) (ix2 i j)
      = if ∃ r : Fin B, (idx (ix2 r 0)).toInt = (i.val : Int) ∧ (idx (ix2 r 1)).toInt = (j.val : Int) then z
        else x (ix2 i j) := by
  split
  · rename_i h
    obtain ⟨r, e0, e1⟩ := h
    exact scatter_set_const_hit d h1 h2 h3 h4 x idx z i j r e0 e1
  · rename_i h
    exact scatter_set_const_miss d h1 h2 h3 h4 x idx z i j (fun r hr => h ⟨r, hr⟩)

/-! ## The two forms that zero one entry per column / per row -/

/-- The scatter that sets one entry per COLUMN: the operand is [n0, B], index row r is (w r, r) — its first word a
    given word w r, its second word the row's own number —; the result at (i, b) is z when the word w b, read signed, is
    i, and the operand's element otherwise. (No range condition on w is needed: a word outside [0, n0) equals no i.) -/
theorem scatter_set_const_col {n0 B : Nat} {α : Type} (d : ScatterDims ⟨2, ![n0, B]⟩ ⟨2, ![B, 2]⟩ ⟨1, ![B]⟩)
    (h1 : d.updateWindowDims = []) (h2 : d.insertedWindowDims = [0, 1])
    (h3 : d.scatterDimsToOperandDims = [0, 1]) (h4 : d.indexVectorDim = 1)
    (x : (⟨2, ![n0, B]⟩ : Shape).Idx → α) (idx : IVec ⟨2, ![B, 2]⟩ 32) (z : α) (w : Fin B → BitVec 32)
    (hw : ∀ r : Fin B, idx (ix2 r 0) = w r) (hr : ∀ r : Fin B, (idx (ix2 r 1)).toInt = (r.val : Int))
    (i : Fin n0) (b : Fin B) :
    Host.scatter d (fun _ b => b) x idx (fun _ => z) (ix2 i b)
      = if (w b).toInt = (i.val : Int) then z else x (ix2 i b) := by
  split
  · rename_i h
    exact scatter_set_const_hit d h1 h2 h3 h4 x idx z i b b (by rw [hw]; exact h) (hr b)
  · rename_i h
    refine scatter_set_const_miss d h1 h2 h3 h4 x idx z i b ?_
    rintro r ⟨e0, e1⟩
    have hrb : r = b := Fin.ext (by have := hr r; omega)
    subst hrb
    exact h (by rw [← hw]; exact e0)

/-- The scatter that sets one entry per ROW: the operand is [B, n1], index row r is (r, w r) — its first word the
    row's own number, its second word a given word w r —; the result at (b, j) is z when the word w b, read signed, is
    j, and the operand's element otherwise. -/
theorem scatter_set_const_row {n1 B : Nat} {α : Type} (d : ScatterDims ⟨2, ![B, n1]⟩ ⟨2, ![B, 2]⟩ ⟨1, ![B]⟩)
    (h1 : d.updateWindowDims = []) (h2 : d.insertedWindowDims = [0, 1])
    (h3 : d.scatterDimsToOperandDims = [0, 1]) (h4 : d.indexVectorDim = 1)
    (x : (⟨2, ![B, n1]⟩ : Shape).Idx → α) (idx : IVec ⟨2, ![B, 2]⟩ 32) (z : α) (w : Fin B → BitVec 32)
    (hr : ∀ r : Fin B, (idx (ix2 r 0)).toInt = (r.val : Int)) (hw : ∀ r : Fin B, idx (ix2 r 1) = w r)
    (b : Fin B) (j : Fin n1) :
    Host.scatter d (fun _ b => b) x idx (fun _ => z) (ix2 b j)
      = if (w b).toInt = (j.val : Int) then z else x (ix2 b j) := by
  split
  · rename_i h
    exact scatter_set_const_hit d h1 h2 h3 h4 x idx z b j b (hr b) (by rw [hw]; exact h)
  · rename_i h
    refine scatter_set_const_miss d h1 h2 h3 h4 x idx z b j ?_
    rintro r ⟨e0, e1⟩
    have hrb : r = b := Fin.ext (by have := hr r; omega)
    subst hrb
    exact h (by rw [← hw]; exact e1)

/-- A 32-bit word that is non-negative as a signed integer is its unsigned value. -/
theorem toInt_eq_toNat_of_nonneg (v : BitVec 32) (h : 0 ≤ v.toInt) : v.toInt = (v.toNat : Int) := by
  have hlt := v.isLt
  rw [BitVec.toInt_eq_toNat_cond] at h ⊢
  split at h
  · rename_i h2; rw [if_pos h2]
  · omega

/-- The word that holds a row number below 2^31, read signed, is the row number. -/
theorem toInt_ofNat_of_lt (k : Nat) (h : k < 2 ^ 31) : (BitVec.ofNat 32 k).toInt = (k : Int) := by
  have h2 : 2 * (BitVec.ofNat 32 k).toNat < 2 ^ 32 := by
    rw [BitVec.toNat_ofNat, Nat.mod_eq_of_lt (by omega)]; omega
  rw [BitVec.toInt_eq_toNat_of_lt h2, BitVec.toNat_ofNat, Nat.mod_eq_of_lt (by omega)]

/-- The column form with the words in range: under 0 ≤ w r < n0 (signed), the test is on the unsigned value. -/
theorem scatter_set_const_col_toNat {n0 B : Nat} {α : Type} (d : ScatterDims ⟨2, ![n0, B]⟩ ⟨2, ![B, 2]⟩ ⟨1, ![B]⟩)
    (h1 : d.updateWindowDims = []) (h2 : d.insertedWindowDims = [0, 1])
    (h3 : d.scatterDimsToOperandDims = [0, 1]) (h4 : d.indexVectorDim = 1)
    (x : (⟨2, ![n0, B]⟩ : Shape).Idx → α) (idx : IVec ⟨2, ![B, 2]⟩ 32) (z : α) (w : Fin B → BitVec 32)
    (hw : ∀ r : Fin B, idx (ix2 r 0) = w r) (hr : ∀ r : Fin B, (idx (ix2 r 1)).toInt = (r.val : Int))
    (hin : ∀ r : Fin B, 0 ≤ (w r).toInt ∧ (w r).toInt < (n0 : Int))
    (i : Fin n0) (b : Fin B) :
    Host.scatter d (fun _ b => b) x idx (fun _ => z) (ix2 i b)
      = if (w b).toNat = i.val then z else x (ix2 i b) := by
  rw [scatter_set_const_col d h1 h2 h3 h4 x idx z w hw hr i b]
  have e := toInt_eq_toNat_of_nonneg (w b) (hin b).1
  by_cases h : (w b).toNat = i.val
  · rw [if_pos h, if_pos (by rw [e, h])]
  · rw [if_neg h, if_neg (by rw [e]; exact fun h' => h (by exact_mod_cast h'))]

/-- The row form with the words in range: under 0 ≤ w r < n1 (signed), the test is on the unsigned value. -/
theorem scatter_set_const_row_toNat {n1 B : Nat} {α : Type} (d : ScatterDims ⟨2, ![B, n1]⟩ ⟨2, ![B, 2]⟩ ⟨1, ![B]⟩)
    (h1 : d.updateWindowDims = []) (h2 : d.insertedWindowDims = [0, 1])
    (h3 : d.scatterDimsToOperandDims = [0, 1]) (h4 : d.indexVectorDim = 1)
    (x : (⟨2, ![B, n1]⟩ : Shape).Idx → α) (idx : IVec ⟨2, ![B, 2]⟩ 32) (z : α) (w : Fin B → BitVec 32)
    (hr : ∀ r : Fin B, (idx (ix2 r 0)).toInt = (r.val : Int)) (hw : ∀ r : Fin B, idx (ix2 r 1) = w r)
    (hin : ∀ r : Fin B, 0 ≤ (w r).toInt ∧ (w r).toInt < (n1 : Int))
    (b : Fin B) (j : Fin n1) :
    Host.scatter d (fun _ b => b) x idx (fun _ => z) (ix2 b j)
      = if (w b).toNat = j.val then z else x (ix2 b j) := by
  rw [scatter_set_const_row d h1 h2 h3 h4 x idx z w hr hw b j]
  have e := toInt_eq_toNat_of_nonneg (w b) (hin b).1
  by_cases h : (w b).toNat = j.val
  · rw [if_pos h, if_pos (by rw [e, h])]
  · rw [if_neg h, if_neg (by rw [e]; exact fun h' => h (by exact_mod_cast h'))]

end Cert.LibScatterSet
-- ==== Proof.RefOps.lean ====
import proofs.«418976_j78056735637975_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 190 operations, in program order. -/
abbrev ops : List (HloOp τ sig (Elt F)) :=
  [ StableHlo.nullary main_cst (constant S_ .f32 0x471C4000#32),
    StableHlo.unary main_cst main_v0 (broadcastInDim S2048 ![] bcast_S_S2048 : (⟨S_, .f32⟩ : BufTy).Contents (Elt F) → (⟨S2048, .f32⟩ : BufTy).Contents (Elt F)),
    StableHlo.binary main_arg2 main_v0 main_v1 (addf : (⟨S2048, .f32⟩ : BufTy).Contents (Elt F) → (⟨S2048, .f32⟩ : BufTy).Contents (Elt F) → (⟨S2048, .f32⟩ : BufTy).Contents (Elt F)),
    StableHlo.reshape main_arg4 main_v2 rfl shapeCasts_S2048x1_S2048,
    StableHlo.unary main_v2 main_v3 (Host.tanh : (⟨S2048, .f32⟩ : BufTy).Contents (Elt F) → (⟨S2048, .f32⟩ : BufTy).Contents (Elt F)),
    StableHlo.nullary main_cst_0 (constant S_ .f32 0x459C4000#32),
    StableHlo.unary main_cst_0 main_v4 (broadcastInDim S2048 ![] bcast_S_S2048 : (⟨S_, .f32⟩ : BufTy).Contents (Elt F) → (⟨S2048, .f32⟩ : BufTy).Contents (Elt F)),
    StableHlo.binary main_v4 main_v3 main_v5 (mulf : (⟨S2048, .f32⟩ : BufTy).Contents (Elt F) → (⟨S2048, .f32⟩ : BufTy).Contents (Elt F) → (⟨S2048, .f32⟩ : BufTy).Contents (Elt F)),
    StableHlo.binary main_v1 main_v5 main_v6 (addf : (⟨S2048, .f32⟩ : BufTy).Contents (Elt F) → (⟨S2048, .f32⟩ : BufTy).Contents (Elt F) → (⟨S2048, .f32⟩ : BufTy).Contents (Elt F)),
    StableHlo.binary main_arg2 main_v6 main_v7 (Host.divf : (⟨S2048, .f32⟩ : BufTy).Contents (Elt F) → (⟨S2048, .f32⟩ : BufTy).Contents (Elt F) → (⟨S2048, .f32⟩ : BufTy).Contents (Elt F)),
    StableHlo.reshape main_arg5 main_v8 rfl shapeCasts_S16384x1_S16384,
    StableHlo.unary main_v8 main_v9 (Host.negf : (⟨S16384, .f32⟩ : BufTy).Contents (Elt F) → (⟨S16384, .f32⟩ : BufTy).Contents (Elt F)),
    StableHlo.unary main_v9 main_v10 (Host.exp : (⟨S16384, .f32⟩ : BufTy).Contents (Elt F) → (⟨S16384, .f32⟩ : BufTy).Contents (Elt F)),
    StableHlo.nullary main_cst_1 (constant S_ .f32 0x3F800000#32),
    StableHlo.unary main_cst_1 main_v11 (broadcastInDim S16384 ![] bcast_S_S16384 : (⟨S_, .f32⟩ : BufTy).Contents (Elt F) → (⟨S16384, .f32⟩ : BufTy).Contents (Elt F)),
    StableHlo.binary main_v11 main_v10 main_v12 (addf : (⟨S16384, .f32⟩ : BufTy).Contents (Elt F) → (⟨S16384, .f32⟩ : BufTy).Contents (Elt F) → (⟨S16384, .f32⟩ : BufTy).Contents (Elt F)),
    StableHlo.nullary main_cst_2 (constant S_ .f32 0x3F800000#32),
    StableHlo.unary main_cst_2 main_v13 (broadcastInDim S16384 ![] bcast_S_S16384 : (⟨S_, .f32⟩ : BufTy).Contents (Elt F) → (⟨S16384, .f32⟩ : BufTy).Contents (Elt F)),
    StableHlo.binary main_v13 main_v12 main_v14 (Host.divf : (⟨S16384, .f32⟩ : BufTy).Contents (Elt F) → (⟨S16384, .f32⟩ : BufTy).Contents (Elt F) → (⟨S16384, .f32⟩ : BufTy).Contents (Elt F)),
    StableHlo.reshape main_arg6 main_v15 rfl shapeCasts_S1x16384_S16384,
    StableHlo.unary main_v15 main_v16 (Host.negf : (⟨S16384, .f32⟩ : BufTy).Contents (Elt F) → (⟨S16384, .f32⟩ : BufTy).Contents (Elt F)),
    StableHlo.unary main_v16 main_v17 (Host.exp : (⟨S16384, .f32⟩ : BufTy).Contents (Elt F) → (⟨S16384, .f32⟩ : BufTy).Contents (Elt F)),
    StableHlo.nullary main_cst_3 (constant S_ .f32 0x3F800000#32),
    StableHlo.unary main_cst_3 main_v18 (broadcastInDim S16384 ![] bcast_S_S16384 : (⟨S_, .f32⟩ : BufTy).Contents (Elt F) → (⟨S16384, .f32⟩ : BufTy).Contents (Elt F)),
    StableHlo.binary main_v18 main_v17 main_v19 (addf : (⟨S16384, .f32⟩ : BufTy).Contents (Elt F) → (⟨S16384, .f32⟩ : BufTy).Contents (Elt F) → (⟨S16384, .f32⟩ : BufTy).Contents (Elt F)),
    StableHlo.nullary main_cst_4 (constant S_ .f32 0x3F800000#32),
    StableHlo.unary main_cst_4 main_v20 (broadcastInDim S16384 ![] bcast_S_S16384 : (⟨S_, .f32⟩ : BufTy).Contents (Elt F) → (⟨S16384, .f32⟩ : BufTy).Contents (Elt F)),
    StableHlo.binary main_v20 main_v19 main_v21 (Host.divf : (⟨S16384, .f32⟩ : BufTy).Contents (Elt F) → (⟨S16384, .f32⟩ : BufTy).Contents (Elt F) → (⟨S16384, .f32⟩ : BufTy).Contents (Elt F)),
    StableHlo.unary main_v7 main_v22 (broadcastInDim S2048x1 ![0] bcast_S2048_S2048x1_0 : (⟨S2048, .f32⟩ : BufTy).Contents (Elt F) → (⟨S2048x1, .f32⟩ : BufTy).Contents (Elt F)),
    StableHlo.nullary main_c (constantI S_ 32 0#32),
    StableHlo.unary main_c main_v23 (broadcastInDim S2048 ![] bcast_S_S2048 : (⟨S_, .i32⟩ : BufTy).Contents (Elt F) → (⟨S2048, .i32⟩ : BufTy).Contents (Elt F)),
    StableHlo.binary main_arg9 main_v23 main_v24 (cmpi .slt : (⟨S2048, .i32⟩ : BufTy).Contents (Elt F) → (⟨S2048, .i32⟩ : BufTy).Contents (Elt F) → (⟨S2048, .i1⟩ : BufTy).Contents (Elt F)),
    StableHlo.nullary main_c_5 (constantI S_ 32 16384#32),
    StableHlo.unary main_c_5 main_v25 (broadcastInDim S2048 ![] bcast_S_S2048 : (⟨S_, .i32⟩ : BufTy).Contents (Elt F) → (⟨S2048, .i32⟩ : BufTy).Contents (Elt F)),
    StableHlo.binary main_arg9 main_v25 main_v26 (addi : (⟨S2048, .i32⟩ : BufTy).Contents (Elt F) → (⟨S2048, .i32⟩ : BufTy).Contents (Elt F) → (⟨S2048, .i32⟩ : BufTy).Contents (Elt F)),
    StableHlo.ternary main_v24 main_v26 main_arg9 main_v27 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v27 main_v28 (broadcastInDim S2048x1 ![0] bcast_S2048_S2048x1_0 : (⟨S2048, .i32⟩ : BufTy).Contents (Elt F) → (⟨S2048x1, .i32⟩ : BufTy).Contents (Elt F)),
    StableHlo.binary main_arg3 main_v28 main_v29 ((fun x i => Host.gather gather_S2048x16384_S2048x1_S2048x2048_0_1_n_n_1_1_20481 x i) : (⟨S2048x16384, .f32⟩ : BufTy).Contents (Elt F) → (⟨S2048x1, .i32⟩ : BufTy).Contents (Elt F) → (⟨S2048x2048, .f32⟩ : BufTy).Contents (Elt F)),
    StableHlo.unary main_v22 main_v30 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v30 main_v29 main_v31 (mulf : (⟨S2048x2048, .f32⟩ : BufTy).Contents (Elt F) → (⟨S2048x2048, .f32⟩ : BufTy).Contents (Elt F) → (⟨S2048x2048, .f32⟩ : BufTy).Contents (Elt F)),
    StableHlo.binary main_arg1 main_v31 main_v32 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    StableHlo.unary main_v14 main_v33 (broadcastInDim S16384x1 ![0] bcast_S16384_S16384x1_0 : (⟨S16384, .f32⟩ : BufTy).Contents (Elt F) → (⟨S16384x1, .f32⟩ : BufTy).Contents (Elt F)),
    StableHlo.unary main_v33 main_v34 (broadcastInDim S16384x2048 ![0, 1] bcast_S16384x1_S16384x2048_0_1 : (⟨S16384x1, .f32⟩ : BufTy).Contents (Elt F) → (⟨S16384x2048, .f32⟩ : BufTy).Contents (Elt F)),
    StableHlo.binary main_v34 main_v32 main_v35 (mulf : (⟨S16384x2048, .f32⟩ : BufTy).Contents (Elt F) → (⟨S16384x2048, .f32⟩ : BufTy).Contents (Elt F) → (⟨S16384x2048, .f32⟩ : BufTy).Contents (Elt F)),
    StableHlo.nullary main_c_6 (constantI S_ 32 0#32),
    StableHlo.unary main_c_6 main_v36 (broadcastInDim S2048 ![] bcast_S_S2048 : (⟨S_, .i32⟩ : BufTy).Contents (Elt F) → (⟨S2048, .i32⟩ : BufTy).Contents (Elt F)),
    StableHlo.binary main_arg9 main_v36 main_v37 (cmpi .slt : (⟨S2048, .i32⟩ : BufTy).Contents (Elt F) → (⟨S2048, .i32⟩ : BufTy).Contents (Elt F) → (⟨S2048, .i1⟩ : BufTy).Contents (Elt F)),
    StableHlo.nullary main_c_7 (constantI S_ 32 16384#32),
    StableHlo.unary main_c_7 main_v38 (broadcastInDim S2048 ![] bcast_S_S2048 : (⟨S_, .i32⟩ : BufTy).Contents (Elt F) → (⟨S2048, .i32⟩ : BufTy).Contents (Elt F)),
    StableHlo.binary main_arg9 main_v38 main_v39 (addi : (⟨S2048, .i32⟩ : BufTy).Contents (Elt F) → (⟨S2048, .i32⟩ : BufTy).Contents (Elt F) → (⟨S2048, .i32⟩ : BufTy).Contents (Elt F)),
    StableHlo.ternary main_v37 main_v39 main_arg9 main_v40 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v40 main_v41 (broadcastInDim S2048x1 ![0] bcast_S2048_S2048x1_0 : (⟨S2048, .i32⟩ : BufTy).Contents (Elt F) → (⟨S2048x1, .i32⟩ : BufTy).Contents (Elt F)),
    StableHlo.binary main_v21 main_v41 main_v42 ((fun x i => Host.gather gather_S16384_S2048x1_S2048_n_0_n_n_0_1_1 x i) : (⟨S16384, .f32⟩ : BufTy).Contents (Elt F) → (⟨S2048x1, .i32⟩ : BufTy).Contents (Elt F) → (⟨S2048, .f32⟩ : BufTy).Contents (Elt F)),
    StableHlo.unary main_v42 main_v43 (broadcastInDim S1x2048 ![1] bcast_S2048_S1x2048_1 : (⟨S2048, .f32⟩ : BufTy).Contents (Elt F) → (⟨S1x2048, .f32⟩ : BufTy).Contents (Elt F)),
    StableHlo.unary main_v43 main_v44 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v35 main_v44 main_v45 (mulf : (⟨S16384x2048, .f32⟩ : BufTy).Contents (Elt F) → (⟨S16384x2048, .f32⟩ : BufTy).Contents (Elt F) → (⟨S16384x2048, .f32⟩ : BufTy).Contents (Elt F)),
    StableHlo.nullary main_v46 (iotaInDim S2048 32 0),
    StableHlo.nullary main_c_8 (constantI S_ 32 0#32),
    StableHlo.unary main_c_8 main_v47 (broadcastInDim S2048 ![] bcast_S_S2048 : (⟨S_, .i32⟩ : BufTy).Contents (Elt F) → (⟨S2048, .i32⟩ : BufTy).Contents (Elt F)),
    StableHlo.binary main_arg9 main_v47 main_v48 (cmpi .slt : (⟨S2048, .i32⟩ : BufTy).Contents (Elt F) → (⟨S2048, .i32⟩ : BufTy).Contents (Elt F) → (⟨S2048, .i1⟩ : BufTy).Contents (Elt F)),
    StableHlo.nullary main_c_9 (constantI S_ 32 16384#32),
    StableHlo.unary main_c_9 main_v49 (broadcastInDim S2048 ![] bcast_S_S2048 : (⟨S_, .i32⟩ : BufTy).Contents (Elt F) → (⟨S2048, .i32⟩ : BufTy).Contents (Elt F)),
    StableHlo.binary main_arg9 main_v49 main_v50 (addi : (⟨S2048, .i32⟩ : BufTy).Contents (Elt F) → (⟨S2048, .i32⟩ : BufTy).Contents (Elt F) → (⟨S2048, .i32⟩ : BufTy).Contents (Elt F)),
    StableHlo.ternary main_v48 main_v50 main_arg9 main_v51 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_10 (constantI S_ 32 0#32),
    StableHlo.unary main_c_10 main_v52 (broadcastInDim S2048 ![] bcast_S_S2048 : (⟨S_, .i32⟩ : BufTy).Contents (Elt F) → (⟨S2048, .i32⟩ : BufTy).Contents (Elt F)),
    StableHlo.binary main_v46 main_v52 main_v53 (cmpi .slt : (⟨S2048, .i32⟩ : BufTy).Contents (Elt F) → (⟨S2048, .i32⟩ : BufTy).Contents (Elt F) → (⟨S2048, .i1⟩ : BufTy).Contents (Elt F)),
    StableHlo.nullary main_c_11 (constantI S_ 32 2048#32),
    StableHlo.unary main_c_11 main_v54 (broadcastInDim S2048 ![] bcast_S_S2048 : (⟨S_, .i32⟩ : BufTy).Contents (Elt F) → (⟨S2048, .i32⟩ : BufTy).Contents (Elt F)),
    StableHlo.binary main_v46 main_v54 main_v55 (addi : (⟨S2048, .i32⟩ : BufTy).Contents (Elt F) → (⟨S2048, .i32⟩ : BufTy).Contents (Elt F) → (⟨S2048, .i32⟩ : BufTy).Contents (Elt F)),
    StableHlo.ternary main_v53 main_v55 main_v46 main_v56 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v51 main_v57 (broadcastInDim S2048x1 ![0] bcast_S2048_S2048x1_0 : (⟨S2048, .i32⟩ : BufTy).Contents (Elt F) → (⟨S2048x1, .i32⟩ : BufTy).Contents (Elt F)),
    StableHlo.unary main_v56 main_v58 (broadcastInDim S2048x1 ![0] bcast_S2048_S2048x1_0 : (⟨S2048, .i32⟩ : BufTy).Contents (Elt F) → (⟨S2048x1, .i32⟩ : BufTy).Contents (Elt F)),
    StableHlo.binary main_v57 main_v58 main_v59 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    StableHlo.nullary main_cst_12 (constant S_ .f32 0x00000000#32),
    StableHlo.unary main_cst_12 main_v60 (broadcastInDim S2048 ![] bcast_S_S2048 : (⟨S_, .f32⟩ : BufTy).Contents (Elt F) → (⟨S2048, .f32⟩ : BufTy).Contents (Elt F)),
    StableHlo.ternary main_v45 main_v59 main_v60 main_v61 ((fun x i u => Host.scatter scatter_S16384x2048_S2048x2_S2048_n_01_01_1 (fun _ b => b) x i u) : (⟨S16384x2048, .f32⟩ : BufTy).Contents (Elt F) → (⟨S2048x2, .i32⟩ : BufTy).Contents (Elt F) → (⟨S2048, .f32⟩ : BufTy).Contents (Elt F) → (⟨S16384x2048, .f32⟩ : BufTy).Contents (Elt F)),
    StableHlo.unary main_v61 main_v62 ((transpose S2048x16384 [1, 0] · transposes_S16384x2048_S2048x16384_1_0) : (⟨S16384x2048, .f32⟩ : BufTy).Contents (Elt F) → (⟨S2048x16384, .f32⟩ : BufTy).Contents (Elt F)),
    StableHlo.unary main_v7 main_v63 (broadcastInDim S2048x1 ![0] bcast_S2048_S2048x1_0 : (⟨S2048, .f32⟩ : BufTy).Contents (Elt F) → (⟨S2048x1, .f32⟩ : BufTy).Contents (Elt F)),
    StableHlo.nullary main_c_13 (constantI S_ 32 0#32),
    StableHlo.unary main_c_13 main_v64 (broadcastInDim S2048 ![] bcast_S_S2048 : (⟨S_, .i32⟩ : BufTy).Contents (Elt F) → (⟨S2048, .i32⟩ : BufTy).Contents (Elt F)),
    StableHlo.binary main_arg10 main_v64 main_v65 (cmpi .slt : (⟨S2048, .i32⟩ : BufTy).Contents (Elt F) → (⟨S2048, .i32⟩ : BufTy).Contents (Elt F) → (⟨S2048, .i1⟩ : BufTy).Contents (Elt F)),
    StableHlo.nullary main_c_14 (constantI S_ 32 16384#32),
    StableHlo.unary main_c_14 main_v66 (broadcastInDim S2048 ![] bcast_S_S2048 : (⟨S_, .i32⟩ : BufTy).Contents (Elt F) → (⟨S2048, .i32⟩ : BufTy).Contents (Elt F)),
    StableHlo.binary main_arg10 main_v66 main_v67 (addi : (⟨S2048, .i32⟩ : BufTy).Contents (Elt F) → (⟨S2048, .i32⟩ : BufTy).Contents (Elt F) → (⟨S2048, .i32⟩ : BufTy).Contents (Elt F)),
    StableHlo.ternary main_v65 main_v67 main_arg10 main_v68 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v68 main_v69 (broadcastInDim S2048x1 ![0] bcast_S2048_S2048x1_0 : (⟨S2048, .i32⟩ : BufTy).Contents (Elt F) → (⟨S2048x1, .i32⟩ : BufTy).Contents (Elt F)),
    StableHlo.binary main_arg3 main_v69 main_v70 ((fun x i => Host.gather gather_S2048x16384_S2048x1_S2048x2048_0_1_n_n_1_1_20481 x i) : (⟨S2048x16384, .f32⟩ : BufTy).Contents (Elt F) → (⟨S2048x1, .i32⟩ : BufTy).Contents (Elt F) → (⟨S2048x2048, .f32⟩ : BufTy).Contents (Elt F)),
    StableHlo.unary main_v63 main_v71 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v71 main_v70 main_v72 (mulf : (⟨S2048x2048, .f32⟩ : BufTy).Contents (Elt F) → (⟨S2048x2048, .f32⟩ : BufTy).Contents (Elt F) → (⟨S2048x2048, .f32⟩ : BufTy).Contents (Elt F)),
    StableHlo.binary main_arg1 main_v72 main_v73 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    StableHlo.unary main_v14 main_v74 (broadcastInDim S16384x1 ![0] bcast_S16384_S16384x1_0 : (⟨S16384, .f32⟩ : BufTy).Contents (Elt F) → (⟨S16384x1, .f32⟩ : BufTy).Contents (Elt F)),
    StableHlo.unary main_v74 main_v75 (broadcastInDim S16384x2048 ![0, 1] bcast_S16384x1_S16384x2048_0_1 : (⟨S16384x1, .f32⟩ : BufTy).Contents (Elt F) → (⟨S16384x2048, .f32⟩ : BufTy).Contents (Elt F)),
    StableHlo.binary main_v75 main_v73 main_v76 (mulf : (⟨S16384x2048, .f32⟩ : BufTy).Contents (Elt F) → (⟨S16384x2048, .f32⟩ : BufTy).Contents (Elt F) → (⟨S16384x2048, .f32⟩ : BufTy).Contents (Elt F)),
    StableHlo.nullary main_c_15 (constantI S_ 32 0#32),
    StableHlo.unary main_c_15 main_v77 (broadcastInDim S2048 ![] bcast_S_S2048 : (⟨S_, .i32⟩ : BufTy).Contents (Elt F) → (⟨S2048, .i32⟩ : BufTy).Contents (Elt F)),
    StableHlo.binary main_arg10 main_v77 main_v78 (cmpi .slt : (⟨S2048, .i32⟩ : BufTy).Contents (Elt F) → (⟨S2048, .i32⟩ : BufTy).Contents (Elt F) → (⟨S2048, .i1⟩ : BufTy).Contents (Elt F)),
    StableHlo.nullary main_c_16 (constantI S_ 32 16384#32),
    StableHlo.unary main_c_16 main_v79 (broadcastInDim S2048 ![] bcast_S_S2048 : (⟨S_, .i32⟩ : BufTy).Contents (Elt F) → (⟨S2048, .i32⟩ : BufTy).Contents (Elt F)),
    StableHlo.binary main_arg10 main_v79 main_v80 (addi : (⟨S2048, .i32⟩ : BufTy).Contents (Elt F) → (⟨S2048, .i32⟩ : BufTy).Contents (Elt F) → (⟨S2048, .i32⟩ : BufTy).Contents (Elt F)),
    StableHlo.ternary main_v78 main_v80 main_arg10 main_v81 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v81 main_v82 (broadcastInDim S2048x1 ![0] bcast_S2048_S2048x1_0 : (⟨S2048, .i32⟩ : BufTy).Contents (Elt F) → (⟨S2048x1, .i32⟩ : BufTy).Contents (Elt F)),
    StableHlo.binary main_v21 main_v82 main_v83 ((fun x i => Host.gather gather_S16384_S2048x1_S2048_n_0_n_n_0_1_1 x i) : (⟨S16384, .f32⟩ : BufTy).Contents (Elt F) → (⟨S2048x1, .i32⟩ : BufTy).Contents (Elt F) → (⟨S2048, .f32⟩ : BufTy).Contents (Elt F)),
    StableHlo.unary main_v83 main_v84 (broadcastInDim S1x2048 ![1] bcast_S2048_S1x2048_1 : (⟨S2048, .f32⟩ : BufTy).Contents (Elt F) → (⟨S1x2048, .f32⟩ : BufTy).Contents (Elt F)),
    StableHlo.unary main_v84 main_v85 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v76 main_v85 main_v86 (mulf : (⟨S16384x2048, .f32⟩ : BufTy).Contents (Elt F) → (⟨S16384x2048, .f32⟩ : BufTy).Contents (Elt F) → (⟨S16384x2048, .f32⟩ : BufTy).Contents (Elt F)),
    StableHlo.nullary main_v87 (iotaInDim S2048 32 0),
    StableHlo.nullary main_c_17 (constantI S_ 32 0#32),
    StableHlo.unary main_c_17 main_v88 (broadcastInDim S2048 ![] bcast_S_S2048 : (⟨S_, .i32⟩ : BufTy).Contents (Elt F) → (⟨S2048, .i32⟩ : BufTy).Contents (Elt F)),
    StableHlo.binary main_arg10 main_v88 main_v89 (cmpi .slt : (⟨S2048, .i32⟩ : BufTy).Contents (Elt F) → (⟨S2048, .i32⟩ : BufTy).Contents (Elt F) → (⟨S2048, .i1⟩ : BufTy).Contents (Elt F)),
    StableHlo.nullary main_c_18 (constantI S_ 32 16384#32),
    StableHlo.unary main_c_18 main_v90 (broadcastInDim S2048 ![] bcast_S_S2048 : (⟨S_, .i32⟩ : BufTy).Contents (Elt F) → (⟨S2048, .i32⟩ : BufTy).Contents (Elt F)),
    StableHlo.binary main_arg10 main_v90 main_v91 (addi : (⟨S2048, .i32⟩ : BufTy).Contents (Elt F) → (⟨S2048, .i32⟩ : BufTy).Contents (Elt F) → (⟨S2048, .i32⟩ : BufTy).Contents (Elt F)),
    StableHlo.ternary main_v89 main_v91 main_arg10 main_v92 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_19 (constantI S_ 32 0#32),
    StableHlo.unary main_c_19 main_v93 (broadcastInDim S2048 ![] bcast_S_S2048 : (⟨S_, .i32⟩ : BufTy).Contents (Elt F) → (⟨S2048, .i32⟩ : BufTy).Contents (Elt F)),
    StableHlo.binary main_v87 main_v93 main_v94 (cmpi .slt : (⟨S2048, .i32⟩ : BufTy).Contents (Elt F) → (⟨S2048, .i32⟩ : BufTy).Contents (Elt F) → (⟨S2048, .i1⟩ : BufTy).Contents (Elt F)),
    StableHlo.nullary main_c_20 (constantI S_ 32 2048#32),
    StableHlo.unary main_c_20 main_v95 (broadcastInDim S2048 ![] bcast_S_S2048 : (⟨S_, .i32⟩ : BufTy).Contents (Elt F) → (⟨S2048, .i32⟩ : BufTy).Contents (Elt F)),
    StableHlo.binary main_v87 main_v95 main_v96 (addi : (⟨S2048, .i32⟩ : BufTy).Contents (Elt F) → (⟨S2048, .i32⟩ : BufTy).Contents (Elt F) → (⟨S2048, .i32⟩ : BufTy).Contents (Elt F)),
    StableHlo.ternary main_v94 main_v96 main_v87 main_v97 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v92 main_v98 (broadcastInDim S2048x1 ![0] bcast_S2048_S2048x1_0 : (⟨S2048, .i32⟩ : BufTy).Contents (Elt F) → (⟨S2048x1, .i32⟩ : BufTy).Contents (Elt F)),
    StableHlo.unary main_v97 main_v99 (broadcastInDim S2048x1 ![0] bcast_S2048_S2048x1_0 : (⟨S2048, .i32⟩ : BufTy).Contents (Elt F) → (⟨S2048x1, .i32⟩ : BufTy).Contents (Elt F)),
    StableHlo.binary main_v98 main_v99 main_v100 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    StableHlo.nullary main_cst_21 (constant S_ .f32 0x00000000#32),
    StableHlo.unary main_cst_21 main_v101 (broadcastInDim S2048 ![] bcast_S_S2048 : (⟨S_, .f32⟩ : BufTy).Contents (Elt F) → (⟨S2048, .f32⟩ : BufTy).Contents (Elt F)),
    StableHlo.ternary main_v86 main_v100 main_v101 main_v102 ((fun x i u => Host.scatter scatter_S16384x2048_S2048x2_S2048_n_01_01_1 (fun _ b => b) x i u) : (⟨S16384x2048, .f32⟩ : BufTy).Contents (Elt F) → (⟨S2048x2, .i32⟩ : BufTy).Contents (Elt F) → (⟨S2048, .f32⟩ : BufTy).Contents (Elt F) → (⟨S16384x2048, .f32⟩ : BufTy).Contents (Elt F)),
    StableHlo.unary main_v102 main_v103 ((transpose S2048x16384 [1, 0] · transposes_S16384x2048_S2048x16384_1_0) : (⟨S16384x2048, .f32⟩ : BufTy).Contents (Elt F) → (⟨S2048x16384, .f32⟩ : BufTy).Contents (Elt F)),
    StableHlo.nullary main_c_22 (constantI S_ 32 0#32),
    StableHlo.unary main_c_22 main_v104 (broadcastInDim S2048 ![] bcast_S_S2048 : (⟨S_, .i32⟩ : BufTy).Contents (Elt F) → (⟨S2048, .i32⟩ : BufTy).Contents (Elt F)),
    StableHlo.binary main_arg8 main_v104 main_v105 (cmpi .slt : (⟨S2048, .i32⟩ : BufTy).Contents (Elt F) → (⟨S2048, .i32⟩ : BufTy).Contents (Elt F) → (⟨S2048, .i1⟩ : BufTy).Contents (Elt F)),
    StableHlo.nullary main_c_23 (constantI S_ 32 8192#32),
    StableHlo.unary main_c_23 main_v106 (broadcastInDim S2048 ![] bcast_S_S2048 : (⟨S_, .i32⟩ : BufTy).Contents (Elt F) → (⟨S2048, .i32⟩ : BufTy).Contents (Elt F)),
    StableHlo.binary main_arg8 main_v106 main_v107 (addi : (⟨S2048, .i32⟩ : BufTy).Contents (Elt F) → (⟨S2048, .i32⟩ : BufTy).Contents (Elt F) → (⟨S2048, .i32⟩ : BufTy).Contents (Elt F)),
    StableHlo.ternary main_v105 main_v107 main_arg8 main_v108 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v108 main_v109 (broadcastInDim S2048x1 ![0] bcast_S2048_S2048x1_0 : (⟨S2048, .i32⟩ : BufTy).Contents (Elt F) → (⟨S2048x1, .i32⟩ : BufTy).Contents (Elt F)),
    StableHlo.binary main_arg0 main_v109 main_v110 ((fun x i => Host.gather gather_S8192x16384_S2048x1_S2048x16384_1_0_n_n_0_1_116384 x i) : (⟨S8192x16384, .f32⟩ : BufTy).Contents (Elt F) → (⟨S2048x1, .i32⟩ : BufTy).Contents (Elt F) → (⟨S2048x16384, .f32⟩ : BufTy).Contents (Elt F)),
    StableHlo.nullary main_v111 (iotaInDim S2048 32 0),
    StableHlo.nullary main_c_24 (constantI S_ 32 0#32),
    StableHlo.unary main_c_24 main_v112 (broadcastInDim S2048 ![] bcast_S_S2048 : (⟨S_, .i32⟩ : BufTy).Contents (Elt F) → (⟨S2048, .i32⟩ : BufTy).Contents (Elt F)),
    StableHlo.binary main_v111 main_v112 main_v113 (cmpi .slt : (⟨S2048, .i32⟩ : BufTy).Contents (Elt F) → (⟨S2048, .i32⟩ : BufTy).Contents (Elt F) → (⟨S2048, .i1⟩ : BufTy).Contents (Elt F)),
    StableHlo.nullary main_c_25 (constantI S_ 32 2048#32),
    StableHlo.unary main_c_25 main_v114 (broadcastInDim S2048 ![] bcast_S_S2048 : (⟨S_, .i32⟩ : BufTy).Contents (Elt F) → (⟨S2048, .i32⟩ : BufTy).Contents (Elt F)),
    StableHlo.binary main_v111 main_v114 main_v115 (addi : (⟨S2048, .i32⟩ : BufTy).Contents (Elt F) → (⟨S2048, .i32⟩ : BufTy).Contents (Elt F) → (⟨S2048, .i32⟩ : BufTy).Contents (Elt F)),
    StableHlo.ternary main_v113 main_v115 main_v111 main_v116 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_26 (constantI S_ 32 0#32),
    StableHlo.unary main_c_26 main_v117 (broadcastInDim S2048 ![] bcast_S_S2048 : (⟨S_, .i32⟩ : BufTy).Contents (Elt F) → (⟨S2048, .i32⟩ : BufTy).Contents (Elt F)),
    StableHlo.binary main_arg9 main_v117 main_v118 (cmpi .slt : (⟨S2048, .i32⟩ : BufTy).Contents (Elt F) → (⟨S2048, .i32⟩ : BufTy).Contents (Elt F) → (⟨S2048, .i1⟩ : BufTy).Contents (Elt F)),
    StableHlo.nullary main_c_27 (constantI S_ 32 16384#32),
    StableHlo.unary main_c_27 main_v119 (broadcastInDim S2048 ![] bcast_S_S2048 : (⟨S_, .i32⟩ : BufTy).Contents (Elt F) → (⟨S2048, .i32⟩ : BufTy).Contents (Elt F)),
    StableHlo.binary main_arg9 main_v119 main_v120 (addi : (⟨S2048, .i32⟩ : BufTy).Contents (Elt F) → (⟨S2048, .i32⟩ : BufTy).Contents (Elt F) → (⟨S2048, .i32⟩ : BufTy).Contents (Elt F)),
    StableHlo.ternary main_v118 main_v120 main_arg9 main_v121 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v116 main_v122 (broadcastInDim S2048x1 ![0] bcast_S2048_S2048x1_0 : (⟨S2048, .i32⟩ : BufTy).Contents (Elt F) → (⟨S2048x1, .i32⟩ : BufTy).Contents (Elt F)),
    StableHlo.unary main_v121 main_v123 (broadcastInDim S2048x1 ![0] bcast_S2048_S2048x1_0 : (⟨S2048, .i32⟩ : BufTy).Contents (Elt F) → (⟨S2048x1, .i32⟩ : BufTy).Contents (Elt F)),
    StableHlo.binary main_v122 main_v123 main_v124 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    StableHlo.nullary main_cst_28 (constant S_ .f32 0x00000000#32),
    StableHlo.unary main_cst_28 main_v125 (broadcastInDim S2048 ![] bcast_S_S2048 : (⟨S_, .f32⟩ : BufTy).Contents (Elt F) → (⟨S2048, .f32⟩ : BufTy).Contents (Elt F)),
    StableHlo.ternary main_v110 main_v124 main_v125 main_v126 ((fun x i u => Host.scatter scatter_S2048x16384_S2048x2_S2048_n_01_01_1 (fun _ b => b) x i u) : (⟨S2048x16384, .f32⟩ : BufTy).Contents (Elt F) → (⟨S2048x2, .i32⟩ : BufTy).Contents (Elt F) → (⟨S2048, .f32⟩ : BufTy).Contents (Elt F) → (⟨S2048x16384, .f32⟩ : BufTy).Contents (Elt F)),
    StableHlo.binary main_v126 main_arg7 main_v127 (mulf : (⟨S2048x16384, .f32⟩ : BufTy).Contents (Elt F) → (⟨S2048x16384, .f32⟩ : BufTy).Contents (Elt F) → (⟨S2048x16384, .f32⟩ : BufTy).Contents (Elt F)),
    StableHlo.binary main_v127 main_v62 main_v128 (mulf : (⟨S2048x16384, .f32⟩ : BufTy).Contents (Elt F) → (⟨S2048x16384, .f32⟩ : BufTy).Contents (Elt F) → (⟨S2048x16384, .f32⟩ : BufTy).Contents (Elt F)),
    StableHlo.nullary main_cst_29 (constant S_ .f32 0x00000000#32),
    StableHlo.binary main_v128 main_cst_29 main_v129 ((fun x v => Host.reduceAdd x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    StableHlo.binary main_v127 main_v103 main_v130 (mulf : (⟨S2048x16384, .f32⟩ : BufTy).Contents (Elt F) → (⟨S2048x16384, .f32⟩ : BufTy).Contents (Elt F) → (⟨S2048x16384, .f32⟩ : BufTy).Contents (Elt F)),
    StableHlo.nullary main_cst_30 (constant S_ .f32 0x00000000#32),
    StableHlo.binary main_v130 main_cst_30 main_v131 ((fun x v => Host.reduceAdd x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    StableHlo.binary main_v129 main_v131 main_v132 (subf : (⟨S2048, .f32⟩ : BufTy).Contents (Elt F) → (⟨S2048, .f32⟩ : BufTy).Contents (Elt F) → (⟨S2048, .f32⟩ : BufTy).Contents (Elt F)),
    StableHlo.nullary main_cst_31 (constant S_ .f32 0x42C80000#32),
    StableHlo.unary main_cst_31 main_v133 (broadcastInDim S2048 ![] bcast_S_S2048 : (⟨S_, .f32⟩ : BufTy).Contents (Elt F) → (⟨S2048, .f32⟩ : BufTy).Contents (Elt F)),
    StableHlo.binary main_v133 main_v132 main_v134 (mulf : (⟨S2048, .f32⟩ : BufTy).Contents (Elt F) → (⟨S2048, .f32⟩ : BufTy).Contents (Elt F) → (⟨S2048, .f32⟩ : BufTy).Contents (Elt F)),
    StableHlo.TRef.unary (.of main_v134) main_call0.v0 Host.negf,
    StableHlo.TRef.nullary main_call0.call0.cst (constant S_ .f32 0x00000000#32),
    StableHlo.TRef.unary main_call0.call0.cst main_call0.call0.v0 (broadcastInDim S2048 ![] bcast_S_S2048),
    StableHlo.TRef.binary main_call0.v0 main_call0.call0.v0 main_call0.call0.v1 maximumf,
    StableHlo.TRef.unary main_call0.call0.cst main_call0.call0.v2 (broadcastInDim S2048 ![] bcast_S_S2048),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S2048 ![] bcast_S_S2048),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.nullary main_cst_32 (constant S_ .f32 0x00000000#32),
    StableHlo.binary main_v135 main_cst_32 main_v136 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_33 (constant S_ .f32 0x45000000#32),
    StableHlo.binary main_v136 main_cst_33 main_v137 (Host.divf : (⟨S_, .f32⟩ : BufTy).Contents (Elt F) → (⟨S_, .f32⟩ : BufTy).Contents (Elt F) → (⟨S_, .f32⟩ : BufTy).Contents (Elt F)),
    StableHlo.unary main_v137 main_v138 (Host.negf : (⟨S_, .f32⟩ : BufTy).Contents (Elt F) → (⟨S_, .f32⟩ : BufTy).Contents (Elt F)) ]

/-- Every operation touches TensorCore references only: each builder's own lemma, in order. -/
theorem ops_sub : (ops : List (HloOp τ sig (Elt F))).Forall fun op => op.bufs ⊆ tcRefs τ sig :=
  ⟨nullary_bufs_sub .., unary_bufs_sub .., binary_bufs_sub .., reshape_bufs_sub .., unary_bufs_sub .., nullary_bufs_sub ..,
    unary_bufs_sub .., binary_bufs_sub .., binary_bufs_sub .., binary_bufs_sub .., reshape_bufs_sub .., unary_bufs_sub ..,
    unary_bufs_sub .., nullary_bufs_sub .., unary_bufs_sub .., binary_bufs_sub .., nullary_bufs_sub .., unary_bufs_sub ..,
    binary_bufs_sub .., reshape_bufs_sub .., unary_bufs_sub .., unary_bufs_sub .., nullary_bufs_sub .., unary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., nullary_bufs_sub .., unary_bufs_sub .., ternary_bufs_sub .., unary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., nullary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., nullary_bufs_sub ..,
    unary_bufs_sub .., ternary_bufs_sub .., binary_bufs_sub .., binary_bufs_sub .., nullary_bufs_sub .., binary_bufs_sub ..,
    binary_bufs_sub .., nullary_bufs_sub .., binary_bufs_sub .., binary_bufs_sub .., nullary_bufs_sub .., unary_bufs_sub ..,
    binary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., nullary_bufs_sub ..,
    binary_bufs_sub .., nullary_bufs_sub .., binary_bufs_sub .., unary_bufs_sub ..⟩

end Cert.ReferenceIdeal.Hand

end
-- ==== Proof.RefValue.lean ====
/-
  The value of the reference program: its operations composed into stage functions, and the quantity
  before the loss's last stretch read at a batch row as the specification's `refPN`.
-/
import proofs.«418976_j78056735637975_3_alg».proof.Proof.Gen.ReferenceIdeal
import proofs.«418976_j78056735637975_3_alg».proof.Proof.Spec
import proofs.«418976_j78056735637975_3_alg».proof.Proof.LibGather
import proofs.«418976_j78056735637975_3_alg».proof.Proof.LibGatherPoint
import proofs.«418976_j78056735637975_3_alg».proof.Proof.LibScatterSet
import proofs.«418976_j78056735637975_3_alg».proof.Proof.RefOps
import Idealize.ShloMosaic.Lib.StackMember
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Hand

open Idealize.ShloMosaic Idealize.ShloMosaic.ValueIdx Cert.ReferenceIdeal
open Cert.ReferenceIdeal.Facts₀ Cert.Bpr

/-! ## The stages, for any float instance

Each definition is the composition of the program's operations in program order, one `let` per operation. -/

section Stages

variable {F : FTy → Type} [FloatOps F]

/-- A vector of index words with the negative ones wrapped by the extent `n`: `select (idx < 0) (idx + n) idx`. -/
def wrapS (n : BitVec 32) (idx : IVec S2048 32) : IVec S2048 32 :=
  let c : IVec S_ 32 := constantI S_ 32 0#32
  let z : IVec S2048 32 := broadcastInDim S2048 ![] bcast_S_S2048 c
  let neg : IVec S2048 1 := cmpi .slt idx z
  let cn : IVec S_ 32 := constantI S_ 32 n
  let e : IVec S2048 32 := broadcastInDim S2048 ![] bcast_S_S2048 cn
  let up : IVec S2048 32 := addi idx e
  select neg up idx

/-- The shrunk singular values `s / (s + 40000 + 5000 · tanh lamd[:, 0])`. -/
def ssS (s : FVec F S2048 .f32) (lamd : FVec F S2048x1 .f32) : FVec F S2048 .f32 :=
  let cst : FVec F S_ .f32 := constant S_ .f32 0x471C4000#32
  let v0 : FVec F S2048 .f32 := broadcastInDim S2048 ![] bcast_S_S2048 cst
  let v1 : FVec F S2048 .f32 := addf s v0
  let v2 : FVec F S2048 .f32 := shapeCast S2048 lamd shapeCasts_S2048x1_S2048
  let v3 : FVec F S2048 .f32 := Host.tanh v2
  let cst_0 : FVec F S_ .f32 := constant S_ .f32 0x459C4000#32
  let v4 : FVec F S2048 .f32 := broadcastInDim S2048 ![] bcast_S_S2048 cst_0
  let v5 : FVec F S2048 .f32 := mulf v4 v3
  let v6 : FVec F S2048 .f32 := addf v1 v5
  Host.divf s v6

/-- The row gate `sigmoid D[:, 0]` as `1 / (1 + exp (−x))`. -/
def dgS (D : FVec F S16384x1 .f32) : FVec F S16384 .f32 :=
  let v8 : FVec F S16384 .f32 := shapeCast S16384 D shapeCasts_S16384x1_S16384
  let v9 : FVec F S16384 .f32 := Host.negf v8
  let v10 : FVec F S16384 .f32 := Host.exp v9
  let cst_1 : FVec F S_ .f32 := constant S_ .f32 0x3F800000#32
  let v11 : FVec F S16384 .f32 := broadcastInDim S16384 ![] bcast_S_S16384 cst_1
  let v12 : FVec F S16384 .f32 := addf v11 v10
  let cst_2 : FVec F S_ .f32 := constant S_ .f32 0x3F800000#32
  let v13 : FVec F S16384 .f32 := broadcastInDim S16384 ![] bcast_S_S16384 cst_2
  Host.divf v13 v12

/-- The column gate `sigmoid Db[0]` as `1 / (1 + exp (−x))`. -/
def dbgS (Db : FVec F S1x16384 .f32) : FVec F S16384 .f32 :=
  let v15 : FVec F S16384 .f32 := shapeCast S16384 Db shapeCasts_S1x16384_S16384
  let v16 : FVec F S16384 .f32 := Host.negf v15
  let v17 : FVec F S16384 .f32 := Host.exp v16
  let cst_3 : FVec F S_ .f32 := constant S_ .f32 0x3F800000#32
  let v18 : FVec F S16384 .f32 := broadcastInDim S16384 ![] bcast_S_S16384 cst_3
  let v19 : FVec F S16384 .f32 := addf v18 v17
  let cst_4 : FVec F S_ .f32 := constant S_ .f32 0x3F800000#32
  let v20 : FVec F S16384 .f32 := broadcastInDim S16384 ![] bcast_S_S16384 cst_4
  Host.divf v20 v19

/-- The interaction rows of the batch's users: `UI[user]`. -/
def rowsA (UI : FVec F S8192x16384 .f32) (user : IVec S2048 32) : FVec F S2048x16384 .f32 :=
  let v108 : IVec S2048 32 := wrapS 8192#32 user
  let v109 : IVec S2048x1 32 := broadcastInDim S2048x1 ![0] bcast_S2048_S2048x1_0 v108
  Host.gather gather_S8192x16384_S2048x1_S2048x16384_1_0_n_n_0_1_116384 UI v109

/-- The gated low-rank columns of an item list, before their diagonal is zeroed:
    `dg[:, None] * (u @ (ss[:, None] * vh[:, items])) * dbg[items][None, :]`. -/
def colsPre (u : FVec F S16384x2048 .f32) (ss : FVec F S2048 .f32) (vh : FVec F S2048x16384 .f32)
    (dg dbg : FVec F S16384 .f32) (items : IVec S2048 32) : FVec F S16384x2048 .f32 :=
  let v22 : FVec F S2048x1 .f32 := broadcastInDim S2048x1 ![0] bcast_S2048_S2048x1_0 ss
  let v27 : IVec S2048 32 := wrapS 16384#32 items
  let v28 : IVec S2048x1 32 := broadcastInDim S2048x1 ![0] bcast_S2048_S2048x1_0 v27
  let v29 : FVec F S2048x2048 .f32 := Host.gather gather_S2048x16384_S2048x1_S2048x2048_0_1_n_n_1_1_20481 vh v28
  let v30 : FVec F S2048x2048 .f32 := broadcastInDim S2048x2048 ![0, 1] bcast_S2048x1_S2048x2048_0_1 v22
  let v31 : FVec F S2048x2048 .f32 := mulf v30 v29
  let v32 : FVec F S16384x2048 .f32 := Host.dotGeneral dot_S16384x2048_S2048x2048_S16384x2048_1_0_0_1_n_n none u v31
  let v33 : FVec F S16384x1 .f32 := broadcastInDim S16384x1 ![0] bcast_S16384_S16384x1_0 dg
  let v34 : FVec F S16384x2048 .f32 := broadcastInDim S16384x2048 ![0, 1] bcast_S16384x1_S16384x2048_0_1 v33
  let v35 : FVec F S16384x2048 .f32 := mulf v34 v32
  let v40 : IVec S2048 32 := wrapS 16384#32 items
  let v41 : IVec S2048x1 32 := broadcastInDim S2048x1 ![0] bcast_S2048_S2048x1_0 v40
  let v42 : FVec F S2048 .f32 := Host.gather gather_S16384_S2048x1_S2048_n_0_n_n_0_1_1 dbg v41
  let v43 : FVec F S1x2048 .f32 := broadcastInDim S1x2048 ![1] bcast_S2048_S1x2048_1 v42
  let v44 : FVec F S16384x2048 .f32 := broadcastInDim S16384x2048 ![0, 1] bcast_S1x2048_S16384x2048_0_1 v43
  mulf v35 v44

/-- The index rows `(items r, r)` of the columns' diagonal. -/
def colIdx (items : IVec S2048 32) : IVec S2048x2 32 :=
  let v46 : IVec S2048 32 := iotaInDim S2048 32 0
  let v51 : IVec S2048 32 := wrapS 16384#32 items
  let v56 : IVec S2048 32 := wrapS 2048#32 v46
  let v57 : IVec S2048x1 32 := broadcastInDim S2048x1 ![0] bcast_S2048_S2048x1_0 v51
  let v58 : IVec S2048x1 32 := broadcastInDim S2048x1 ![0] bcast_S2048_S2048x1_0 v56
  concatenate S2048x2 1 [⟨S2048x1, v57⟩, ⟨S2048x1, v58⟩] concatenates_S2048x1_S2048x1_S2048x2_d1

/-- The update vector of a `.set(0.0)`: zero at every row. -/
def zeroUpd : FVec F S2048 .f32 :=
  let cst_12 : FVec F S_ .f32 := constant S_ .f32 0x00000000#32
  broadcastInDim S2048 ![] bcast_S_S2048 cst_12

/-- The gated low-rank columns of an item list, their diagonal entries zeroed, transposed to rows:
    `(dg[:, None] * (u @ (ss[:, None] * vh[:, items])) * dbg[items][None, :]).at[items, arange].set(0).T`. -/
def colsS (u : FVec F S16384x2048 .f32) (ss : FVec F S2048 .f32) (vh : FVec F S2048x16384 .f32)
    (dg dbg : FVec F S16384 .f32) (items : IVec S2048 32) : FVec F S2048x16384 .f32 :=
  let v45 : FVec F S16384x2048 .f32 := colsPre u ss vh dg dbg items
  let v59 : IVec S2048x2 32 := colIdx items
  let v60 : FVec F S2048 .f32 := zeroUpd
  let v61 : FVec F S16384x2048 .f32 :=
    Host.scatter scatter_S16384x2048_S2048x2_S2048_n_01_01_1 (fun _ b => b) v45 v59 v60
  transpose S2048x16384 [1, 0] v61 transposes_S16384x2048_S2048x16384_1_0

/-- The index rows `(r, items r)` of the positive entries of the interaction rows. -/
def rowIdx (items : IVec S2048 32) : IVec S2048x2 32 :=
  let v111 : IVec S2048 32 := iotaInDim S2048 32 0
  let v116 : IVec S2048 32 := wrapS 2048#32 v111
  let v121 : IVec S2048 32 := wrapS 16384#32 items
  let v122 : IVec S2048x1 32 := broadcastInDim S2048x1 ![0] bcast_S2048_S2048x1_0 v116
  let v123 : IVec S2048x1 32 := broadcastInDim S2048x1 ![0] bcast_S2048_S2048x1_0 v121
  concatenate S2048x2 1 [⟨S2048x1, v122⟩, ⟨S2048x1, v123⟩] concatenates_S2048x1_S2048x1_S2048x2_d1

/-- The positive score minus the negative score of every batch row. -/
def pn (a0 : FVec F S8192x16384 .f32) (a1 : FVec F S16384x2048 .f32) (a2 : FVec F S2048 .f32)
    (a3 : FVec F S2048x16384 .f32) (a4 : FVec F S2048x1 .f32) (a5 : FVec F S16384x1 .f32)
    (a6 : FVec F S1x16384 .f32) (a7 : FVec F S2048x16384 .f32) (a8 a9 a10 : IVec S2048 32) : FVec F S2048 .f32 :=
  let v7 : FVec F S2048 .f32 := ssS a2 a4
  let v14 : FVec F S16384 .f32 := dgS a5
  let v21 : FVec F S16384 .f32 := dbgS a6
  let v62 : FVec F S2048x16384 .f32 := colsS a1 v7 a3 v14 v21 a9
  let v103 : FVec F S2048x16384 .f32 := colsS a1 v7 a3 v14 v21 a10
  let v110 : FVec F S2048x16384 .f32 := rowsA a0 a8
  let v124 : IVec S2048x2 32 := rowIdx a9
  let v125 : FVec F S2048 .f32 := zeroUpd
  let v126 : FVec F S2048x16384 .f32 :=
    Host.scatter scatter_S2048x16384_S2048x2_S2048_n_01_01_1 (fun _ b => b) v110 v124 v125
  let v127 : FVec F S2048x16384 .f32 := mulf v126 a7
  let v128 : FVec F S2048x16384 .f32 := mulf v127 v62
  let cst_29 : FVec F S_ .f32 := constant S_ .f32 0x00000000#32
  let v129 : FVec F S2048 .f32 := Host.reduceAdd v128 cst_29 reducesTo_S2048x16384_S2048_d1 h_S_
  let v130 : FVec F S2048x16384 .f32 := mulf v127 v103
  let cst_30 : FVec F S_ .f32 := constant S_ .f32 0x00000000#32
  let v131 : FVec F S2048 .f32 := Host.reduceAdd v130 cst_30 reducesTo_S2048x16384_S2048_d1 h_S_
  subf v129 v131

/-- The loss's last stretch: `−mean (log_sigmoid (100 · x))`, the log-sigmoid through softplus. -/
def tail (x : FVec F S2048 .f32) : FVec F S_ .f32 :=
  let cst_31 : FVec F S_ .f32 := constant S_ .f32 0x42C80000#32
  let v133 : FVec F S2048 .f32 := broadcastInDim S2048 ![] bcast_S_S2048 cst_31
  let v134 : FVec F S2048 .f32 := mulf v133 x
  let l0 : FVec F S2048 .f32 := Host.negf v134
  let cst : FVec F S_ .f32 := constant S_ .f32 0x00000000#32
  let p0 : FVec F S2048 .f32 := broadcastInDim S2048 ![] bcast_S_S2048 cst
  let p1 : FVec F S2048 .f32 := maximumf l0 p0
  let p2 : FVec F S2048 .f32 := broadcastInDim S2048 ![] bcast_S_S2048 cst
  let p3 : FVec F S2048 .f32 := subf l0 p2
  let p4 : IVec S2048 1 := cmpf .une p3 p3
  let p5 : FVec F S2048 .f32 := broadcastInDim S2048 ![] bcast_S_S2048 cst
  let p6 : FVec F S2048 .f32 := addf l0 p5
  let p7 : FVec F S2048 .f32 := Host.absf p3
  let p8 : FVec F S2048 .f32 := Host.negf p7
  let p9 : FVec F S2048 .f32 := Host.exp p8
  let p10 : FVec F S2048 .f32 := Host.log1p p9
  let p11 : FVec F S2048 .f32 := addf p1 p10
  let p12 : FVec F S2048 .f32 := select p4 p6 p11
  let v135 : FVec F S2048 .f32 := Host.negf p12
  let cst_32 : FVec F S_ .f32 := constant S_ .f32 0x00000000#32
  let v136 : FVec F S_ .f32 := Host.reduceAdd v135 cst_32 reducesTo_S2048_S_d0 h_S_
  let cst_33 : FVec F S_ .f32 := constant S_ .f32 0x45000000#32
  let v137 : FVec F S_ .f32 := Host.divf v136 cst_33
  Host.negf v137

end Stages

/-! ## Words and index vectors -/

section Reads

variable {α : Type}

/-- A word that is not negative is kept by the wrap. -/
theorem wrap_word (n x : BitVec 32) (h : 0 ≤ x.toInt) :
    Scalar.select (IntOp.cmpi .slt x 0#32) (IntOp.addi x n) x = x := by
  have hs : x.slt 0#32 = false := by
    rw [Bool.eq_false_iff]
    intro hlt
    rw [BitVec.slt_iff_toInt_lt] at hlt
    have h0 : (0#32 : BitVec 32).toInt = 0 := by decide
    omega
  unfold Scalar.select IntOp.cmpi
  simp only [hs]
  exact if_neg (by decide)

/-- The wrap keeps a word that is not negative. -/
theorem wrapS_apply (n : BitVec 32) (idx : IVec S2048 32) (i : S2048.Idx) (h : 0 ≤ (idx i).toInt) :
    wrapS n idx i = idx i := wrap_word n (idx i) h

/-- A natural number below 2048 as a 32-bit word, read signed, is itself. -/
theorem toInt_ofNat_lt (r : Nat) (h : r < 2048) : (BitVec.ofNat 32 r).toInt = (r : Int) := by
  have hn : (BitVec.ofNat 32 r).toNat = r := by
    rw [BitVec.toNat_ofNat]; exact Nat.mod_eq_of_lt (by omega)
  rw [BitVec.toInt_eq_toNat_of_lt (by rw [hn]; omega), hn]

/-- The wrapped row counter, read signed at row `r`, is `r`. -/
theorem wrap_iota_toInt (r : Fin 2048) : (wrapS 2048#32 (iotaInDim S2048 32 0) (ix1 r)).toInt = (r.val : Int) := by
  have h := toInt_ofNat_lt r.val r.isLt
  rw [wrapS_apply _ _ _ (by show 0 ≤ (BitVec.ofNat 32 r.val).toInt; omega)]
  exact h

/-- A word in range, read signed, is its unsigned value. -/
theorem toInt_of_inRange {w : BitVec 32} (h : InRange w) : w.toInt = (w.toNat : Int) :=
  LibScatterSet.toInt_eq_toNat_of_nonneg w h.1

/-! ## The keep-dims broadcasts at an index -/

/-- A vector as a column: `[n] → [n, 1]`. -/
theorem bcast_col_apply {n : Nat} (h : (⟨1, ![n]⟩ : Shape).BroadcastsInDim ⟨2, ![n, 1]⟩ ![0])
    (x : (⟨1, ![n]⟩ : Shape).Idx → α) (i : Fin n) (j : Fin 1) :
    broadcastInDim ⟨2, ![n, 1]⟩ ![0] h x (ix2 i j) = x (ix1 i) :=
  broadcastInDim_apply ![0] h x (ix2 i j) (ix1 i) fun a => match a with
    | ⟨0, _⟩ => by
      show i.val = if n = 1 then 0 else i.val
      split_ifs with hn
      · have := i.isLt; omega
      · rfl

/-- A column along the columns: `[n, 1] → [n, m]`. -/
theorem bcast_cols_apply {n m : Nat} (h : (⟨2, ![n, 1]⟩ : Shape).BroadcastsInDim ⟨2, ![n, m]⟩ ![0, 1])
    (x : (⟨2, ![n, 1]⟩ : Shape).Idx → α) (i : Fin n) (j : Fin m) :
    broadcastInDim ⟨2, ![n, m]⟩ ![0, 1] h x (ix2 i j) = x (ix2 i 0) :=
  broadcastInDim_apply ![0, 1] h x (ix2 i j) (ix2 i 0) fun a => match a with
    | ⟨0, _⟩ => by
      show i.val = if n = 1 then 0 else i.val
      split_ifs with hn
      · have := i.isLt; omega
      · rfl
    | ⟨1, _⟩ => by
      show (0 : Nat) = if (1 : Nat) = 1 then 0 else j.val
      rw [if_pos rfl]

/-- A vector as a row: `[m] → [1, m]`. -/
theorem bcast_row_apply {m : Nat} (h : (⟨1, ![m]⟩ : Shape).BroadcastsInDim ⟨2, ![1, m]⟩ ![1])
    (y : (⟨1, ![m]⟩ : Shape).Idx → α) (i : Fin 1) (j : Fin m) :
    broadcastInDim ⟨2, ![1, m]⟩ ![1] h y (ix2 i j) = y (ix1 j) :=
  broadcastInDim_apply ![1] h y (ix2 i j) (ix1 j) fun a => match a with
    | ⟨0, _⟩ => by
      show j.val = if m = 1 then 0 else j.val
      split_ifs with hm
      · have := j.isLt; omega
      · rfl

/-- A row down the rows: `[1, m] → [n, m]`. -/
theorem bcast_rows_apply {n m : Nat} (h : (⟨2, ![1, m]⟩ : Shape).BroadcastsInDim ⟨2, ![n, m]⟩ ![0, 1])
    (y : (⟨2, ![1, m]⟩ : Shape).Idx → α) (i : Fin n) (j : Fin m) :
    broadcastInDim ⟨2, ![n, m]⟩ ![0, 1] h y (ix2 i j) = y (ix2 0 j) :=
  broadcastInDim_apply ![0, 1] h y (ix2 i j) (ix2 0 j) fun a => match a with
    | ⟨0, _⟩ => by
      show (0 : Nat) = if (1 : Nat) = 1 then 0 else i.val
      rw [if_pos rfl]
    | ⟨1, _⟩ => by
      show j.val = if m = 1 then 0 else j.val
      split_ifs with hm
      · have := j.isLt; omega
      · rfl

end Reads

/-! ## The columns -/

/-- The product `u @ x` at an entry: the sum over the latent coordinate. -/
theorem dot_apply (A : FVec Ideal S16384x2048 .f32) (B : FVec Ideal S2048x2048 .f32) (n : Fin 16384) (b : Fin 2048) :
    Host.dotGeneral dot_S16384x2048_S2048x2048_S16384x2048_1_0_0_1_n_n none A B (ix2 n b)
      = ∑ k : Fin 2048, A (ix2 n k) * B (ix2 k b) :=
  StackMember.dotGeneral_plain_apply none A B n b

/-- The wrapped item words as a column, at row `r`: the word itself, when every word is in range. -/
theorem wrap_col_apply (items : IVec S2048 32) (hin : ∀ i, InRange (items i)) (r : Fin 2048) (j : Fin 1) :
    broadcastInDim S2048x1 ![0] bcast_S2048_S2048x1_0 (wrapS 16384#32 items) (ix2 r j) = items (ix1 r) := by
  rw [bcast_col_apply, wrapS_apply _ _ _ (hin _).1]

/-- The gated low-rank columns before their diagonal is zeroed, at item `n` and row `b`: the row gate at `n`, times
    the contraction of `u`'s row `n` with the shrunk column of the row's item, times the column gate at that item. -/
theorem colsPre_apply (u : FVec Ideal S16384x2048 .f32) (ss : FVec Ideal S2048 .f32) (vh : FVec Ideal S2048x16384 .f32)
    (dg dbg : FVec Ideal S16384 .f32) (items : IVec S2048 32) (hin : ∀ i, InRange (items i))
    (n : Fin 16384) (b : Fin 2048) :
    colsPre u ss vh dg dbg items (ix2 n b)
      = (dg (ix1 n) * ∑ k : Fin 2048, u (ix2 n k) * (ss (ix1 k) * vh (ix2 k (itemAt items b))))
          * dbg (ix1 (itemAt items b)) := by
  have hval : (itemAt items b).val = (items (ix1 b)).toNat := itemOf_val (hin _)
  unfold colsPre
  simp only [mulf_apply]
  rw [bcast_cols_apply, bcast_col_apply, bcast_rows_apply, bcast_row_apply, dot_apply]
  rw [LibGatherPoint.gather_vec_apply _ rfl rfl rfl rfl rfl rfl rfl dbg _ b (itemAt items b)
    (by rw [wrap_col_apply items hin, hval]; exact toInt_of_inRange (hin _))]
  refine congrArg (· * dbg (ix1 (itemAt items b))) (congrArg (dg (ix1 n) * ·)
    (Finset.sum_congr rfl fun k _ => congrArg (u (ix2 n k) * ·) ?_))
  have hlt : (broadcastInDim S2048x1 ![0] bcast_S2048_S2048x1_0 (wrapS 16384#32 items) (ix2 b 0)).toNat < 16384 := by
    rw [wrap_col_apply items hin, ← hval]; exact (itemAt items b).isLt
  rw [mulf_apply, bcast_cols_apply, bcast_col_apply,
    LibGather.gather_cols_apply _ rfl rfl rfl rfl rfl rfl rfl vh _ k b (by decide) hlt]
  refine congrArg (ss (ix1 k) * ·) (congrArg vh (congrArg (ix2 k) (Fin.ext ?_)))
  show (broadcastInDim S2048x1 ![0] bcast_S2048_S2048x1_0 (wrapS 16384#32 items) (ix2 b 0)).toNat = (itemAt items b).val
  rw [wrap_col_apply items hin, hval]

/-! ## The diagonal's index rows -/

/-- The first word of index row `r` of the columns' diagonal: the item word. -/
theorem colIdx_fst (items : IVec S2048 32) (hin : ∀ i, InRange (items i)) (r : Fin 2048) :
    colIdx items (ix2 r 0) = items (ix1 r) := by
  unfold colIdx
  simp only []
  rw [concatenate_pair_apply_left (t := S2048x2) (s₁ := S2048x1) (s₂ := S2048x1) (1 : Fin 2) _ _
    concatenates_S2048x1_S2048x1_S2048x2_d1 (ix2 r (0 : Fin 2)) rfl (ix2 r (0 : Fin 1))
    (fun c => match c with | ⟨0, _⟩ => rfl | ⟨1, _⟩ => rfl)]
  exact wrap_col_apply items hin r 0

/-- The second word of index row `r` of the columns' diagonal, read signed: the row's own number. -/
theorem colIdx_snd (items : IVec S2048 32) (r : Fin 2048) : (colIdx items (ix2 r 1)).toInt = (r.val : Int) := by
  unfold colIdx
  simp only []
  rw [concatenate_pair_apply_right (t := S2048x2) (s₁ := S2048x1) (s₂ := S2048x1) (1 : Fin 2) _ _
    concatenates_S2048x1_S2048x1_S2048x2_d1 (ix2 r (1 : Fin 2)) rfl rfl (ix2 r (0 : Fin 1))
    (fun c => match c with | ⟨0, _⟩ => fun _ => rfl | ⟨1, _⟩ => fun hc => absurd rfl hc) rfl]
  rw [bcast_col_apply]
  exact wrap_iota_toInt r

/-- The first word of index row `r` of the rows' positive entries, read signed: the row's own number. -/
theorem rowIdx_fst (items : IVec S2048 32) (r : Fin 2048) : (rowIdx items (ix2 r 0)).toInt = (r.val : Int) := by
  unfold rowIdx
  simp only []
  rw [concatenate_pair_apply_left (t := S2048x2) (s₁ := S2048x1) (s₂ := S2048x1) (1 : Fin 2) _ _
    concatenates_S2048x1_S2048x1_S2048x2_d1 (ix2 r (0 : Fin 2)) rfl (ix2 r (0 : Fin 1))
    (fun c => match c with | ⟨0, _⟩ => rfl | ⟨1, _⟩ => rfl)]
  rw [bcast_col_apply]
  exact wrap_iota_toInt r

/-- The second word of index row `r` of the rows' positive entries: the item word. -/
theorem rowIdx_snd (items : IVec S2048 32) (hin : ∀ i, InRange (items i)) (r : Fin 2048) :
    rowIdx items (ix2 r 1) = items (ix1 r) := by
  unfold rowIdx
  simp only []
  rw [concatenate_pair_apply_right (t := S2048x2) (s₁ := S2048x1) (s₂ := S2048x1) (1 : Fin 2) _ _
    concatenates_S2048x1_S2048x1_S2048x2_d1 (ix2 r (1 : Fin 2)) rfl rfl (ix2 r (0 : Fin 1))
    (fun c => match c with | ⟨0, _⟩ => fun _ => rfl | ⟨1, _⟩ => fun hc => absurd rfl hc) rfl]
  exact wrap_col_apply items hin r 0

/-- The update vector of a `.set(0.0)` is the constant zero. -/
theorem zeroUpd_eq : (zeroUpd : FVec Ideal S2048 .f32) = fun _ => (0 : EReal) := by
  funext i
  show Ideal.ofBits .f32 0x00000000#32 = 0
  exact Ideal.ofBits_zero_f32

/-- Whether an item is the row's item, off the word or off the item. -/
theorem item_if (items : IVec S2048 32) (hin : ∀ i, InRange (items i)) (b : Fin 2048) (n : Fin 16384) (z x : EReal) :
    (if (items (ix1 b)).toNat = n.val then z else x) = if n = itemAt items b then z else x := by
  have hval : (itemAt items b).val = (items (ix1 b)).toNat := itemOf_val (hin _)
  refine if_congr ⟨fun h => Fin.ext ?_, fun h => ?_⟩ rfl rfl
  · rw [hval]; exact h.symm
  · rw [h, hval]

/-! ## The columns with their diagonal zeroed, and the rows with their positive entry zeroed -/

/-- The columns with their diagonal zeroed, transposed, at row `b` and item `n`: the specification's `colsT`. -/
theorem colsS_apply (u : FVec Ideal S16384x2048 .f32) (ss : FVec Ideal S2048 .f32) (vh : FVec Ideal S2048x16384 .f32)
    (dg dbg : FVec Ideal S16384 .f32) (items : IVec S2048 32) (hin : ∀ i, InRange (items i))
    (b : Fin 2048) (n : Fin 16384) :
    colsS u ss vh dg dbg items (ix2 b n)
      = colsT (fn1 dg) (fn1 dbg) (fn2 u) (fn1 ss) (fn2 vh) (itemAt items) b n := by
  unfold colsS
  simp only []
  rw [transpose_ix2_apply, zeroUpd_eq,
    LibScatterSet.scatter_set_const_col_toNat _ rfl rfl rfl rfl _ _ (0 : EReal) (fun r => items (ix1 r))
      (colIdx_fst items hin) (colIdx_snd items) (fun r => hin _) n b,
    colsPre_apply u ss vh dg dbg items hin n b, item_if items hin b n]
  rfl

/-- The rows with the entry at each row's item set to zero, at row `b` and item `n`: the specification's `rowZ`. -/
theorem rowsZ_apply (A : FVec Ideal S2048x16384 .f32) (items : IVec S2048 32) (hin : ∀ i, InRange (items i))
    (b : Fin 2048) (n : Fin 16384) :
    Host.scatter scatter_S2048x16384_S2048x2_S2048_n_01_01_1 (fun _ b => b) A (rowIdx items) zeroUpd (ix2 b n)
      = rowZ (fn2 A) (itemAt items) b n := by
  rw [zeroUpd_eq,
    LibScatterSet.scatter_set_const_row_toNat _ rfl rfl rfl rfl _ _ (0 : EReal) (fun r => items (ix1 r))
      (rowIdx_fst items) (rowIdx_snd items hin) (fun r => hin _) b n,
    item_if items hin b n]
  rfl

/-! ## The row sums, and the quantity before the last stretch -/

/-- A row reduction from the zero initial value, at row `b`: the sum over the items. -/
theorem rowSum_apply (x : FVec Ideal S2048x16384 .f32) (b : Fin 2048) :
    Host.reduceAdd x (constant (F := Ideal) S_ .f32 0x00000000#32) reducesTo_S2048x16384_S2048_d1 h_S_ (ix1 b)
      = ∑ n : Fin 16384, x (ix2 b n) := by
  have hR : S2048x16384.Reduces [1] S2048 := by decide
  show Ideal.hostReduceAdd reducesTo_S2048x16384_S2048_d1 x (Ideal.ofBits .f32 0x00000000#32) (ix1 b) = _
  rw [Ideal.hostReduceAdd_single _ hR, Ideal.ofBits_zero_f32, zero_add]
  refine Finset.sum_congr rfl fun n _ => congrArg x (funext fun a => Fin.ext ?_)
  match a with
  | ⟨0, _⟩ => rfl
  | ⟨1, _⟩ => rfl

/-- The positive score minus the negative score at row `b`, when every positive and negative item word is in range:
    the specification's `refPN` over the interaction rows, the dropout scale, the two gates, the two factor matrices
    and the shrunk singular values. -/
theorem pn_apply (a0 : FVec Ideal S8192x16384 .f32) (a1 : FVec Ideal S16384x2048 .f32) (a2 : FVec Ideal S2048 .f32)
    (a3 : FVec Ideal S2048x16384 .f32) (a4 : FVec Ideal S2048x1 .f32) (a5 : FVec Ideal S16384x1 .f32)
    (a6 : FVec Ideal S1x16384 .f32) (a7 : FVec Ideal S2048x16384 .f32) (a8 a9 a10 : IVec S2048 32)
    (hp : ∀ i, InRange (a9 i)) (hq : ∀ i, InRange (a10 i)) (b : Fin 2048) :
    pn a0 a1 a2 a3 a4 a5 a6 a7 a8 a9 a10 (ix1 b)
      = refPN (fn2 (rowsA a0 a8)) (fn2 a7) (fn1 (dgS a5)) (fn1 (dbgS a6)) (fn2 a1) (fn1 (ssS a2 a4)) (fn2 a3)
          (itemAt a9) (itemAt a10) b := by
  unfold pn
  simp only [subf_apply]
  rw [rowSum_apply, rowSum_apply]
  unfold refPN refRow
  refine congrArg₂ (· - ·) (Finset.sum_congr rfl fun n _ => ?_) (Finset.sum_congr rfl fun n _ => ?_)
  · rw [mulf_apply, mulf_apply, rowsZ_apply _ a9 hp, colsS_apply _ _ _ _ _ a9 hp]
  · rw [mulf_apply, mulf_apply, rowsZ_apply _ a9 hp, colsS_apply _ _ _ _ _ a10 hq]

/-! ## The program's result is the last stretch of that quantity -/

/-- Two columns side by side: the concatenation the index rows are built by, as a function of the two columns. -/
def catPair {α : Type} (a b : S2048x1.Idx → α) : S2048x2.Idx → α :=
  concatenate S2048x2 1 [⟨S2048x1, a⟩, ⟨S2048x1, b⟩] concatenates_S2048x1_S2048x1_S2048x2_d1

/-- The concatenation of two columns along the second axis is `catPair` of them. -/
theorem catPair_eq {α : Type} (a b : S2048x1.Idx → α) (h : Shape.Concatenates [S2048x1, S2048x1] S2048x2 1) :
    concatenate S2048x2 1 [⟨S2048x1, a⟩, ⟨S2048x1, b⟩] h = catPair a b := rfl

open Idealize.ShloMosaic.StableHlo Idealize.ShloMosaic.TcCoe in
set_option maxRecDepth 8192 in
set_option maxHeartbeats 8000000 in
/-- After the program's operations, from any contents `V`, the result buffer holds the last stretch applied to the
    positive-minus-negative scores of the argument buffers' contents. -/
theorem after_v138 {F : FTy → Type} [FloatOps F] (V : Valuation τ sig (Elt F)) :
    StableHlo.after (ops (F := F)) V main_v138
      = tail (pn (V main_arg0) (V main_arg1) (V main_arg2) (V main_arg3) (V main_arg4) (V main_arg5) (V main_arg6)
          (V main_arg7) (V main_arg8) (V main_arg9) (V main_arg10)) := by
  simp (disch := decide) only [after_cons, after_nil, catPair_eq,
    nullary_result', unary_result', binary_result', ternary_result', reshape_result',
    nullary_result_ne', unary_result_ne', binary_result_ne', ternary_result_ne', reshape_result_ne']
  rfl

end Cert.ReferenceIdeal.Hand

end
-- ==== Proof.Gates.lean ====
/-
  The two scalar gates of the loss, read at one entry as extended reals: the scaled singular value
  s / (s + 40000 + 5000 tanh l) and the logistic 1 / (1 + e^(-x)). Both are reals at real arguments (the first when its
  denominator is not zero), and the printed chains of host operations that compute them read, at one index, as these
  entrywise functions of the argument arrays.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«418976_j78056735637975_3_alg».proof.Proof.Spec

noncomputable section

namespace Cert.Bpr

open Idealize.ShloMosaic Idealize.ShloMosaic.ValueIdx

/-- The denominator of the scaled singular value at one entry: (s + 40000) + 5000 tanh l, the two constants as their
    f32 patterns. -/
def ssDen (s l : EReal) : EReal :=
  (s + Ideal.ofBits .f32 0x471C4000#32) + Ideal.ofBits .f32 0x459C4000#32 * Ideal.tanh l

/-- The scaled singular value at one entry: s / ((s + 40000) + 5000 tanh l). -/
def ssAt (s l : EReal) : EReal := Ideal.div s (ssDen s l)

/-- The logistic at one entry, as the chain computes it: 1 / (1 + e^(-x)), the ones as their f32 pattern. -/
def sigAt (x : EReal) : EReal :=
  Ideal.div (Ideal.ofBits .f32 0x3F800000#32) (Ideal.ofBits .f32 0x3F800000#32 + Ideal.exp (-x))

/-- The f32 pattern 0x471C4000 is the real 40000. -/
theorem ofBits_40000 : Ideal.ofBits .f32 0x471C4000#32 = ((40000 : ℝ) : EReal) := by
  simp [Ideal.ofBits, Ideal.ieee, -EReal.coe_mul]; norm_num

/-- The f32 pattern 0x459C4000 is the real 5000. -/
theorem ofBits_5000 : Ideal.ofBits .f32 0x459C4000#32 = ((5000 : ℝ) : EReal) := by
  simp [Ideal.ofBits, Ideal.ieee, -EReal.coe_mul]; norm_num

/-- The denominator at real arguments is a real. -/
theorem ssDen_real {s l : EReal} (hs : ∃ r : ℝ, s = r) (hl : ∃ r : ℝ, l = r) : ∃ r : ℝ, ssDen s l = r := by
  obtain ⟨r, rfl⟩ := hs
  obtain ⟨t, rfl⟩ := hl
  refine ⟨(r + 40000) + 5000 * Real.tanh t, ?_⟩
  rw [ssDen, ofBits_40000, ofBits_5000, Ideal.tanh_coe, ← EReal.coe_add, ← EReal.coe_mul, ← EReal.coe_add]

/-- The scaled singular value at real arguments and a denominator that is not zero is a real. -/
theorem ssAt_real {s l : EReal} (hs : ∃ r : ℝ, s = r) (hl : ∃ r : ℝ, l = r) (hden : ssDen s l ≠ 0) :
    ∃ r : ℝ, ssAt s l = r := by
  obtain ⟨d, hd⟩ := ssDen_real hs hl
  obtain ⟨r, rfl⟩ := hs
  have hd0 : d ≠ 0 := fun e => hden (by rw [hd, e, EReal.coe_zero])
  refine ⟨r * (1 / d), ?_⟩
  rw [ssAt, hd, Ideal.div_coe hd0, ← EReal.coe_mul]

/-- The logistic of the real r is the real (1 + e^(-r))⁻¹. -/
theorem sigAt_coe (r : ℝ) : sigAt (r : EReal) = (((1 + Real.exp (-r))⁻¹ : ℝ) : EReal) := by
  rw [← Ideal.logistic_coe, sigAt, Ideal.ofBits_one_f32, Ideal.logistic]

/-- The logistic of a real is a real: its denominator 1 + e^(-x) is positive. -/
theorem sigAt_real {x : EReal} (hx : ∃ r : ℝ, x = r) : ∃ r : ℝ, sigAt x = r := by
  obtain ⟨r, rfl⟩ := hx
  exact ⟨_, sigAt_coe r⟩

/-- The printed chain of the denominator (add 40000, reshape, tanh, times 5000, add) read at one index. -/
theorem ssDenChain_apply (s : FVec Ideal ⟨1, ![2048]⟩ .f32) (l : FVec Ideal ⟨2, ![2048, 1]⟩ .f32)
    (hb : (⟨0, ![]⟩ : Shape).BroadcastsInDim ⟨1, ![2048]⟩ ![])
    (hc : (⟨2, ![2048, 1]⟩ : Shape).ShapeCasts ⟨1, ![2048]⟩) (k : Fin 2048) :
    addf (addf s (broadcastInDim ⟨1, ![2048]⟩ ![] hb (constant (F := Ideal) ⟨0, ![]⟩ .f32 0x471C4000#32)))
        (mulf (broadcastInDim ⟨1, ![2048]⟩ ![] hb (constant (F := Ideal) ⟨0, ![]⟩ .f32 0x459C4000#32))
          (Host.tanh (shapeCast ⟨1, ![2048]⟩ l hc))) (ix1 k)
      = ssDen (s (ix1 k)) (l (ix2 k 0)) := by
  have hl : shapeCast ⟨1, ![2048]⟩ l hc (ix1 k) = l (ix2 k 0) :=
    shapeCast_apply l hc _ _ (by
      rw [Shape.rowMajor_val_two, Shape.rowMajor_val_one]
      show k.val * 1 + 0 = k.val
      omega)
  show (s (ix1 k) + broadcastInDim ⟨1, ![2048]⟩ ![] hb (constant (F := Ideal) ⟨0, ![]⟩ .f32 0x471C4000#32) (ix1 k))
      + broadcastInDim ⟨1, ![2048]⟩ ![] hb (constant (F := Ideal) ⟨0, ![]⟩ .f32 0x459C4000#32) (ix1 k)
        * Ideal.tanh (shapeCast ⟨1, ![2048]⟩ l hc (ix1 k)) = _
  rw [broadcastInDim_scalar_apply, broadcastInDim_scalar_apply, constant_apply, constant_apply, hl, ssDen]

/-- The printed chain of seven operations that computes the scaled singular values, read at one index. -/
theorem ssChain_apply (s : FVec Ideal ⟨1, ![2048]⟩ .f32) (l : FVec Ideal ⟨2, ![2048, 1]⟩ .f32)
    (hb : (⟨0, ![]⟩ : Shape).BroadcastsInDim ⟨1, ![2048]⟩ ![])
    (hc : (⟨2, ![2048, 1]⟩ : Shape).ShapeCasts ⟨1, ![2048]⟩) (k : Fin 2048) :
    Host.divf s
        (addf (addf s (broadcastInDim ⟨1, ![2048]⟩ ![] hb (constant (F := Ideal) ⟨0, ![]⟩ .f32 0x471C4000#32)))
          (mulf (broadcastInDim ⟨1, ![2048]⟩ ![] hb (constant (F := Ideal) ⟨0, ![]⟩ .f32 0x459C4000#32))
            (Host.tanh (shapeCast ⟨1, ![2048]⟩ l hc)))) (ix1 k)
      = ssAt (s (ix1 k)) (l (ix2 k 0)) := by
  rw [hostDivf_apply, ssDenChain_apply, ssAt]

/-- The printed logistic chain over a column f32[16384,1] (reshape, negate, exponential, add 1, divide into 1), read at
    one index. -/
theorem sigChain_col_apply (x : FVec Ideal ⟨2, ![16384, 1]⟩ .f32)
    (hb : (⟨0, ![]⟩ : Shape).BroadcastsInDim ⟨1, ![16384]⟩ ![])
    (hc : (⟨2, ![16384, 1]⟩ : Shape).ShapeCasts ⟨1, ![16384]⟩) (n : Fin 16384) :
    Host.divf (broadcastInDim ⟨1, ![16384]⟩ ![] hb (constant (F := Ideal) ⟨0, ![]⟩ .f32 0x3F800000#32))
        (addf (broadcastInDim ⟨1, ![16384]⟩ ![] hb (constant (F := Ideal) ⟨0, ![]⟩ .f32 0x3F800000#32))
          (Host.exp (Host.negf (shapeCast ⟨1, ![16384]⟩ x hc)))) (ix1 n)
      = sigAt (x (ix2 n 0)) := by
  have hx : shapeCast ⟨1, ![16384]⟩ x hc (ix1 n) = x (ix2 n 0) :=
    shapeCast_apply x hc _ _ (by
      rw [Shape.rowMajor_val_two, Shape.rowMajor_val_one]
      show n.val * 1 + 0 = n.val
      omega)
  show Ideal.div (broadcastInDim ⟨1, ![16384]⟩ ![] hb (constant (F := Ideal) ⟨0, ![]⟩ .f32 0x3F800000#32) (ix1 n))
      (broadcastInDim ⟨1, ![16384]⟩ ![] hb (constant (F := Ideal) ⟨0, ![]⟩ .f32 0x3F800000#32) (ix1 n)
        + Ideal.exp (-(shapeCast ⟨1, ![16384]⟩ x hc (ix1 n)))) = _
  rw [broadcastInDim_scalar_apply, constant_apply, hx, sigAt]

/-- The printed logistic chain over a row f32[1,16384], read at one index. -/
theorem sigChain_row_apply (x : FVec Ideal ⟨2, ![1, 16384]⟩ .f32)
    (hb : (⟨0, ![]⟩ : Shape).BroadcastsInDim ⟨1, ![16384]⟩ ![])
    (hc : (⟨2, ![1, 16384]⟩ : Shape).ShapeCasts ⟨1, ![16384]⟩) (n : Fin 16384) :
    Host.divf (broadcastInDim ⟨1, ![16384]⟩ ![] hb (constant (F := Ideal) ⟨0, ![]⟩ .f32 0x3F800000#32))
        (addf (broadcastInDim ⟨1, ![16384]⟩ ![] hb (constant (F := Ideal) ⟨0, ![]⟩ .f32 0x3F800000#32))
          (Host.exp (Host.negf (shapeCast ⟨1, ![16384]⟩ x hc)))) (ix1 n)
      = sigAt (x (ix2 0 n)) := by
  have hx : shapeCast ⟨1, ![16384]⟩ x hc (ix1 n) = x (ix2 0 n) :=
    shapeCast_apply x hc _ _ (by
      rw [Shape.rowMajor_val_two, Shape.rowMajor_val_one]
      show 0 * 16384 + n.val = n.val
      omega)
  show Ideal.div (broadcastInDim ⟨1, ![16384]⟩ ![] hb (constant (F := Ideal) ⟨0, ![]⟩ .f32 0x3F800000#32) (ix1 n))
      (broadcastInDim ⟨1, ![16384]⟩ ![] hb (constant (F := Ideal) ⟨0, ![]⟩ .f32 0x3F800000#32) (ix1 n)
        + Ideal.exp (-(shapeCast ⟨1, ![16384]⟩ x hc (ix1 n)))) = _
  rw [broadcastInDim_scalar_apply, constant_apply, hx, sigAt]

end Cert.Bpr

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.PreFacts.lean ====
/-
  The printed precondition read back: on inputs it admits, every float entry is a real, both item index vectors lie in
  [0, 16384), and every scaled singular value s / (s + 40000 + 5000 tanh l) is a real.
-/
import proofs.«418976_j78056735637975_3_alg».proof.Pre_finite_inputs
import proofs.«418976_j78056735637975_3_alg».proof.Proof.Gates
import proofs.«418976_j78056735637975_3_alg».proof.Proof.LibReal
import Idealize.ShloMosaic.Lib.StableHlo.Predicate
import Idealize.ShloMosaic.Lib.ReduceAll

noncomputable section

namespace Cert.Bpr

open Idealize.ShloMosaic Idealize.ShloMosaic.ValueIdx
open Cert.Pre_finite_inputs (S8192x16384 S16384x2048 S2048 S2048x16384 S2048x1 S16384x1 S1x16384 S_)

/-- What the precondition gives the algebra, over the eleven argument arrays read as extended reals and words. -/
structure PreOK (a0 : FVec Ideal S8192x16384 .f32) (a1 : FVec Ideal S16384x2048 .f32) (a2 : FVec Ideal S2048 .f32)
    (a3 : FVec Ideal S2048x16384 .f32) (a4 : FVec Ideal S2048x1 .f32) (a5 : FVec Ideal S16384x1 .f32)
    (a6 : FVec Ideal S1x16384 .f32) (a7 : FVec Ideal S2048x16384 .f32) (a8 a9 a10 : IVec S2048 32) : Prop where
  real0 : ∀ i, ∃ r : ℝ, a0 i = (r : EReal)
  real1 : ∀ i, ∃ r : ℝ, a1 i = (r : EReal)
  real2 : ∀ i, ∃ r : ℝ, a2 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  pos : ∀ i, InRange (a9 i)
  neg : ∀ i, InRange (a10 i)
  ss : ∀ k : Fin NB, ∃ r : ℝ, ssAt (a2 (ix1 k)) (a4 (ix2 k 0)) = (r : EReal)

variable [Cert.Pre_finite_inputs.Facts]

/-- The printed precondition, all ones, gives `PreOK`. -/
theorem preOK_of_pre (a0 : FVec Ideal S8192x16384 .f32) (a1 : FVec Ideal S16384x2048 .f32) (a2 : FVec Ideal S2048 .f32)
    (a3 : FVec Ideal S2048x16384 .f32) (a4 : FVec Ideal S2048x1 .f32) (a5 : FVec Ideal S16384x1 .f32)
    (a6 : FVec Ideal S1x16384 .f32) (a7 : FVec Ideal S2048x16384 .f32) (a8 a9 a10 : IVec S2048 32)
    (h : Cert.Pre_finite_inputs.fn (F := Ideal) a0 a1 a2 a3 a4 a5 a6 a7 a8 a9 a10 = (fun _ => 1#1)) :
    PreOK a0 a1 a2 a3 a4 a5 a6 a7 a8 a9 a10 := by
  have h0 := congrFun h ix0
  simp only [Cert.Pre_finite_inputs.fn, Cert.Pre_finite_inputs.fn_part1, Cert.Pre_finite_inputs.fn_part2,
    Cert.Pre_finite_inputs.fn_part3] at h0
  obtain ⟨h54, h64⟩ := IntOp.andi_eq_one.1 h0
  obtain ⟨h50, h53⟩ := IntOp.andi_eq_one.1 h54
  obtain ⟨h46, h49⟩ := IntOp.andi_eq_one.1 h50
  obtain ⟨h42, h45⟩ := IntOp.andi_eq_one.1 h46
  obtain ⟨h38, h41⟩ := IntOp.andi_eq_one.1 h42
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  have hrange : ∀ (x : IVec S2048 32) (hb : S_.BroadcastsInDim S2048 ![]) (hr : S2048.ReducesTo [0] S_)
      (hu : 0 < S_.numel),
      Host.reduce IntOp.andi (cmpi .sge x (broadcastInDim S2048 ![] hb (constantI S_ 32 0#32)))
          (constantI S_ 1 1#1) hr hu ix0 = 1#1 →
      Host.reduce IntOp.andi (cmpi .slt x (broadcastInDim S2048 ![] hb (constantI S_ 32 16384#32)))
          (constantI S_ 1 1#1) hr hu ix0 = 1#1 →
      ∀ i, InRange (x i) := by
    intro x hb hr hu hge hlt i
    have h1 := Host.reduce_andi_all _ _ hr hu ix0 hge i
    have h2 := Host.reduce_andi_all _ _ hr hu ix0 hlt i
    have h1' : IntOp.cmpi .sge (x i) (broadcastInDim S2048 ![] hb (constantI S_ 32 0#32) i) = 1#1 := h1
    have h2' : IntOp.cmpi .slt (x i) (broadcastInDim S2048 ![] hb (constantI S_ 32 16384#32) i) = 1#1 := h2
    rw [broadcastInDim_scalar_apply] at h1' h2'
    have h1'' := IntOp.cmpi_sge.1 h1'
    have h2'' := IntOp.cmpi_slt.1 h2'
    refine ⟨?_, ?_⟩
    · have e0 : (constantI S_ 32 0#32 ix0).toInt = 0 := by decide
      rw [e0] at h1''
      exact h1''
    · have e1 : (constantI S_ 32 16384#32 ix0).toInt = 16384 := by decide
      rw [e1] at h2''
      exact h2''
  refine ⟨LibReal.isReal_of_all a0 _ _ _ h3, LibReal.isReal_of_all a1 _ _ _ h7, LibReal.isReal_of_all a2 _ _ _ h12,
    LibReal.isReal_of_all a3 _ _ _ h17, LibReal.isReal_of_all a4 _ _ _ h22, LibReal.isReal_of_all a5 _ _ _ h27,
    LibReal.isReal_of_all a6 _ _ _ h32, LibReal.isReal_of_all a7 _ _ _ h37, hrange a9 _ _ _ h41 h45,
    hrange a10 _ _ _ h49 h53, ?_⟩
  intro k
  have hr2 : ∀ i, ∃ r : ℝ, a2 i = (r : EReal) := LibReal.isReal_of_all a2 _ _ _ h12
  have hr4 : ∀ i, ∃ r : ℝ, a4 i = (r : EReal) := LibReal.isReal_of_all a4 _ _ _ h22
  refine ssAt_real (hr2 _) (hr4 _) ?_
  have h1 := Host.reduce_andi_all _ _ _ _ ix0 h64 (ix1 k)
  rw [cmpf_apply, ssDenChain_apply, broadcastInDim_scalar_apply, constant_apply, Ideal.ofBits_zero_f32] at h1
  intro e
  rw [e] at h1
  have h2 : Ideal.cmp .une (0 : EReal) 0 = 1#1 := h1
  simp [Ideal.cmp] at h2

end Cert.Bpr

end
-- ==== Proof.LibSums.lean ====
/-
  Sums over the index set of a literal shape, split by coordinates, and the counting facts a masked mean needs.

  * A sum over the indices of a rank-3 or rank-4 shape is the iterated sum over its coordinates.
  * The coercion of a finite sum of reals to the extended reals is the sum of the coercions.
  * Summing, as 32-bit words, the widened bits of a mask over ALL of its indices counts the set bits, as long as the
    number of indices is below 2^32; read as a signed integer the count is itself when it is below 2^31.
  * An or-fold of one-bit words is 1 exactly when some word is 1; a max-fold, from the bottom element, of the
    extended reals 1 (bit set) and 0 (bit clear) is above zero exactly when some bit is set.
-/
import Idealize.ShloMosaic.Lib.ValueIdx
import Idealize.ShloMosaic.Lib.StableHlo.Predicate
import Idealize.ShloMosaic.PureOps.Reduce
import Idealize.ShloMosaic.PureOps.Ideal.Laws

noncomputable section

open scoped BigOperators

namespace Cert.LibSums

open Idealize.ShloMosaic Idealize.ShloMosaic.ValueIdx

/-! ## Sums by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The number of indices of a rank-4 shape is the product of its extents. -/
theorem card_idx4 {n0 n1 n2 n3 : Nat} : Fintype.card (⟨4, ![n0, n1, n2, n3]⟩ : Shape).Idx = n0 * n1 * n2 * n3 := by
  rw [Fintype.card_congr (idxEquiv4 (n0 := n0) (n1 := n1) (n2 := n2) (n3 := n3))]
  simp [Fintype.card_prod, Nat.mul_assoc]

/-! ## Reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Counting the set bits of a mask -/

/-- Summing the widened bits of a mask over all its indices (a reduce over every axis, to rank 0) counts the set bits,
    when the mask has fewer than 2^32 indices. -/
theorem toNat_reduce_count_total {s : Shape} {axes : List (Fin s.rank)} (mask : IVec s 1) (hw : 1 < 32)
    (h : s.ReducesTo axes ⟨0, ![]⟩) {u : Shape} (hu : 0 < u.numel) (hcard : Fintype.card s.Idx < 2 ^ 32)
    (j : (⟨0, ![]⟩ : Shape).Idx) :
    (Host.reduce IntOp.addi (extui 32 mask hw) (constantI u 32 0#32) h hu j).toNat
      = (Finset.univ.filter (fun i : s.Idx => mask i = 1#1)).card := by
  classical
  rw [Host.reduce_eq_fold]
  have hall : (Finset.univ.filter fun i : s.Idx => h.drop i = j) = Finset.univ :=
    Finset.filter_true_of_mem fun i _ => funext fun b => b.elim0
  rw [hall]
  have hval : ∀ i, (extui 32 mask hw i).toNat = if mask i = 1#1 then 1 else 0 :=
    fun i => StableHlo.Predicate.toNat_setWidth_bit (mask i)
  have hsum : ∑ i : s.Idx, (extui 32 mask hw i).toNat = (Finset.univ.filter (fun i : s.Idx => mask i = 1#1)).card := by
    rw [Finset.card_filter]; exact Finset.sum_congr rfl fun i _ => hval i
  show (Finset.fold IntOp.addi 0#32 (extui 32 mask hw) Finset.univ).toNat = _
  rw [StableHlo.Predicate.toNat_fold_addi _ _ (by
    rw [hsum]; exact lt_of_le_of_lt (Finset.card_le_univ _) (by simpa using hcard)), hsum]

/-- A 32-bit word whose unsigned value is a count below 2^31 reads, as a signed integer cast to the reals, as that
    count. -/
theorem toInt_cast_of_toNat {w : BitVec 32} {n : ℕ} (hw : w.toNat = n) (hn : n < 2 ^ 31) : ((w.toInt : ℝ)) = (n : ℝ) := by
  rw [StableHlo.Predicate.toInt_eq_toNat_of_lt (by omega), hw]; simp

/-- A widened bit read as a signed integer, as a real: 1 when the bit is set, 0 otherwise. -/
theorem bit_toInt (b : BitVec 1) : (((b.setWidth 32).toInt : ℝ)) = if b = 1#1 then 1 else 0 := by
  rcases BitVec.eq_zero_or_eq_one b with rfl | rfl
  · simp
  · simp

/-! ## "Some bit is set" -/

/-- An or-fold of one-bit words from 0 is 1 exactly when some word is 1. -/
theorem fold_ori_eq_one {ι : Type*} (S : Finset ι) (f : ι → BitVec 1) :
    S.fold IntOp.ori 0#1 f = 1#1 ↔ ∃ i ∈ S, f i = 1#1 := by
  classical
  induction S using Finset.induction_on with
  | empty => simp
  | insert a S ha ih =>
    rw [Finset.fold_insert ha]
    have hor : ∀ x y : BitVec 1, IntOp.ori x y = 1#1 ↔ x = 1#1 ∨ y = 1#1 := by decide
    rw [hor, ih]
    constructor
    · rintro (h | ⟨i, hi, h⟩)
      · exact ⟨a, Finset.mem_insert_self _ _, h⟩
      · exact ⟨i, Finset.mem_insert_of_mem hi, h⟩
    · rintro ⟨i, hi, h⟩
      rcases Finset.mem_insert.1 hi with rfl | hi
      · exact Or.inl h
      · exact Or.inr ⟨i, hi, h⟩

/-- A max-fold from the bottom element of the extended reals "1 where the bit is set, 0 where it is clear" is above
    zero exactly when some bit is set. -/
theorem zero_lt_fold_max {ι : Type*} (S : Finset ι) (f : ι → BitVec 1) :
    (0 : EReal) < S.fold max (⊥ : EReal) (fun i => if f i = 1#1 then (1 : EReal) else 0) ↔ ∃ i ∈ S, f i = 1#1 := by
  classical
  induction S using Finset.induction_on with
  | empty => simp
  | insert a S ha ih =>
    rw [Finset.fold_insert ha, lt_max_iff, ih]
    constructor
    · rintro (h | ⟨i, hi, h⟩)
      · refine ⟨a, Finset.mem_insert_self _ _, ?_⟩
        by_contra hne
        rw [if_neg hne] at h
        exact lt_irrefl _ h
      · exact ⟨i, Finset.mem_insert_of_mem hi, h⟩
    · rintro ⟨i, hi, h⟩
      rcases Finset.mem_insert.1 hi with rfl | hi
      · left; rw [if_pos h]; exact zero_lt_one
      · exact Or.inr ⟨i, hi, h⟩

end Cert.LibSums

end
-- ==== Proof.Math.lean ====
/-
  The algebra joining the two sides of the loss: the kernel's quantity (one contraction with `U`, then two
  contractions over the latent coordinate and a correction) equals the reference's (two contractions over the items),
  for arrays of real numbers.

  Fix a row; write `z n = [n ≠ p]` and, for an item `t`, `S t n = ∑ k, U n k * (σ k * V k t)`.  The reference's score against
  the columns of `t` is `T t = ∑ n, (z n * a n * d n) * ([n ≠ t] * g n * S t n * h t)`.  The kernel's contraction is
  `Gf k = ∑ n, (z n * a n * d n * g n) * U n k`, and exchanging the two sums gives
  `h t * ∑ k, (V k t * σ k) * Gf k = ∑ n, (z n * a n * d n) * (g n * S t n * h t)`: this is `T t` plus the single term `n = t`.
  For `t = p` that term carries `z p = 0`; for `t = q` it is the kernel's correction.  So the kernel's positive score is
  `T p`, its negative score is `T q`, and the two quantities agree.

  The identity is proved over the reals, for arbitrary finite index types, and carried to the extended reals by
  pulling the coercion out of products, sums, differences and the zeroing conditionals.
-/
import proofs.«418976_j78056735637975_3_alg».proof.Proof.Spec
import proofs.«418976_j78056735637975_3_alg».proof.Proof.LibSums
import Mathlib.Data.EReal.Operations
import Mathlib.Algebra.BigOperators.Ring.Finset
import Mathlib.Algebra.BigOperators.Group.Finset.Sigma
import Mathlib.Algebra.BigOperators.Group.Finset.Piecewise
import Mathlib.Tactic.Ring

noncomputable section

open scoped BigOperators

namespace Cert.Bpr

section RealIdentity

variable {ι κ : Type*} [Fintype ι] [Fintype κ] [DecidableEq ι]

/-- A sum with the term of one index replaced by zero is the whole sum less that term. -/
theorem sum_ite_eq_zero_else (t : ι) (c : ι → ℝ) : ∑ n, (if n = t then 0 else c n) = (∑ n, c n) - c t := by
  have hc : ∀ n, (if n = t then 0 else c n) = c n - (if n = t then c n else 0) := by
    intro n; split_ifs <;> simp
  simp only [hc, Finset.sum_sub_distrib, Finset.sum_ite_eq', Finset.mem_univ, if_true]

/-- The zeroed, dropped-out row against the gated low-rank column of an item `t` (diagonal entry zeroed) is the
    contraction over the latent coordinate of the row's one contraction with `U`, less the term of the item `t`. -/
theorem score_real (a d g h : ι → ℝ) (U : ι → κ → ℝ) (σ : κ → ℝ) (V : κ → ι → ℝ) (p t : ι) :
    ∑ n, ((if n = p then 0 else a n) * d n) * (if n = t then 0 else (g n * ∑ k, U n k * (σ k * V k t)) * h t)
      = h t * (∑ k, (V k t * σ k) * ∑ n, (if n = p then 0 else (a n * d n) * g n) * U n k)
        - ((((if t = p then 0 else a t) * d t) * g t) * h t) * ∑ k, U t k * (V k t * σ k) := by
  have h1 : ∀ n, ((if n = p then 0 else a n) * d n) * (if n = t then 0 else (g n * ∑ k, U n k * (σ k * V k t)) * h t)
      = if n = t then 0 else ((if n = p then 0 else a n) * d n) * ((g n * ∑ k, U n k * (σ k * V k t)) * h t) := by
    intro n; by_cases hn : n = t <;> simp [hn]
  have h2 : h t * (∑ k, (V k t * σ k) * ∑ n, (if n = p then 0 else (a n * d n) * g n) * U n k)
      = ∑ n, ((if n = p then 0 else a n) * d n) * ((g n * ∑ k, U n k * (σ k * V k t)) * h t) :=
    calc h t * (∑ k, (V k t * σ k) * ∑ n, (if n = p then 0 else (a n * d n) * g n) * U n k)
        = ∑ k, ∑ n, h t * ((V k t * σ k) * ((if n = p then 0 else (a n * d n) * g n) * U n k)) := by
          simp only [Finset.mul_sum]
      _ = ∑ n, ∑ k, h t * ((V k t * σ k) * ((if n = p then 0 else (a n * d n) * g n) * U n k)) := Finset.sum_comm
      _ = ∑ n, ((if n = p then 0 else a n) * d n) * ((g n * ∑ k, U n k * (σ k * V k t)) * h t) := by
          refine Finset.sum_congr rfl fun n _ => ?_
          simp only [Finset.mul_sum, Finset.sum_mul]
          refine Finset.sum_congr rfl fun k _ => ?_
          split_ifs <;> ring
  have h3 : (∑ k, U t k * (σ k * V k t)) = ∑ k, U t k * (V k t * σ k) :=
    Finset.sum_congr rfl fun k _ => by ring
  rw [Finset.sum_congr rfl fun n _ => h1 n, sum_ite_eq_zero_else, h2, h3]
  ring

/-- The coercion of a real with a zeroing conditional in front of it. -/
theorem coe_ite_zero (c : Prop) [Decidable c] (x : ℝ) :
    (if c then (0 : EReal) else (x : EReal)) = ((if c then 0 else x : ℝ) : EReal) := by
  split_ifs <;> simp

/-- The kernel's quantity equals the reference's, for one row of real numbers over arbitrary finite index types,
    read in the extended reals. -/
theorem pn_coe (a d g h : ι → ℝ) (U : ι → κ → ℝ) (σ : κ → ℝ) (V : κ → ι → ℝ) (p q : ι) :
    (h p : EReal) * ∑ k, ((V k p : EReal) * σ k) * ∑ n, (if n = p then 0 else ((a n : EReal) * d n) * g n) * U n k
      - ((h q : EReal) * (∑ k, ((V k q : EReal) * σ k) * ∑ n, (if n = p then 0 else ((a n : EReal) * d n) * g n) * U n k)
          - ((((if q = p then 0 else (a q : EReal)) * d q) * g q) * h q) * ∑ k, (U q k : EReal) * (V k q * σ k))
      = (∑ n, ((if n = p then 0 else (a n : EReal)) * d n)
            * (if n = p then 0 else ((g n : EReal) * ∑ k, (U n k : EReal) * (σ k * V k p)) * h p))
        - ∑ n, ((if n = p then 0 else (a n : EReal)) * d n)
            * (if n = q then 0 else ((g n : EReal) * ∑ k, (U n k : EReal) * (σ k * V k q)) * h q) := by
  simp only [← EReal.coe_mul, coe_ite_zero, ← Cert.LibSums.coe_sum, ← EReal.coe_sub]
  rw [EReal.coe_eq_coe_iff, score_real a d g h U σ V p p, score_real a d g h U σ V p q, if_pos rfl]
  ring

end RealIdentity

/-- The kernel's quantity equals the reference's, row by row, when every array holds real numbers. -/
theorem kerPN_eq_refPN (A d : Fin NB → Fin NI → EReal) (g h : Fin NI → EReal) (U : Fin NI → Fin NK → EReal)
    (σ : Fin NK → EReal) (V : Fin NK → Fin NI → EReal) (p q : Fin NB → Fin NI)
    (hA : ∀ b n, ∃ r : ℝ, A b n = r) (hd : ∀ b n, ∃ r : ℝ, d b n = r) (hg : ∀ n, ∃ r : ℝ, g n = r)
    (hh : ∀ n, ∃ r : ℝ, h n = r) (hU : ∀ n k, ∃ r : ℝ, U n k = r) (hσ : ∀ k, ∃ r : ℝ, σ k = r)
    (hV : ∀ k n, ∃ r : ℝ, V k n = r) (b : Fin NB) :
    kerPN A d g h U σ V p q b = refPN A d g h U σ V p q b := by
  choose A' hA using hA
  choose d' hd using hd
  choose g' hg using hg
  choose h' hh using hh
  choose U' hU using hU
  choose σ' hσ using hσ
  choose V' hV using hV
  simp only [kerPN, kerPNG, kerPosG, kerNegG, G, refPN, refRow, rowZ, colsT, hA, hd, hg, hh, hU, hσ, hV]
  exact pn_coe (A' b) (d' b) g' h' U' σ' V' (p b) (q b)

end Cert.Bpr

end
-- ==== Proof.Bridge.lean ====
/-
  The two programs' "positive score minus negative score" vectors are one vector.

  Each program's host arithmetic is composed, elsewhere, into stage functions of the argument arrays, and each side's
  score difference is read at a batch row as the specification's closed form: the kernel's over the contraction table
  its matrix-product region leaves, the reference's over its two contractions over the items.  Here the two sides meet:

  * the stage functions the two programs share (the gathered interaction rows, the shrunk singular values, the two
    gates, the loss's last stretch) are the same functions, being the same operations in the same order;
  * on admitted inputs every array the algebra reads holds real numbers;
  * the arrays the region reads are, entry by entry, the arguments of the specification's contraction (a conversion to
    the short format changes nothing over the extended reals; a broadcast to a one-row or one-column matrix reads its
    operand);
  * so, the region's output being the specification's contraction, the kernel's closed form is the specification's
    kernel quantity, which the algebra equates with the reference's.
-/
import proofs.«418976_j78056735637975_3_alg».proof.Proof.KerHost
import proofs.«418976_j78056735637975_3_alg».proof.Proof.RefValue
import proofs.«418976_j78056735637975_3_alg».proof.Proof.Gates
import proofs.«418976_j78056735637975_3_alg».proof.Proof.PreFacts
import proofs.«418976_j78056735637975_3_alg».proof.Proof.Math
import proofs.«418976_j78056735637975_3_alg».proof.Proof.Spec

noncomputable section

namespace Cert.Bpr.Bridge

open Idealize.ShloMosaic Idealize.ShloMosaic.ValueIdx
open Cert.Pre_finite_inputs (S8192x16384 S16384x2048 S2048 S2048x16384 S2048x1 S16384x1 S1x16384)

/-! ## The shared stages are the same functions -/

/-- The gathered interaction rows. -/
theorem winA_eq : Cert.KernelIdeal.Hand.winA (F := Ideal) = Cert.ReferenceIdeal.Hand.rowsA (F := Ideal) := rfl

/-- The shrunk singular values. -/
theorem ssS_eq : Cert.KernelIdeal.Hand.ssS (F := Ideal) = Cert.ReferenceIdeal.Hand.ssS (F := Ideal) := rfl

/-- The row gate. -/
theorem dgS_eq : Cert.KernelIdeal.Hand.dgS (F := Ideal) = Cert.ReferenceIdeal.Hand.dgS (F := Ideal) := rfl

/-- The column gate. -/
theorem dbgS_eq : Cert.KernelIdeal.Hand.dbgS (F := Ideal) = Cert.ReferenceIdeal.Hand.dbgS (F := Ideal) := rfl

/-- The loss's last stretch. -/
theorem tail_eq : Cert.KernelIdeal.Hand.tail (F := Ideal) = Cert.ReferenceIdeal.Hand.tail (F := Ideal) := rfl

variable {a0 : FVec Ideal S8192x16384 .f32} {a1 : FVec Ideal S16384x2048 .f32} {a2 : FVec Ideal S2048 .f32}
  {a3 : FVec Ideal S2048x16384 .f32} {a4 : FVec Ideal S2048x1 .f32} {a5 : FVec Ideal S16384x1 .f32}
  {a6 : FVec Ideal S1x16384 .f32} {a7 : FVec Ideal S2048x16384 .f32} {a8 a9 a10 : IVec S2048 32}

/-! ## The gates and the shrunk singular values at an index -/

/-- The row gate at an item is the logistic of the gate weight. -/
theorem dgS_apply (a5 : FVec Ideal S16384x1 .f32) (n : Fin NI) :
    Cert.ReferenceIdeal.Hand.dgS a5 (ix1 n) = sigAt (a5 (ix2 n 0)) :=
  sigChain_col_apply a5 _ _ n

/-- The column gate at an item is the logistic of the gate weight. -/
theorem dbgS_apply (a6 : FVec Ideal S1x16384 .f32) (n : Fin NI) :
    Cert.ReferenceIdeal.Hand.dbgS a6 (ix1 n) = sigAt (a6 (ix2 0 n)) :=
  sigChain_row_apply a6 _ _ n

/-- The shrunk singular value at a latent coordinate. -/
theorem ssS_apply (a2 : FVec Ideal S2048 .f32) (a4 : FVec Ideal S2048x1 .f32) (k : Fin NK) :
    Cert.ReferenceIdeal.Hand.ssS a2 a4 (ix1 k) = ssAt (a2 (ix1 k)) (a4 (ix2 k 0)) :=
  ssChain_apply a2 a4 _ _ k

/-! ## On admitted inputs the algebra's arrays hold reals -/

/-- Every gathered interaction entry is an entry of the interaction matrix. -/
theorem rowsA_real (h : PreOK a0 a1 a2 a3 a4 a5 a6 a7 a8 a9 a10) (b : Fin NB) (n : Fin NI) :
    ∃ r : ℝ, fn2 (Cert.ReferenceIdeal.Hand.rowsA a0 a8) b n = (r : EReal) :=
  h.real0 _

theorem drop_real (h : PreOK a0 a1 a2 a3 a4 a5 a6 a7 a8 a9 a10) (b : Fin NB) (n : Fin NI) :
    ∃ r : ℝ, fn2 a7 b n = (r : EReal) :=
  h.real7 _

theorem u_real (h : PreOK a0 a1 a2 a3 a4 a5 a6 a7 a8 a9 a10) (n : Fin NI) (k : Fin NK) :
    ∃ r : ℝ, fn2 a1 n k = (r : EReal) :=
  h.real1 _

theorem vh_real (h : PreOK a0 a1 a2 a3 a4 a5 a6 a7 a8 a9 a10) (k : Fin NK) (n : Fin NI) :
    ∃ r : ℝ, fn2 a3 k n = (r : EReal) :=
  h.real3 _

theorem dgS_real (h : PreOK a0 a1 a2 a3 a4 a5 a6 a7 a8 a9 a10) (n : Fin NI) :
    ∃ r : ℝ, fn1 (Cert.ReferenceIdeal.Hand.dgS a5) n = (r : EReal) := by
  rw [show fn1 (Cert.ReferenceIdeal.Hand.dgS a5) n = sigAt (a5 (ix2 n 0)) from dgS_apply a5 n]
  exact sigAt_real (h.real5 _)

theorem dbgS_real (h : PreOK a0 a1 a2 a3 a4 a5 a6 a7 a8 a9 a10) (n : Fin NI) :
    ∃ r : ℝ, fn1 (Cert.ReferenceIdeal.Hand.dbgS a6) n = (r : EReal) := by
  rw [show fn1 (Cert.ReferenceIdeal.Hand.dbgS a6) n = sigAt (a6 (ix2 0 n)) from dbgS_apply a6 n]
  exact sigAt_real (h.real6 _)

theorem ssS_real (h : PreOK a0 a1 a2 a3 a4 a5 a6 a7 a8 a9 a10) (k : Fin NK) :
    ∃ r : ℝ, fn1 (Cert.ReferenceIdeal.Hand.ssS a2 a4) k = (r : EReal) := by
  rw [show fn1 (Cert.ReferenceIdeal.Hand.ssS a2 a4) k = ssAt (a2 (ix1 k)) (a4 (ix2 k 0)) from ssS_apply a2 a4 k]
  exact h.ss k

/-! ## The arrays the region reads -/

/-- The dropout mask in the short format is the dropout mask. -/
theorem winDrop_apply (a7 : FVec Ideal S2048x16384 .f32) (i : S2048x16384.Idx) :
    Cert.KernelIdeal.Hand.winDrop a7 i = a7 i := rfl

/-- The factor matrix in the short format is the factor matrix. -/
theorem winU_apply (a1 : FVec Ideal S16384x2048 .f32) (i : S16384x2048.Idx) :
    Cert.KernelIdeal.Hand.winU a1 i = a1 i := rfl

/-- The row gate as a one-row matrix reads the row gate. -/
theorem winDg_apply (a5 : FVec Ideal S16384x1 .f32) (n : Fin NI) :
    Cert.KernelIdeal.Hand.winDg a5 (ix2 0 n) = Cert.KernelIdeal.Hand.dgS a5 (ix1 n) :=
  broadcastInDim_apply _ _ _ (ix2 0 n) (ix1 n) (by
    intro a
    obtain rfl : a = 0 := Subsingleton.elim _ _
    rfl)

/-- The positive items as a one-column matrix read the positive items. -/
theorem winPos_apply (a9 : IVec S2048 32) (b : Fin NB) :
    Cert.KernelIdeal.Hand.winPos a9 (ix2 b 0) = a9 (ix1 b) :=
  broadcastInDim_apply _ _ _ (ix2 b 0) (ix1 b) (by
    intro a
    obtain rfl : a = 0 := Subsingleton.elim _ _
    rfl)

/-! ## The two score differences -/

/-- On admitted inputs, and the region's output being the specification's contraction of the arrays the region reads,
    the kernel's vector of score differences is the reference's. -/
theorem pn_eq (a0 : FVec Ideal S8192x16384 .f32) (a1 : FVec Ideal S16384x2048 .f32) (a2 : FVec Ideal S2048 .f32)
    (a3 : FVec Ideal S2048x16384 .f32) (a4 : FVec Ideal S2048x1 .f32) (a5 : FVec Ideal S16384x1 .f32)
    (a6 : FVec Ideal S1x16384 .f32) (a7 : FVec Ideal S2048x16384 .f32) (a8 a9 a10 : IVec S2048 32)
    (h : PreOK a0 a1 a2 a3 a4 a5 a6 a7 a8 a9 a10) (Gv : FVec Ideal Cert.KernelIdeal.S2048x2048 .f32)
    (hG : ∀ b k, Gv (ix2 b k)
      = Cert.Bpr.G (fn2 (Cert.KernelIdeal.Hand.winA a0 a8)) (fn2 (Cert.KernelIdeal.Hand.winDrop a7))
          (fun n => Cert.KernelIdeal.Hand.winDg a5 (ix2 0 n)) (fn2 (Cert.KernelIdeal.Hand.winU a1))
          (fun b => itemOf (Cert.KernelIdeal.Hand.winPos a9 (ix2 b 0))) b k) :
    Cert.KernelIdeal.Hand.pn Gv (Cert.KernelIdeal.Hand.winA a0 a8) (Cert.KernelIdeal.Hand.ssS a2 a4)
        (Cert.KernelIdeal.Hand.dgS a5) (Cert.KernelIdeal.Hand.dbgS a6) a1 a3 a7 Cert.KernelIdeal.Hand.iotaS a9 a10
      = Cert.ReferenceIdeal.Hand.pn a0 a1 a2 a3 a4 a5 a6 a7 a8 a9 a10 := by
  funext j
  obtain ⟨b, rfl⟩ : ∃ b : Fin 2048, j = ix1 b := ⟨j 0, eq_ix1 (n := 2048) j⟩
  refine (Cert.KernelIdeal.Hand.pn_apply Gv _ _ _ _ a1 a3 a7 a9 a10 h.pos h.neg b).trans ?_
  refine Eq.trans ?_ (Cert.ReferenceIdeal.Hand.pn_apply a0 a1 a2 a3 a4 a5 a6 a7 a8 a9 a10 h.pos h.neg b).symm
  have hg : (fun n => Cert.KernelIdeal.Hand.winDg a5 (ix2 0 n)) = fn1 (Cert.ReferenceIdeal.Hand.dgS a5) :=
    funext fun n => winDg_apply a5 n
  have hp : (fun b => itemOf (Cert.KernelIdeal.Hand.winPos a9 (ix2 b 0))) = itemAt a9 :=
    funext fun b => congrArg itemOf (winPos_apply a9 b)
  have hGv : fn2 Gv = Cert.Bpr.G (fn2 (Cert.ReferenceIdeal.Hand.rowsA a0 a8)) (fn2 a7)
      (fn1 (Cert.ReferenceIdeal.Hand.dgS a5)) (fn2 a1) (itemAt a9) := by
    funext b k
    refine (hG b k).trans ?_
    rw [hg, hp]
    rfl
  rw [hGv]
  exact kerPN_eq_refPN _ _ _ _ _ _ _ _ _ (rowsA_real h) (drop_real h) (dgS_real h) (dbgS_real h) (u_real h)
    (ssS_real h) (vh_real h) b

end Cert.Bpr.Bridge

end
-- ==== Proof.KerResult.lean ====
/-
  The kernel program's result, as a function of its argument arrays.

  Running the program leaves, in the result's buffer, the last stretch of the loss applied to the vector of score
  differences; every array that vector is computed from is a stage function of the argument arrays, the region's
  output being the specification's contraction of the arrays the region reads.  On admitted inputs that vector is the
  reference's vector of score differences, so the result is the reference's term of the same arguments; the eleven
  argument arrays end as launched.
-/
import proofs.«418976_j78056735637975_3_alg».proof.Proof.KerLaunch
import proofs.«418976_j78056735637975_3_alg».proof.Proof.KerHost
import proofs.«418976_j78056735637975_3_alg».proof.Proof.KerRegionValue
import proofs.«418976_j78056735637975_3_alg».proof.Proof.Bridge
import proofs.«418976_j78056735637975_3_alg».proof.Proof.PreFacts
import proofs.«418976_j78056735637975_3_alg».proof.Defs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window arrRef)

section Result

variable (m : (ℓ : Loc nD τ sig) → Buf (Elt Ideal) ℓ)

/-- The region's output, entered from the buffers the first stretch of host operations leaves, is the specification's
    contraction of the stage functions of the argument arrays, the positive items being in range. -/
theorem region_at (c : Dev nD) (hpos : ∀ i, Cert.Bpr.InRange ((m ((c.tc : Thread nD τ).loc main_arg9)) i)) (b k : Fin 2048) :
    ((pd m 0 c).arrAt 5 cfg0.N : S2048x2048.Idx → EReal) (ix2 b k)
      = Cert.Bpr.G (Cert.Bpr.fn2 (winA (F := Ideal) (m ((c.tc : Thread nD τ).loc main_arg0)) (m ((c.tc : Thread nD τ).loc main_arg8))))
          (Cert.Bpr.fn2 (winDrop (F := Ideal) (m ((c.tc : Thread nD τ).loc main_arg7))))
          (fun n => winDg (F := Ideal) (m ((c.tc : Thread nD τ).loc main_arg5)) (ix2 0 n))
          (Cert.Bpr.fn2 (winU (F := Ideal) (m ((c.tc : Thread nD τ).loc main_arg1))))
          (fun b => Cert.Bpr.itemOf (winPos (m ((c.tc : Thread nD τ).loc main_arg9)) (ix2 b 0))) b k := by
  have w0 : arrA (VinR m) c = winA (F := Ideal) (m ((c.tc : Thread nD τ).loc main_arg0)) (m ((c.tc : Thread nD τ).loc main_arg8)) := after0_v29 (V₀ m c)
  have w1 : arrD (VinR m) c = winDrop (F := Ideal) (m ((c.tc : Thread nD τ).loc main_arg7)) := after0_v30 (V₀ m c)
  have w2 : arrG (VinR m) c = winDg (F := Ideal) (m ((c.tc : Thread nD τ).loc main_arg5)) := after0_v31 (V₀ m c)
  have w3 : arrP (VinR m) c = winPos (m ((c.tc : Thread nD τ).loc main_arg9)) := after0_v32 (V₀ m c)
  have w4 : arrU (VinR m) c = winU (F := Ideal) (m ((c.tc : Thread nD τ).loc main_arg1)) := after0_v33 (V₀ m c)
  have hp : ∀ b : Fin 2048, Cert.Bpr.InRange (arrP (VinR m) c (ix2 b 0)) := by
    intro b
    rw [w3, Cert.Bpr.Bridge.winPos_apply]
    exact hpos _
  have hv := region_value (UU := UL) (VinR m) c hp b k
  rw [w0, w1, w2, w3, w4] at hv
  exact hv

end Result

/-- On admitted inputs the program runs, its result is the reference's term of the argument arrays, and the argument
    arrays end as launched. -/
theorem ker_result [hP : Cert.Pre_finite_inputs.Facts] (m : (ℓ : Loc nD τ sig) → Buf (Elt Ideal) ℓ) (ρ : Dev nD → PrngReg)
    (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v0)
          = Cert.ReferenceIdeal.Hand.tail (F := Ideal) (Cert.ReferenceIdeal.Hand.pn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run (defs (F := Ideal)) _ _).mono ?_ (run_main m ρ)
  intro r hr c
  have hp : Cert.Bpr.PreOK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    Cert.Bpr.preOK_of_pre _ _ _ _ _ _ _ _ _ _ _ (hpre c)
  refine ⟨?_, (hr c main_arg0 rfl).trans (Vfin_arg m c main_arg0 (by decide) (by decide)),
    (hr c main_arg1 rfl).trans (Vfin_arg m c main_arg1 (by decide) (by decide)),
    (hr c main_arg2 rfl).trans (Vfin_arg m c main_arg2 (by decide) (by decide)),
    (hr c main_arg3 rfl).trans (Vfin_arg m c main_arg3 (by decide) (by decide)),
    (hr c main_arg4 rfl).trans (Vfin_arg m c main_arg4 (by decide) (by decide)),
    (hr c main_arg5 rfl).trans (Vfin_arg m c main_arg5 (by decide) (by decide)),
    (hr c main_arg6 rfl).trans (Vfin_arg m c main_arg6 (by decide) (by decide)),
    (hr c main_arg7 rfl).trans (Vfin_arg m c main_arg7 (by decide) (by decide)),
    (hr c main_arg8 rfl).trans (Vfin_arg m c main_arg8 (by decide) (by decide)),
    (hr c main_arg9 rfl).trans (Vfin_arg m c main_arg9 (by decide) (by decide)),
    (hr c main_arg10 rfl).trans (Vfin_arg m c main_arg10 (by decide) (by decide))⟩
  rw [hr c main_v0 rfl]
  show StableHlo.after hostOps1 (Vout m c) main_v0 = _
  rw [after1_v0 (Vout m c)]
  have e34 : Vout m c main_call0_v34 = (pd m 0 c).arrAt 5 cfg0.N := Vout_out m c
  have e29 : Vout m c main_call0_v29 = winA (F := Ideal) (m ((c.tc : Thread nD τ).loc main_arg0)) (m ((c.tc : Thread nD τ).loc main_arg8)) := by
    rw [Vout_of_ne m c (by decide)]
    exact after0_v29 (V₀ m c)
  have e7 : Vout m c main_call0_v7 = ssS (F := Ideal) (m ((c.tc : Thread nD τ).loc main_arg2)) (m ((c.tc : Thread nD τ).loc main_arg4)) := by
    rw [Vout_of_ne m c (by decide)]
    exact after0_v7 (V₀ m c)
  have e14 : Vout m c main_call0_v14 = dgS (F := Ideal) (m ((c.tc : Thread nD τ).loc main_arg5)) := by
    rw [Vout_of_ne m c (by decide)]
    exact after0_v14 (V₀ m c)
  have e21 : Vout m c main_call0_v21 = dbgS (F := Ideal) (m ((c.tc : Thread nD τ).loc main_arg6)) := by
    rw [Vout_of_ne m c (by decide)]
    exact after0_v21 (V₀ m c)
  have e22 : Vout m c main_call0_v22 = iotaS := by
    rw [Vout_of_ne m c (by decide)]
    exact after0_v22 (V₀ m c)
  have a1 : Vout m c main_arg1 = m ((c.tc : Thread nD τ).loc main_arg1) := by
    rw [Vout_of_ne m c (by decide)]
    exact after_arg hostOps0 hostOps0_results _ main_arg1 (by decide)
  have a3 : Vout m c main_arg3 = m ((c.tc : Thread nD τ).loc main_arg3) := by
    rw [Vout_of_ne m c (by decide)]
    exact after_arg hostOps0 hostOps0_results _ main_arg3 (by decide)
  have a7 : Vout m c main_arg7 = m ((c.tc : Thread nD τ).loc main_arg7) := by
    rw [Vout_of_ne m c (by decide)]
    exact after_arg hostOps0 hostOps0_results _ main_arg7 (by decide)
  have a9 : Vout m c main_arg9 = m ((c.tc : Thread nD τ).loc main_arg9) := by
    rw [Vout_of_ne m c (by decide)]
    exact after_arg hostOps0 hostOps0_results _ main_arg9 (by decide)
  have a10 : Vout m c main_arg10 = m ((c.tc : Thread nD τ).loc main_arg10) := by
    rw [Vout_of_ne m c (by decide)]
    exact after_arg hostOps0 hostOps0_results _ main_arg10 (by decide)
  rw [e34, e29, e7, e14, e21, a1, a3, a7, e22, a9, a10, Cert.Bpr.Bridge.tail_eq]
  refine congrArg _ (Cert.Bpr.Bridge.pn_eq _ _ _ _ _ _ _ _ _ _ _ hp _ fun b k => ?_)
  exact region_at m c hp.pos b k

end Cert.KernelIdeal.Hand

end
-- ==== Proof.RefRun.lean ====
/- The reference program's run. The reference is one straight line of 190 host operations once its call of
   log_sigmoid, and that function's call of softplus, are read as the callees' statements over the call's
   buffers. A straight line always terminates, and leaves every buffer at the fold of the operations' results
   over the launch contents; each operation writes its own result buffer and nothing else, none of them an
   argument, so the eleven argument arrays end as they began. -/
import proofs.«418976_j78056735637975_3_alg».proof.Proof.RefOps
import proofs.«418976_j78056735637975_3_alg».proof.Proof.Gen.Pre_finite_inputs
import proofs.«418976_j78056735637975_3_alg».proof.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the program is a sequence 190 statements deep and the flattening descends through all of it: generous bounds
set_option maxRecDepth 8192 in
set_option maxHeartbeats 4000000 in
/-- The program read as a list. `main` runs its three windows one after another; the one call it makes stands
    for the callee's statements, and the callee's own call for that callee's, each over the buffers the call's
    record names. Sequencing is associative and a bare return is its unit, so the nested sequence and the flat
    one over `ops` are the same program. -/
theorem main_eq (c : Dev nD) : main (F := F) c = seq ops := by
  simp only [main, main_part0, main_part1, main_part2, fn_log_sigmoid.body, fn_softplus.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! No operation writes an argument array: at an argument's buffer every operation's result is what was there
    (its own result buffer is another reference), so the fold leaves the launch contents. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp
theorem arg10_eq (V : Valuation τ sig (Elt F)) : after ops V (main_arg10 : DevRef τ sig) = V (main_arg10 : DevRef τ sig) := by
  after_results_simp

/-- The run. Whatever the float values and the memory at launch (semaphores at zero), the reference terminates
    on every weakly fair schedule; afterwards the loss, buffer `main_v138`, holds what folding the 190 operations
    over the launch contents puts there (left folded: the value proof reads it stage by stage), and each of the
    eleven argument arrays holds what it held at launch. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v138) = after ops (launchContents m c) (main_v138 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono (fun _ h c => ⟨h c main_v138, (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

/-- The reference runs and leaves its arguments as they were: the run, its result conjunct dropped. -/
theorem frame_ri : Cert.frame_ReferenceIdeal := by
  unfold Cert.frame_ReferenceIdeal
  intro m g _
  exact (θ_run _ _ _).mono (fun _ h c => (h c).2) (run (F := Ideal) m g)

end Cert.ReferenceIdeal.Hand

end
-- ==== Proof.lean ====
/-
  The five conjuncts of `Cert.Claim`.

  Frames.  The kernel program is a stretch of host operations, one kernel region and a second stretch of host
  operations; at both of its instances it runs to the end, faults nowhere and leaves its argument arrays unchanged
  (the region writes only its own output array, a host operation only the buffer it defines).  The reference is a
  straight-line host program.

  Values, at the ideal instance.  Both programs end with  − mean_b log σ(100 · (pos_b − neg_b)).  The vector
  pos − neg is the same on both sides: the reference contracts the dropped-out interaction row (positive item
  zeroed) with the gated low-rank column of the positive, respectively the negative item (diagonal entry zeroed);
  the kernel contracts that row with the factor matrix once and reads both scores off the result, removing from
  the negative score the single item that the shared contraction over-counts.  The two agree because under the
  precondition (finite inputs, item indices in range, a nonzero shrinkage denominator) every entry is a real
  number, so products distribute over the finite sums and the sums exchange.

  `preserves` is `True`: the idealization rewrote nothing.
-/
import proofs.«418976_j78056735637975_3_alg».proof.Defs
import proofs.«418976_j78056735637975_3_alg».proof.Proof.Gen.Kernel
import proofs.«418976_j78056735637975_3_alg».proof.Proof.Gen.KernelIdeal
import proofs.«418976_j78056735637975_3_alg».proof.Proof.Gen.ReferenceIdeal
import proofs.«418976_j78056735637975_3_alg».proof.Proof.Gen.Pre_finite_inputs
import proofs.«418976_j78056735637975_3_alg».proof.Proof.KLaunch
import proofs.«418976_j78056735637975_3_alg».proof.Proof.KerLaunch
import proofs.«418976_j78056735637975_3_alg».proof.Proof.KerResult
import proofs.«418976_j78056735637975_3_alg».proof.Proof.RefRun
import proofs.«418976_j78056735637975_3_alg».proof.Proof.RefValue

noncomputable section

namespace Cert.Proof

open Idealize.ShloMosaic Idealize.SL.Sem

/-- The reference's run ends with its result at the stage functions' term of its own argument arrays, the
    arguments unchanged. -/
theorem ref_result (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v138)
          = Cert.ReferenceIdeal.Hand.tail (F := Ideal) (Cert.ReferenceIdeal.Hand.pn (F := Ideal)
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
              (m' ((c.tc : Thread Cert.ReferenceIdeal.nD Cert.ReferenceIdeal.τ).loc Cert.ReferenceIdeal.main_arg8))
              (m' ((c.tc : Thread Cert.ReferenceIdeal.nD Cert.ReferenceIdeal.τ).loc Cert.ReferenceIdeal.main_arg9))
              (m' ((c.tc : Thread Cert.ReferenceIdeal.nD Cert.ReferenceIdeal.τ).loc Cert.ReferenceIdeal.main_arg10)))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) := by
  refine (θ_run (Cert.ReferenceIdeal.defs (F := Ideal)) _ _).mono (fun r h c => ⟨?_, (h c).2⟩)
    (Cert.ReferenceIdeal.Hand.run (F := Ideal) m' g')
  rw [(h c).1, Cert.ReferenceIdeal.Hand.after_v138]

/-- Both idealized programs, run from memories agreeing on the arguments, end at one value: the reference's term of
    the (shared) argument arrays. -/
theorem algebraic : Cert.algebraic_KernelIdeal_ReferenceIdeal := by
  intro m g m' g' hpre hagree
  refine ⟨fun c => Cert.ReferenceIdeal.Hand.tail (F := Ideal) (Cert.ReferenceIdeal.Hand.pn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))),
    Cert.KernelIdeal.Hand.ker_result m g hpre, ?_⟩
  refine (θ_run (Cert.ReferenceIdeal.defs (F := Ideal)) _ _).mono (fun r h c => ⟨?_, (h c).2⟩) (ref_result m' g')
  obtain ⟨e0, e1, e2, e3, e4, e5, e6, e7, e8, e9, e10⟩ := hagree c
  rw [(h c).1, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    fun m g _ => Cert.Kernel.Hand.frame (F := Bits) m g,
    fun m g _ => Cert.KernelIdeal.Hand.frame (F := Ideal) m g,
    Cert.ReferenceIdeal.Hand.frame_ri,
    trivial,
    algebraic⟩

end Cert.Proof

end
